-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x256 : Shape := ⟨2, ![8192, 256]⟩
abbrev S768x1024 : Shape := ⟨2, ![768, 1024]⟩
abbrev S1024 : Shape := ⟨1, ![1024]⟩
abbrev S1024x4256 : Shape := ⟨2, ![1024, 4256]⟩
abbrev S2176x4 : Shape := ⟨2, ![2176, 4]⟩
abbrev S2176 : Shape := ⟨1, ![2176]⟩
abbrev S32 : Shape := ⟨1, ![32]⟩
abbrev S2048 : Shape := ⟨1, ![2048]⟩
abbrev S2048x1024 : Shape := ⟨2, ![2048, 1024]⟩
abbrev S1024x512 : Shape := ⟨2, ![1024, 512]⟩
abbrev S512 : Shape := ⟨1, ![512]⟩
abbrev S1024x1 : Shape := ⟨2, ![1024, 1]⟩
abbrev S1 : Shape := ⟨1, ![1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S768x1024 : S_.BroadcastsInDim S768x1024 (![] : Fin 0 → Fin S768x1024.rank)
  reducesTo_S768x1024_S_d0_1 : S768x1024.ReducesTo [0, 1] S_
  bcast_S_S1024 : S_.BroadcastsInDim S1024 (![] : Fin 0 → Fin S1024.rank)
  reducesTo_S1024_S_d0 : S1024.ReducesTo [0] S_
  bcast_S_S1024x4256 : S_.BroadcastsInDim S1024x4256 (![] : Fin 0 → Fin S1024x4256.rank)
  reducesTo_S1024x4256_S_d0_1 : S1024x4256.ReducesTo [0, 1] S_
  bcast_S_S2176x4 : S_.BroadcastsInDim S2176x4 (![] : Fin 0 → Fin S2176x4.rank)
  reducesTo_S2176x4_S_d0_1 : S2176x4.ReducesTo [0, 1] S_
  bcast_S_S2176 : S_.BroadcastsInDim S2176 (![] : Fin 0 → Fin S2176.rank)
  reducesTo_S2176_S_d0 : S2176.ReducesTo [0] S_
  bcast_S_S32 : S_.BroadcastsInDim S32 (![] : Fin 0 → Fin S32.rank)
  reducesTo_S32_S_d0 : S32.ReducesTo [0] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1024x1 .f32) (main_arg15 : FVec F S1 .f32) (main_v63 : IVec S_ 1) (main_v67 : IVec S_ 1) : IVec S_ 1 :=
  let main_v68 : IVec S_ 1 := andi main_v63 main_v67
  let main_v69 : FVec F S1024x1 .f32 := Host.absf main_arg14
  let main_cst_26 : FVec F S_ .f32 := constant S_ .f32 0x7F800000#32
  let main_v70 : FVec F S1024x1 .f32 := broadcastInDim S1024x1 ![] bcast_S_S1024x1 main_cst_26
  let main_v71 : IVec S1024x1 1 := cmpf .olt main_v69 main_v70
  let main_c_27 : IVec S_ 1 := constantI S_ 1 1#1
  let main_v72 : IVec S_ 1 := (fun x v => Host.reduce IntOp.andi x v reducesTo_S1024x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S2048x1024 .f32) (main_arg12 : FVec F S1024x512 .f32) (main_arg13 : FVec F S512 .f32) (main_arg14 : FVec F S1024x1 .f32) (main_arg15 : FVec F S1 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x1024 .f32 := Host.absf main_arg11
  let main_cst_20 : FVec F S_ .f32 := constant S_ .f32 0x7F800000#32
  let main_v55 : FVec F S2048x1024 .f32 := broadcastInDim S2048x1024 ![] bcast_S_S2048x1024 main_cst_20
  let main_v56 : IVec S2048x1024 1 := cmpf .olt main_v54 main_v55
  let main_c_21 : IVec S_ 1 := constantI S_ 1 1#1
  let main_v57 : IVec S_ 1 := (fun x v => Host.reduce IntOp.andi x v reducesTo_S2048x1024_S_d0_1 h_S_) main_v56 main_c_21
  let main_v58 : IVec S_ 1 := andi main_v53 main_v57
  let main_v59 : FVec F S1024x512 .f32 := Host.absf main_arg12
  let main_cst_22 : FVec F S_ .f32 := constant S_ .f32 0x7F800000#32
  let main_v60 : FVec F S1024x512 .f32 := broadcastInDim S1024x512 ![] bcast_S_S1024x512 main_cst_22
  let main_v61 : IVec S1024x512 1 := cmpf .olt main_v59 main_v60
  let main_c_23 : IVec S_ 1 := constantI S_ 1 1#1
  let main_v62 : IVec S_ 1 := (fun x v => Host.reduce IntOp.andi x v reducesTo_S1024x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_v63 main_v67

def fn_part2 {F : FTy → Type} [FloatOps F] (main_arg7 : FVec F S32 .f32) (main_arg8 : FVec F S32 .f32) (main_arg9 : FVec F S32 .f32) (main_arg10 : FVec F S2048 .f32) (main_arg11 : FVec F S2048x1024 .f32) (main_arg12 : FVec F S1024x512 .f32) (main_arg13 : FVec F S512 .f32) (main_arg14 : FVec F S1024x1 .f32) (main_arg15 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_v48 main_v49 main_v50

def fn_part1 {F : FTy → Type} [FloatOps F] (main_arg4 : FVec F S1024x4256 .f32) (main_arg5 : FVec F S2176x4 .f32) (main_arg6 : FVec F S2176 .f32) (main_arg7 : FVec F S32 .f32) (main_arg8 : FVec F S32 .f32) (main_arg9 : FVec F S32 .f32) (main_arg10 : FVec F S2048 .f32) (main_arg11 : FVec F S2048x1024 .f32) (main_arg12 : FVec F S1024x512 .f32) (main_arg13 : FVec F S512 .f32) (main_arg14 : FVec F S1024x1 .f32) (main_arg15 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x4256 .f32 := Host.absf main_arg4
  let main_cst_6 : FVec F S_ .f32 := constant S_ .f32 0x7F800000#32
  let main_v20 : FVec F S1024x4256 .f32 := broadcastInDim S1024x4256 ![] bcast_S_S1024x4256 main_cst_6
  let main_v21 : IVec S1024x4256 1 := cmpf .olt main_v19 main_v20
  let main_c_7 : IVec S_ 1 := constantI S_ 1 1#1
  let main_v22 : IVec S_ 1 := (fun x v => Host.reduce IntOp.andi x v reducesTo_S1024x4256_S_d0_1 h_S_) main_v21 main_c_7
  let main_v23 : IVec S_ 1 := andi main_v18 main_v22
  let main_v24 : FVec F S2176x4 .f32 := Host.absf main_arg5
  let main_cst_8 : FVec F S_ .f32 := constant S_ .f32 0x7F800000#32
  let main_v25 : FVec F S2176x4 .f32 := broadcastInDim S2176x4 ![] bcast_S_S2176x4 main_cst_8
  let main_v26 : IVec S2176x4 1 := cmpf .olt main_v24 main_v25
  let main_c_9 : IVec S_ 1 := constantI S_ 1 1#1
  let main_v27 : IVec S_ 1 := (fun x v => Host.reduce IntOp.andi x v reducesTo_S2176x4_S_d0_1 h_S_) main_v26 main_c_9
  let main_v28 : IVec S_ 1 := andi main_v23 main_v27
  let main_v29 : FVec F S2176 .f32 := Host.absf main_arg6
  let main_cst_10 : FVec F S_ .f32 := constant S_ .f32 0x7F800000#32
  let main_v30 : FVec F S2176 .f32 := broadcastInDim S2176 ![] bcast_S_S2176 main_cst_10
  let main_v31 : IVec S2176 1 := cmpf .olt main_v29 main_v30
  let main_c_11 : IVec S_ 1 := constantI S_ 1 1#1
  let main_v32 : IVec S_ 1 := (fun x v => Host.reduce IntOp.andi x v reducesTo_S2176_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S8192x512 .f32) (main_arg1 : FVec F S8192x256 .f32) (main_arg2 : FVec F S768x1024 .f32) (main_arg3 : FVec F S1024 .f32) (main_arg4 : FVec F S1024x4256 .f32) (main_arg5 : FVec F S2176x4 .f32) (main_arg6 : FVec F S2176 .f32) (main_arg7 : FVec F S32 .f32) (main_arg8 : FVec F S32 .f32) (main_arg9 : FVec F S32 .f32) (main_arg10 : FVec F S2048 .f32) (main_arg11 : FVec F S2048x1024 .f32) (main_arg12 : FVec F S1024x512 .f32) (main_arg13 : FVec F S512 .f32) (main_arg14 : FVec F S1024x1 .f32) (main_arg15 : FVec F S1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S768x1024 .f32 := Host.absf main_arg2
  let main_cst_2 : FVec F S_ .f32 := constant S_ .f32 0x7F800000#32
  let main_v10 : FVec F S768x1024 .f32 := broadcastInDim S768x1024 ![] bcast_S_S768x1024 main_cst_2
  let main_v11 : IVec S768x1024 1 := cmpf .olt main_v9 main_v10
  let main_c_3 : IVec S_ 1 := constantI S_ 1 1#1
  let main_v12 : IVec S_ 1 := (fun x v => Host.reduce IntOp.andi x v reducesTo_S768x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S8192x512 : Shape := ⟨2, ![8192, 512]⟩
abbrev S8192x256 : Shape := ⟨2, ![8192, 256]⟩
abbrev S768x1024 : Shape := ⟨2, ![768, 1024]⟩
abbrev S1024 : Shape := ⟨1, ![1024]⟩
abbrev S1024x4256 : Shape := ⟨2, ![1024, 4256]⟩
abbrev S2176x4 : Shape := ⟨2, ![2176, 4]⟩
abbrev S2176 : Shape := ⟨1, ![2176]⟩
abbrev S32 : Shape := ⟨1, ![32]⟩
abbrev S2048 : Shape := ⟨1, ![2048]⟩
abbrev S2048x1024 : Shape := ⟨2, ![2048, 1024]⟩
abbrev S1024x512 : Shape := ⟨2, ![1024, 512]⟩
abbrev S512 : Shape := ⟨1, ![512]⟩
abbrev S1024x1 : Shape := ⟨2, ![1024, 1]⟩
abbrev S1 : Shape := ⟨1, ![1]⟩
abbrev S2176x1 : Shape := ⟨2, ![2176, 1]⟩
abbrev S1x2176 : Shape := ⟨2, ![1, 2176]⟩
abbrev S1x32 : Shape := ⟨2, ![1, 32]⟩
abbrev S32x64 : Shape := ⟨2, ![32, 64]⟩
abbrev S1x2048 : Shape := ⟨2, ![1, 2048]⟩
abbrev S1x1024 : Shape := ⟨2, ![1, 1024]⟩
abbrev S1x512 : Shape := ⟨2, ![1, 512]⟩
abbrev S1x1 : Shape := ⟨2, ![1, 1]⟩
abbrev S32x32 : Shape := ⟨2, ![32, 32]⟩
abbrev S_ : Shape := ⟨0, ![]⟩
abbrev S32x32x64 : Shape := ⟨3, ![32, 32, 64]⟩
abbrev S32x2048 : Shape := ⟨2, ![32, 2048]⟩
abbrev S8192x1 : Shape := ⟨2, ![8192, 1]⟩
abbrev S128x512 : Shape := ⟨2, ![128, 512]⟩
abbrev S128x256 : Shape := ⟨2, ![128, 256]⟩
abbrev S128x1 : Shape := ⟨2, ![128, 1]⟩
abbrev S128x768 : Shape := ⟨2, ![128, 768]⟩
abbrev S128x1024 : Shape := ⟨2, ![128, 1024]⟩
abbrev S128x4256 : Shape := ⟨2, ![128, 4256]⟩
abbrev S128x2048 : Shape := ⟨2, ![128, 2048]⟩
abbrev S128x2176 : Shape := ⟨2, ![128, 2176]⟩
abbrev S128x32 : Shape := ⟨2, ![128, 32]⟩
abbrev S128x64 : Shape := ⟨2, ![128, 64]⟩
abbrev S128 : Shape := ⟨1, ![128]⟩
abbrev S8192 : Shape := ⟨1, ![8192]⟩

abbrev nBuf : Space → Nat
  | .hbm => 45
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S768x1024, .f32⟩
  | .hbm, ⟨3, _⟩ => ⟨S1024, .f32⟩
  | .hbm, ⟨4, _⟩ => ⟨S1024x4256, .f32⟩
  | .hbm, ⟨5, _⟩ => ⟨S2176x4, .f32⟩
  | .hbm, ⟨6, _⟩ => ⟨S2176, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S2048, .f32⟩
  | .hbm, ⟨11, _⟩ => ⟨S2048x1024, .f32⟩
  | .hbm, ⟨12, _⟩ => ⟨S1024x512, .f32⟩
  | .hbm, ⟨13, _⟩ => ⟨S512, .f32⟩
  | .hbm, ⟨14, _⟩ => ⟨S1024x1, .f32⟩
  | .hbm, ⟨15, _⟩ => ⟨S1, .f32⟩
  | .hbm, ⟨16, _⟩ => ⟨S768x1024, .bf16⟩
  | .hbm, ⟨17, _⟩ => ⟨S1024x4256, .bf16⟩
  | .hbm, ⟨18, _⟩ => ⟨S2048x1024, .bf16⟩
  | .hbm, ⟨19, _⟩ => ⟨S1024x512, .bf16⟩
  | .hbm, ⟨20, _⟩ => ⟨S1024x1, .bf16⟩
  | .hbm, ⟨21, _⟩ => ⟨S2176x1, .f32⟩
  | .hbm, ⟨22, _⟩ => ⟨S2176, .f32⟩
  | .hbm, ⟨23, _⟩ => ⟨S1x2176, .f32⟩
  | .hbm, ⟨24, _⟩ => ⟨S1x2176, .f32⟩
  | .hbm, ⟨25, _⟩ => ⟨S1x32, .f32⟩
  | .hbm, ⟨26, _⟩ => ⟨S32x64, .f32⟩
  | .hbm, ⟨27, _⟩ => ⟨S2048, .f32⟩
  | .hbm, ⟨28, _⟩ => ⟨S1x2048, .f32⟩
  | .hbm, ⟨29, _⟩ => ⟨S1x2048, .f32⟩
  | .hbm, ⟨30, _⟩ => ⟨S1x1024, .f32⟩
  | .hbm, ⟨31, _⟩ => ⟨S1x512, .f32⟩
  | .hbm, ⟨32, _⟩ => ⟨S1x1, .f32⟩
  | .hbm, ⟨33, _⟩ => ⟨S32x32, .i32⟩
  | .hbm, ⟨34, _⟩ => ⟨S32x32, .i32⟩
  | .hbm, ⟨35, _⟩ => ⟨S_, .i32⟩
  | .hbm, ⟨36, _⟩ => ⟨S32x32, .i32⟩
  | .hbm, ⟨37, _⟩ => ⟨S32x32, .i32⟩
  | .hbm, ⟨38, _⟩ => ⟨S32x32, .i1⟩
  | .hbm, ⟨39, _⟩ => ⟨S32x32, .bf16⟩
  | .hbm, ⟨40, _⟩ => ⟨S32x32x64, .bf16⟩
  | .hbm, ⟨41, _⟩ => ⟨S32x2048, .bf16⟩
  | .hbm, ⟨42, _⟩ => ⟨S8192x512, .f32⟩
  | .hbm, ⟨43, _⟩ => ⟨S8192x1, .f32⟩
  | .hbm, ⟨44, _⟩ => ⟨S8192, .f32⟩
  | .local _ .vmem, ⟨0, _⟩ => ⟨S128x512, .f32⟩
  | .local _ .vmem, ⟨1, _⟩ => ⟨S128x512, .f32⟩
  | .local _ .vmem, ⟨2, _⟩ => ⟨S128x256, .f32⟩
  | .local _ .vmem, ⟨3, _⟩ => ⟨S128x256, .f32⟩
  | .local _ .vmem, ⟨4, _⟩ => ⟨S768x1024, .bf16⟩
  | .local _ .vmem, ⟨5, _⟩ => ⟨S1x1024, .f32⟩
  | .local _ .vmem, ⟨6, _⟩ => ⟨S1024x4256, .bf16⟩
  | .local _ .vmem, ⟨7, _⟩ => ⟨S1x2176, .f32⟩
  | .local _ .vmem, ⟨8, _⟩ => ⟨S1x2176, .f32⟩
  | .local _ .vmem, ⟨9, _⟩ => ⟨S1x32, .f32⟩
  | .local _ .vmem, ⟨10, _⟩ => ⟨S1x2048, .f32⟩
  | .local _ .vmem, ⟨11, _⟩ => ⟨S32x2048, .bf16⟩
  | .local _ .vmem, ⟨12, _⟩ => ⟨S1x2048, .f32⟩
  | .local _ .vmem, ⟨13, _⟩ => ⟨S2048x1024, .bf16⟩
  | .local _ .vmem, ⟨14, _⟩ => ⟨S1024x512, .bf16⟩
  | .local _ .vmem, ⟨15, _⟩ => ⟨S1x512, .f32⟩
  | .local _ .vmem, ⟨16, _⟩ => ⟨S1024x1, .bf16⟩
  | .local _ .vmem, ⟨17, _⟩ => ⟨S1x1, .f32⟩
  | .local _ .vmem, ⟨18, _⟩ => ⟨S128x512, .f32⟩
  | .local _ .vmem, ⟨19, _⟩ => ⟨S128x512, .f32⟩
  | .local _ .vmem, ⟨20, _⟩ => ⟨S128x1, .f32⟩
  | .local _ .vmem, ⟨21, _⟩ => ⟨S128x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25_0 : Ref sig .tc := ⟨.hbm, 42, rfl⟩
abbrev main_v25_1 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2176 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2176 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bitsLt_bf16_f32 : FTy.bits .bf16 < FTy.bits .f32
  slices_S2176x4_S2176x1_0_3 : S2176x4.Slices ![0, 3] S2176x1
  shapeCasts_S2176x1_S2176 : S2176x1.ShapeCasts S2176
  shapeCasts_S2176_S1x2176 : S2176.ShapeCasts S1x2176
  shapeCasts_S32_S1x32 : S32.ShapeCasts S1x32
  bcast_S32_S32x64_0 : S32.BroadcastsInDim S32x64 (![0] : Fin 1 → Fin S32x64.rank)
  shapeCasts_S32x64_S2048 : S32x64.ShapeCasts S2048
  shapeCasts_S2048_S1x2048 : S2048.ShapeCasts S1x2048
  shapeCasts_S1024_S1x1024 : S1024.ShapeCasts S1x1024
  shapeCasts_S512_S1x512 : S512.ShapeCasts S1x512
  shapeCasts_S1_S1x1 : S1.ShapeCasts S1x1
  bcast_S_S32x32 : S_.BroadcastsInDim S32x32 (![] : Fin 0 → Fin S32x32.rank)
  bcast_S32x32_S32x32x64_0_1 : S32x32.BroadcastsInDim S32x32x64 (![0, 1] : Fin 2 → Fin S32x32x64.rank)
  shapeCasts_S32x32x64_S32x2048 : S32x32x64.ShapeCasts S32x2048
  inb_S128x512_S128x512_0_0 : ∀ a, (![0, 0] : Fin 2 → Nat) a + S128x512.size a ≤ S128x512.size a
  h_S128x512 : 0 < S128x512.numel
  inb_S128x256_S128x256_0_0 : ∀ a, (![0, 0] : Fin 2 → Nat) a + S128x256.size a ≤ S128x256.size a
  h_S128x256 : 0 < S128x256.numel
  concatenates_S128x512_S128x256_S128x768_d1 : Shape.Concatenates [S128x512, S128x256] S128x768 1
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S1024x4256_S1024x4256_0_0 : ∀ a, (![0, 0] : Fin 2 → Nat) a + S1024x4256.size a ≤ S1024x4256.size a
  h_S1024x4256 : 0 < S1024x4256.numel
  shapeCasts_S1024x4256_S1024x4256 : S1024x4256.ShapeCasts S1024x4256
  slices_S128x4256_o0_0_S128x2048 : S128x4256.Slices ![0, 0] S128x2048
  slices_S128x4256_o0_2048_S128x2176 : S128x4256.Slices ![0, 2048] S128x2176
  slices_S128x4256_o0_4224_S128x32 : S128x4256.Slices ![0, 4224] S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S1x2176_S1x2176_0_0 : ∀ a, (![0, 0] : Fin 2 → Nat) a + S1x2176.size a ≤ S1x2176.size a
  h_S1x2176 : 0 < S1x2176.numel
  shapeCasts_S1x2176_S1x2176 : S1x2176.ShapeCasts S1x2176
  broadcasts_S1x2176_S128x2176 : S1x2176.Broadcasts S128x2176
  slices_S128x2176_o0_0_S128x2048 : S128x2176.Slices ![0, 0] S128x2048
  slices_S128x2176_o0_2048_S128x64 : S128x2176.Slices ![0, 2048] S128x64
  slices_S128x2176_o0_2112_S128x64 : S128x2176.Slices ![0, 2112] S128x64
  reduces_S128x64_S128 : S128x64.Reduces [1] S128
  shapeCasts_S128_S128x1 : S128.ShapeCasts S128x1
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  broadcasts_S128x1_S128x2048 : S128x1.Broadcasts S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  reduces_S128x2048_S128 : S128x2048.Reduces [1] S128
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  shapeCasts_S8192x1_S8192 : S8192x1.ShapeCasts S8192
  dot_S128x768_S768x1024_S128x1024_1_0_0_1_n_n_wf : DotDims.WF S128x768 S768x1024 S128x1024 [1] [0] [0] [1] [] []
  dot_S128x1024_S1024x4256_S128x4256_1_0_0_1_n_n_wf : DotDims.WF S128x1024 S1024x4256 S128x4256 [1] [0] [0] [1] [] []
  dot_S128x32_S32x2048_S128x2048_1_0_0_1_n_n_wf : DotDims.WF S128x32 S32x2048 S128x2048 [1] [0] [0] [1] [] []
  dot_S128x2048_S2048x1024_S128x1024_1_0_0_1_n_n_wf : DotDims.WF S128x2048 S2048x1024 S128x1024 [1] [0] [0] [1] [] []
  dot_S128x1024_S1024x512_S128x512_1_0_0_1_n_n_wf : DotDims.WF S128x1024 S1024x512 S128x512 [1] [0] [0] [1] [] []
  dot_S128x1024_S1024x1_S128x1_1_0_0_1_n_n_wf : DotDims.WF S128x1024 S1024x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S8192x512.size a
  hwx0_0 : ∀ i : grid0.Coords, EltTy.bits .f32 = 32 ∨ (Rect.block (s := S8192x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S8192x256.size a
  hwx0_1 : ∀ i : grid0.Coords, EltTy.bits .f32 = 32 ∨ (Rect.block (s := S8192x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x1024.size a ≤ S768x1024.size a
  hwx0_2 : ∀ i : grid0.Coords, EltTy.bits .bf16 = 32 ∨ (Rect.block (s := S768x1024) S768x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4256.size a ≤ S1024x4256.size a
  hwx0_4 : ∀ i : grid0.Coords, EltTy.bits .bf16 = 32 ∨ (Rect.block (s := S1024x4256) S1024x4256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2176.size a ≤ S1x2176.size a
  hwx0_5 : ∀ i : grid0.Coords, EltTy.bits .f32 = 32 ∨ (Rect.block (s := S1x2176) S1x2176.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2176.size a ≤ S1x2176.size a
  hwx0_6 : ∀ i : grid0.Coords, EltTy.bits .f32 = 32 ∨ (Rect.block (s := S1x2176) S1x2176.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x2048.size a ≤ S32x2048.size a
  hwx0_9 : ∀ i : grid0.Coords, EltTy.bits .bf16 = 32 ∨ (Rect.block (s := S32x2048) S32x2048.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x1024.size a ≤ S2048x1024.size a
  hwx0_11 : ∀ i : grid0.Coords, EltTy.bits .bf16 = 32 ∨ (Rect.block (s := S2048x1024) S2048x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x512.size a ≤ S1024x512.size a
  hwx0_12 : ∀ i : grid0.Coords, EltTy.bits .bf16 = 32 ∨ (Rect.block (s := S1024x512) S1024x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024x1.size a ≤ S1024x1.size a
  hwx0_14 : ∀ i : grid0.Coords, EltTy.bits .bf16 = 32 ∨ (Rect.block (s := S1024x1) S1024x1.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x512.size a ≤ S8192x512.size a
  hwx0_16 : ∀ i : grid0.Coords, EltTy.bits .f32 = 32 ∨ (Rect.block (s := S8192x512) S128x512.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S128x1.size a ≤ S8192x1.size a
  hwx0_17 : ∀ i : grid0.Coords, EltTy.bits .f32 = 32 ∨ (Rect.block (s := S8192x1) S128x1.size (cc0_transform_17 i) (hinb0_17 i)).WholeWords (EltTy.packing .f32)

variable [Facts₀]

def dot_S128x768_S768x1024_S128x1024_1_0_0_1_n_n : DotDims S128x768 S768x1024 S128x1024 where
  lhsContracting := [1]
  rhsContracting := [0]
  lhsNonContracting := [0]
  rhsNonContracting := [1]
  lhsBatch := []
  rhsBatch := []
  wf := dot_S128x768_S768x1024_S128x1024_1_0_0_1_n_n_wf
def dot_S128x1024_S1024x4256_S128x4256_1_0_0_1_n_n : DotDims S128x1024 S1024x4256 S128x4256 where
  lhsContracting := [1]
  rhsContracting := [0]
  lhsNonContracting := [0]
  rhsNonContracting := [1]
  lhsBatch := []
  rhsBatch := []
  wf := dot_S128x1024_S1024x4256_S128x4256_1_0_0_1_n_n_wf
def dot_S128x32_S32x2048_S128x2048_1_0_0_1_n_n : DotDims S128x32 S32x2048 S128x2048 where
  lhsContracting := [1]
  rhsContracting := [0]
  lhsNonContracting := [0]
  rhsNonContracting := [1]
  lhsBatch := []
  rhsBatch := []
  wf := dot_S128x32_S32x2048_S128x2048_1_0_0_1_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x1024_S1024x1_S128x1_1_0_0_1_n_n : DotDims S128x1024 S1024x1 S128x1 where
  lhsContracting := [1]
  rhsContracting := [0]
  lhsNonContracting := [0]
  rhsNonContracting := [1]
  lhsBatch := []
  rhsBatch := []
  wf := dot_S128x1024_S1024x1_S128x1_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S768x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x4256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x2176.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x2176.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S32x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S2048x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S1024x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v4) S1024x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v16) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v25_0) S128x512.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v25_1) S128x1.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x256 : Shape := ⟨2, ![8192, 256]⟩
abbrev S768x1024 : Shape := ⟨2, ![768, 1024]⟩
abbrev S1024 : Shape := ⟨1, ![1024]⟩
abbrev S1024x4256 : Shape := ⟨2, ![1024, 4256]⟩
abbrev S2176x4 : Shape := ⟨2, ![2176, 4]⟩
abbrev S2176 : Shape := ⟨1, ![2176]⟩
abbrev S32 : Shape := ⟨1, ![32]⟩
abbrev S2048 : Shape := ⟨1, ![2048]⟩
abbrev S2048x1024 : Shape := ⟨2, ![2048, 1024]⟩
abbrev S1024x512 : Shape := ⟨2, ![1024, 512]⟩
abbrev S512 : Shape := ⟨1, ![512]⟩
abbrev S1024x1 : Shape := ⟨2, ![1024, 1]⟩
abbrev S1 : Shape := ⟨1, ![1]⟩
abbrev S8192x768 : Shape := ⟨2, ![8192, 768]⟩
abbrev S8192x1024 : Shape := ⟨2, ![8192, 1024]⟩
abbrev S1x1024 : Shape := ⟨2, ![1, 1024]⟩
abbrev S8192x4256 : Shape := ⟨2, ![8192, 4256]⟩
abbrev S8192x2048 : Shape := ⟨2, ![8192, 2048]⟩
abbrev S8192x2176 : Shape := ⟨2, ![8192, 2176]⟩
abbrev S8192x32 : Shape := ⟨2, ![8192, 32]⟩
abbrev S1x32 : Shape := ⟨2, ![1, 32]⟩
abbrev S_ : Shape := ⟨0, ![]⟩
abbrev S2176x1 : Shape := ⟨2, ![2176, 1]⟩
abbrev S1x2176 : Shape := ⟨2, ![1, 2176]⟩
abbrev S8192x32x64 : Shape := ⟨3, ![8192, 32, 64]⟩
abbrev S8192x64 : Shape := ⟨2, ![8192, 64]⟩
abbrev S8192 : Shape := ⟨1, ![8192]⟩
abbrev S8192x1 : Shape := ⟨2, ![8192, 1]⟩
abbrev S8192x32x1 : Shape := ⟨3, ![8192, 32, 1]⟩
abbrev S1x32x1 : Shape := ⟨3, ![1, 32, 1]⟩
abbrev S1x2048 : Shape := ⟨2, ![1, 2048]⟩
abbrev S1x512 : Shape := ⟨2, ![1, 512]⟩
abbrev S1x1 : Shape := ⟨2, ![1, 1]⟩

abbrev nBuf : Space → Nat
  | .hbm => 113
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S768x1024, .f32⟩
  | .hbm, ⟨3, _⟩ => ⟨S1024, .f32⟩
  | .hbm, ⟨4, _⟩ => ⟨S1024x4256, .f32⟩
  | .hbm, ⟨5, _⟩ => ⟨S2176x4, .f32⟩
  | .hbm, ⟨6, _⟩ => ⟨S2176, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S2048, .f32⟩
  | .hbm, ⟨11, _⟩ => ⟨S2048x1024, .f32⟩
  | .hbm, ⟨12, _⟩ => ⟨S1024x512, .f32⟩
  | .hbm, ⟨13, _⟩ => ⟨S512, .f32⟩
  | .hbm, ⟨14, _⟩ => ⟨S1024x1, .f32⟩
  | .hbm, ⟨15, _⟩ => ⟨S1, .f32⟩
  | .hbm, ⟨16, _⟩ => ⟨S8192x768, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4256, .f32⟩
  | .hbm, ⟨22, _⟩ => ⟨S8192x2048, .f32⟩
  | .hbm, ⟨23, _⟩ => ⟨S8192x2176, .f32⟩
  | .hbm, ⟨24, _⟩ => ⟨S8192x32, .f32⟩
  | .hbm, ⟨25, _⟩ => ⟨S1x32, .f32⟩
  | .hbm, ⟨26, _⟩ => ⟨S8192x32, .f32⟩
  | .hbm, ⟨27, _⟩ => ⟨S8192x32, .f32⟩
  | .hbm, ⟨28, _⟩ => ⟨S_, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S8192x32, .i1⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S2176x1, .f32⟩
  | .hbm, ⟨43, _⟩ => ⟨S2176, .f32⟩
  | .hbm, ⟨44, _⟩ => ⟨S1x2176, .f32⟩
  | .hbm, ⟨45, _⟩ => ⟨S8192x2176, .f32⟩
  | .hbm, ⟨46, _⟩ => ⟨S8192x2176, .f32⟩
  | .hbm, ⟨47, _⟩ => ⟨S1x2176, .f32⟩
  | .hbm, ⟨48, _⟩ => ⟨S8192x2176, .f32⟩
  | .hbm, ⟨49, _⟩ => ⟨S8192x2176, .f32⟩
  | .hbm, ⟨50, _⟩ => ⟨S8192x2176, .f32⟩
  | .hbm, ⟨51, _⟩ => ⟨S8192x2176, .f32⟩
  | .hbm, ⟨52, _⟩ => ⟨S_, .f32⟩
  | .hbm, ⟨53, _⟩ => ⟨S8192x2176, .f32⟩
  | .hbm, ⟨54, _⟩ => ⟨S8192x2176, .f32⟩
  | .hbm, ⟨55, _⟩ => ⟨S_, .f32⟩
  | .hbm, ⟨56, _⟩ => ⟨S8192x2176, .f32⟩
  | .hbm, ⟨57, _⟩ => ⟨S8192x2176, .f32⟩
  | .hbm, ⟨58, _⟩ => ⟨S8192x2176, .f32⟩
  | .hbm, ⟨59, _⟩ => ⟨S8192x2048, .f32⟩
  | .hbm, ⟨60, _⟩ => ⟨S8192x32x64, .f32⟩
  | .hbm, ⟨61, _⟩ => ⟨S8192x64, .f32⟩
  | .hbm, ⟨62, _⟩ => ⟨S8192x64, .f32⟩
  | .hbm, ⟨63, _⟩ => ⟨S8192x64, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x32, .f32⟩
  | .hbm, ⟨68, _⟩ => ⟨S8192x32, .f32⟩
  | .hbm, ⟨69, _⟩ => ⟨S8192x32x1, .f32⟩
  | .hbm, ⟨70, _⟩ => ⟨S8192x32x64, .f32⟩
  | .hbm, ⟨71, _⟩ => ⟨S8192x32x64, .f32⟩
  | .hbm, ⟨72, _⟩ => ⟨S1x32x1, .f32⟩
  | .hbm, ⟨73, _⟩ => ⟨S8192x32x64, .f32⟩
  | .hbm, ⟨74, _⟩ => ⟨S8192x32x64, .f32⟩
  | .hbm, ⟨75, _⟩ => ⟨S8192x32x64, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S_, .f32⟩
  | .hbm, ⟨80, _⟩ => ⟨S8192x2048, .f32⟩
  | .hbm, ⟨81, _⟩ => ⟨S8192x2048, .f32⟩
  | .hbm, ⟨82, _⟩ => ⟨S_, .f32⟩
  | .hbm, ⟨83, _⟩ => ⟨S8192x2048, .f32⟩
  | .hbm, ⟨84, _⟩ => ⟨S8192x2048, .f32⟩
  | .hbm, ⟨85, _⟩ => ⟨S8192x2048, .f32⟩
  | .hbm, ⟨86, _⟩ => ⟨S8192x2048, .f32⟩
  | .hbm, ⟨87, _⟩ => ⟨S8192x2048, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S8192x1, .f32⟩
  | .hbm, ⟨98, _⟩ => ⟨S8192x2048, .f32⟩
  | .hbm, ⟨99, _⟩ => ⟨S8192x2048, .f32⟩
  | .hbm, ⟨100, _⟩ => ⟨S1x2048, .f32⟩
  | .hbm, ⟨101, _⟩ => ⟨S8192x2048, .f32⟩
  | .hbm, ⟨102, _⟩ => ⟨S8192x2048, .f32⟩
  | .hbm, ⟨103, _⟩ => ⟨S8192x1024, .f32⟩
  | .hbm, ⟨104, _⟩ => ⟨S8192x512, .f32⟩
  | .hbm, ⟨105, _⟩ => ⟨S1x512, .f32⟩
  | .hbm, ⟨106, _⟩ => ⟨S8192x512, .f32⟩
  | .hbm, ⟨107, _⟩ => ⟨S8192x512, .f32⟩
  | .hbm, ⟨108, _⟩ => ⟨S8192x1, .f32⟩
  | .hbm, ⟨109, _⟩ => ⟨S1x1, .f32⟩
  | .hbm, ⟨110, _⟩ => ⟨S8192x1, .f32⟩
  | .hbm, ⟨111, _⟩ => ⟨S8192x1, .f32⟩
  | .hbm, ⟨112, _⟩ => ⟨S8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_call2_v0 : Ref sig .tc := ⟨.hbm, 77, rfl⟩
abbrev main_call2_v1 : Ref sig .tc := ⟨.hbm, 78, rfl⟩
abbrev main_call2_cst : Ref sig .tc := ⟨.hbm, 79, rfl⟩
abbrev main_call2_v2 : Ref sig .tc := ⟨.hbm, 80, rfl⟩
abbrev main_call2_v3 : Ref sig .tc := ⟨.hbm, 81, rfl⟩
abbrev main_call2_cst_0 : Ref sig .tc := ⟨.hbm, 82, rfl⟩
abbrev main_call2_v4 : Ref sig .tc := ⟨.hbm, 83, rfl⟩
abbrev main_call2_v5 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_cst_0 : Ref sig .tc := ⟨.hbm, 88, rfl⟩
abbrev main_v42 : Ref sig .tc := ⟨.hbm, 89, rfl⟩
abbrev main_v43 : Ref sig .tc := ⟨.hbm, 90, rfl⟩
abbrev main_cst_1 : Ref sig .tc := ⟨.hbm, 91, rfl⟩
abbrev main_v44 : Ref sig .tc := ⟨.hbm, 92, rfl⟩
abbrev main_v45 : Ref sig .tc := ⟨.hbm, 93, rfl⟩
abbrev main_cst_2 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩

abbrev nD : Nat := 1
abbrev τ : Topo := Topo.v7x

variable {F : FTy → Type} [FloatOps F]

class Facts₀ : Prop where
  concatenates_S8192x512_S8192x256_S8192x768_d1 : Shape.Concatenates [S8192x512, S8192x256] S8192x768 1
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  slices_S8192x4256_S8192x2048_0_0 : S8192x4256.Slices ![0, 0] S8192x2048
  slices_S8192x4256_S8192x2176_0_2048 : S8192x4256.Slices ![0, 2048] S8192x2176
  slices_S8192x4256_S8192x32_0_4224 : S8192x4256.Slices ![0, 4224] S8192x32
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  slices_S2176x4_S2176x1_0_3 : S2176x4.Slices ![0, 3] S2176x1
  shapeCasts_S2176x1_S2176 : S2176x1.ShapeCasts S2176
  bcast_S2176_S1x2176_1 : S2176.BroadcastsInDim S1x2176 (![1] : Fin 1 → Fin S1x2176.rank)
  bcast_S1x2176_S8192x2176_0_1 : S1x2176.BroadcastsInDim S8192x2176 (![0, 1] : Fin 2 → Fin S8192x2176.rank)
  bcast_S_S8192x2176 : S_.BroadcastsInDim S8192x2176 (![] : Fin 0 → Fin S8192x2176.rank)
  slices_S8192x2176_S8192x2048_0_0 : S8192x2176.Slices ![0, 0] S8192x2048
  shapeCasts_S8192x2048_S8192x32x64 : S8192x2048.ShapeCasts S8192x32x64
  slices_S8192x2176_S8192x64_0_2048 : S8192x2176.Slices ![0, 2048] S8192x64
  slices_S8192x2176_S8192x64_0_2112 : S8192x2176.Slices ![0, 2112] S8192x64
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  bcast_S8192x32_S8192x32x1_0_1 : S8192x32.BroadcastsInDim S8192x32x1 (![0, 1] : Fin 2 → Fin S8192x32x1.rank)
  bcast_S8192x32x1_S8192x32x64_0_1_2 : S8192x32x1.BroadcastsInDim S8192x32x64 (![0, 1, 2] : Fin 3 → Fin S8192x32x64.rank)
  bcast_S32_S1x32x1_1 : S32.BroadcastsInDim S1x32x1 (![1] : Fin 1 → Fin S1x32x1.rank)
  bcast_S1x32x1_S8192x32x64_0_1_2 : S1x32x1.BroadcastsInDim S8192x32x64 (![0, 1, 2] : Fin 3 → Fin S8192x32x64.rank)
  shapeCasts_S8192x32x64_S8192x2048 : S8192x32x64.ShapeCasts S8192x2048
  bcast_S_S8192x2048 : S_.BroadcastsInDim S8192x2048 (![] : Fin 0 → Fin S8192x2048.rank)
  reducesTo_S8192x2048_S8192_d1 : S8192x2048.ReducesTo [1] S8192
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  dot_S8192x768_S768x1024_S8192x1024_1_0_0_1_n_n_wf : DotDims.WF S8192x768 S768x1024 S8192x1024 [1] [0] [0] [1] [] []
  dot_S8192x1024_S1024x4256_S8192x4256_1_0_0_1_n_n_wf : DotDims.WF S8192x1024 S1024x4256 S8192x4256 [1] [0] [0] [1] [] []
  dot_S8192x2048_S2048x1024_S8192x1024_1_0_0_1_n_n_wf : DotDims.WF S8192x2048 S2048x1024 S8192x1024 [1] [0] [0] [1] [] []
  dot_S8192x1024_S1024x512_S8192x512_1_0_0_1_n_n_wf : DotDims.WF S8192x1024 S1024x512 S8192x512 [1] [0] [0] [1] [] []
  dot_S8192x1024_S1024x1_S8192x1_1_0_0_1_n_n_wf : DotDims.WF S8192x1024 S1024x1 S8192x1 [1] [0] [0] [1] [] []

variable [Facts₀]

def dot_S8192x768_S768x1024_S8192x1024_1_0_0_1_n_n : DotDims S8192x768 S768x1024 S8192x1024 where
  lhsContracting := [1]
  rhsContracting := [0]
  lhsNonContracting := [0]
  rhsNonContracting := [1]
  lhsBatch := []
  rhsBatch := []
  wf := dot_S8192x768_S768x1024_S8192x1024_1_0_0_1_n_n_wf
def dot_S8192x1024_S1024x4256_S8192x4256_1_0_0_1_n_n : DotDims S8192x1024 S1024x4256 S8192x4256 where
  lhsContracting := [1]
  rhsContracting := [0]
  lhsNonContracting := [0]
  rhsNonContracting := [1]
  lhsBatch := []
  rhsBatch := []
  wf := dot_S8192x1024_S1024x4256_S8192x4256_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x1024_S1024x1_S8192x1_1_0_0_1_n_n : DotDims S8192x1024 S1024x1 S8192x1 where
  lhsContracting := [1]
  rhsContracting := [0]
  lhsNonContracting := [0]
  rhsNonContracting := [1]
  lhsBatch := []
  rhsBatch := []
  wf := dot_S8192x1024_S1024x1_S8192x1_1_0_0_1_n_n_wf

class Facts : Prop extends Facts₀ where

variable [Facts]
-- ==== Proof.Spec.lean ====
/-
  The mathematics of one batch row, on the extended reals.

  Both programs compute, for every batch row `b`, the same chain from the row `o` of observations and the row `a`
  of actions:  u = [o, a];  x = u·W_in + b_in;  z = x·W_inproj, cut into a gate `z[0:2048]`, a convolution part
  `z[2048:4224]` and a step part `z[4224:4256]`;  dt = softplus(z_dt + dt_bias);  xBC = silu(z_conv · conv_w + conv_b),
  cut into xs = xBC[0:2048], B = xBC[2048:2112], C = xBC[2112:2176];  bc = Σ B·C;  the single state-space step
  y0 = dt·bc·xs + D·xs (head h = c / 64 of channel c);  g = y0 · silu(z_gate);  the RMS normalisation
  y = g · rsqrt(mean(g²) + ε) · rms_w;  h = y·W_out;  next_obs = h·W_obs + b_obs;  reward = h·W_rew + b_rew.
  The two programs differ only in how the step is written: the kernel broadcasts dt to the 2048 channels by a
  product with a 0/1 matrix and factors xs out, `xs · (dt_full · bc + D_full)`; the reference multiplies out,
  `(dt · bc) · xs + D · xs`.  `y0K` and `y0R` are those two forms.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Row `r` of a two-axis array. -/
def row {n0 n1 : Nat} (A : (⟨2, ![n0, n1]⟩ : Shape).Idx → EReal) (r : Fin n0) : Fin n1 → EReal := fun k => A (ix2 r k)
/-- A two-axis array as a function of its two coordinates. -/
def mat {n0 n1 : Nat} (A : (⟨2, ![n0, n1]⟩ : Shape).Idx → EReal) : Fin n0 → Fin n1 → EReal := fun j k => A (ix2 j k)
/-- A one-axis array as a function of its coordinate. -/
def vec {n : Nat} (A : (⟨1, ![n]⟩ : Shape).Idx → EReal) : Fin n → EReal := fun k => A (ix1 k)
/-- Column `j` of a two-axis array. -/
def col {n0 n1 : Nat} (A : (⟨2, ![n0, n1]⟩ : Shape).Idx → EReal) (j : Fin n1) : Fin n0 → EReal := fun k => A (ix2 k j)

/-- The divisor 2048 of the mean and the RMS epsilon, as the extended reals their f32 patterns denote. -/
def c2048 : EReal := Ideal.ofBits .f32 0x45000000#32
def ceps : EReal := Ideal.ofBits .f32 0x3727C5AC#32

/-- softplus as jnp's logaddexp(v, 0) computes it: max(v, 0) + log1p(exp(-|v|)). -/
def softplus (v : EReal) : EReal := max v 0 + Ideal.log1p (Ideal.exp (-(max v (-v))))
/-- silu: v · 1/(1 + e⁻ᵛ). -/
def silu (v : EReal) : EReal := v * Ideal.logistic v

/-- [o, a]: the first 512 entries from `o`, the last 256 from `a`. -/
def cat (o : Fin 512 → EReal) (a : Fin 256 → EReal) : Fin 768 → EReal :=
  fun j => if h : j.val < 512 then o ⟨j.val, h⟩ else a ⟨j.val - 512, by have := j.isLt; omega⟩
def xrow (u : Fin 768 → EReal) (Win : Fin 768 → Fin 1024 → EReal) (bin : Fin 1024 → EReal) : Fin 1024 → EReal :=
  fun k => (∑ j, u j * Win j k) + bin k
def zrow (x : Fin 1024 → EReal) (Wp : Fin 1024 → Fin 4256 → EReal) : Fin 4256 → EReal :=
  fun n => ∑ k, x k * Wp k n
/-- The three cuts of the projected row. -/
def zgate (z : Fin 4256 → EReal) : Fin 2048 → EReal := fun c => z ⟨c.val, by have := c.isLt; omega⟩
def zconv (z : Fin 4256 → EReal) : Fin 2176 → EReal := fun c => z ⟨2048 + c.val, by have := c.isLt; omega⟩
def zdt (z : Fin 4256 → EReal) : Fin 32 → EReal := fun h => z ⟨4224 + h.val, by have := h.isLt; omega⟩
def dtrow (zd dtb : Fin 32 → EReal) : Fin 32 → EReal := fun h => softplus (zd h + dtb h)
def xbcrow (zc cw cb : Fin 2176 → EReal) : Fin 2176 → EReal := fun c => silu (zc c * cw c + cb c)
def xsOf (xbc : Fin 2176 → EReal) : Fin 2048 → EReal := fun c => xbc ⟨c.val, by have := c.isLt; omega⟩
def bOf (xbc : Fin 2176 → EReal) : Fin 64 → EReal := fun n => xbc ⟨2048 + n.val, by have := n.isLt; omega⟩
def cOf (xbc : Fin 2176 → EReal) : Fin 64 → EReal := fun n => xbc ⟨2112 + n.val, by have := n.isLt; omega⟩
def bcval (xbc : Fin 2176 → EReal) : EReal := ∑ n : Fin 64, bOf xbc n * cOf xbc n
/-- The head of a channel: 64 channels a head. -/
def headOf (c : Fin 2048) : Fin 32 := ⟨c.val / 64, by have := c.isLt; omega⟩
/-- The step, the kernel's arrangement: `dtf`, `Df` are dt and D already spread over the 2048 channels. -/
def y0K (xs dtf : Fin 2048 → EReal) (bc : EReal) (Df : Fin 2048 → EReal) : Fin 2048 → EReal :=
  fun c => xs c * (dtf c * bc + Df c)
/-- dt spread over the channels by the product with a 32×2048 matrix `Em`. -/
def spread (dt : Fin 32 → EReal) (Em : Fin 32 → Fin 2048 → EReal) : Fin 2048 → EReal := fun c => ∑ h, dt h * Em h c
/-- The step, the reference's arrangement. -/
def y0R (xs : Fin 2048 → EReal) (dt : Fin 32 → EReal) (bc : EReal) (D : Fin 32 → EReal) : Fin 2048 → EReal :=
  fun c => (dt (headOf c) * bc) * xs c + D (headOf c) * xs c
def gated (y0 zg : Fin 2048 → EReal) : Fin 2048 → EReal := fun c => y0 c * silu (zg c)
def rinv (g : Fin 2048 → EReal) : EReal := Ideal.rsqrt (Ideal.div (∑ c, g c * g c) c2048 + ceps)
def ynorm (g rw : Fin 2048 → EReal) : Fin 2048 → EReal := fun c => g c * rinv g * rw c
def hrow (yn : Fin 2048 → EReal) (Wout : Fin 2048 → Fin 1024 → EReal) : Fin 1024 → EReal := fun k => ∑ c, yn c * Wout c k
def obsrow (h : Fin 1024 → EReal) (Wobs : Fin 1024 → Fin 512 → EReal) (bobs : Fin 512 → EReal) : Fin 512 → EReal :=
  fun o => (∑ k, h k * Wobs k o) + bobs o
def rewval (h : Fin 1024 → EReal) (Wrew : Fin 1024 → EReal) (brew : EReal) : EReal := (∑ k, h k * Wrew k) + brew

/-- The projected row from the inputs. -/
def zOf (o : Fin 512 → EReal) (a : Fin 256 → EReal) (Win : Fin 768 → Fin 1024 → EReal) (bin : Fin 1024 → EReal)
    (Wp : Fin 1024 → Fin 4256 → EReal) : Fin 4256 → EReal := zrow (xrow (cat o a) Win bin) Wp

/-- The hidden row `h`, the kernel's arrangement, from the projected row `z`. -/
def hK (z : Fin 4256 → EReal) (cw cb : Fin 2176 → EReal) (dtb : Fin 32 → EReal) (Em : Fin 32 → Fin 2048 → EReal)
    (Df rw : Fin 2048 → EReal) (Wout : Fin 2048 → Fin 1024 → EReal) : Fin 1024 → EReal :=
  hrow (ynorm (gated (y0K (xsOf (xbcrow (zconv z) cw cb)) (spread (dtrow (zdt z) dtb) Em) (bcval (xbcrow (zconv z) cw cb)) Df) (zgate z)) rw) Wout

/-- The hidden row `h`, the reference's arrangement, from the projected row `z`. -/
def hR (z : Fin 4256 → EReal) (cw cb : Fin 2176 → EReal) (dtb D : Fin 32 → EReal)
    (rw : Fin 2048 → EReal) (Wout : Fin 2048 → Fin 1024 → EReal) : Fin 1024 → EReal :=
  hrow (ynorm (gated (y0R (xsOf (xbcrow (zconv z) cw cb)) (dtrow (zdt z) dtb) (bcval (xbcrow (zconv z) cw cb)) D) (zgate z)) rw) Wout

/-- An extended real that is a real number. -/
def Fin_ (x : EReal) : Prop := x ≠ ⊤ ∧ x ≠ ⊥

end Cert.Spec

end
-- ==== Proof.PayA.lean ====
/-
  The first half of the kernel's body at an index: the projected row and its three cuts.
-/
import proofs.«137712_j17403207483679_1_alg».proof.Proof.Gen.KernelIdeal.Skeleton
import proofs.«137712_j17403207483679_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.PayA

open Idealize.ShloMosaic Idealize.ShloMosaic.ValueIdx Cert.KernelIdeal Cert.KernelIdeal.Gen Cert.Spec

/-- The four coordinates of the operand indices of the product `128x768 · 768x1024`: the left operand is read at
    (row of the output, contraction index), the right at (contraction index, column of the output). -/
theorem lhs_in_0 (i : S128x1024.Idx) (q : dot_S128x768_S768x1024_S128x1024_1_0_0_1_n_n.contr.Idx) :
    (dot_S128x768_S768x1024_S128x1024_1_0_0_1_n_n.lhsIdx i q 0).val = (i 0).val := by
  unfold DotDims.lhsIdx
  rw [dif_neg (show ¬(0 : Fin S128x768.rank) ∈ dot_S128x768_S768x1024_S128x1024_1_0_0_1_n_n.lhsBatch by decide), dif_pos (show (0 : Fin S128x768.rank) ∈ dot_S128x768_S768x1024_S128x1024_1_0_0_1_n_n.lhsNonContracting by decide)]
  rfl
theorem lhs_in_1 (i : S128x1024.Idx) (q : dot_S128x768_S768x1024_S128x1024_1_0_0_1_n_n.contr.Idx) :
    (dot_S128x768_S768x1024_S128x1024_1_0_0_1_n_n.lhsIdx i q 1).val = (q ⟨0, by decide⟩).val :=
  dot_S128x768_S768x1024_S128x1024_1_0_0_1_n_n.lhsIdx_val_of_single rfl i q
theorem rhs_in_0 (i : S128x1024.Idx) (q : dot_S128x768_S768x1024_S128x1024_1_0_0_1_n_n.contr.Idx) :
    (dot_S128x768_S768x1024_S128x1024_1_0_0_1_n_n.rhsIdx i q 0).val = (q ⟨0, by decide⟩).val :=
  dot_S128x768_S768x1024_S128x1024_1_0_0_1_n_n.rhsIdx_val_of_single rfl i q
theorem rhs_in_1 (i : S128x1024.Idx) (q : dot_S128x768_S768x1024_S128x1024_1_0_0_1_n_n.contr.Idx) :
    (dot_S128x768_S768x1024_S128x1024_1_0_0_1_n_n.rhsIdx i q 1).val = (i 1).val := by
  unfold DotDims.rhsIdx
  rw [dif_neg (show ¬(1 : Fin S768x1024.rank) ∈ dot_S128x768_S768x1024_S128x1024_1_0_0_1_n_n.rhsBatch by decide), dif_pos (show (1 : Fin S768x1024.rank) ∈ dot_S128x768_S768x1024_S128x1024_1_0_0_1_n_n.rhsNonContracting by decide)]
  rfl

/-- The product into a zero accumulator at (r, c): the sum over the contraction index `k` of left (r, k) times right (k, c). -/
theorem mm_in_apply (A : FVec Ideal S128x768 .bf16) (B : FVec Ideal S768x1024 .bf16) (r : Fin 128) (c : Fin 1024) :
    matmul dot_S128x768_S768x1024_S128x1024_1_0_0_1_n_n none A B (constant (F := Ideal) S128x1024 .f32 0x00000000#32) (ix2 r c)
      = ∑ k : Fin 768, A (ix2 r k) * B (ix2 k c) := by
  simp only [matmul]
  rw [Ideal.matmul_constant_zero_apply, ← Equiv.sum_comp (ValueIdx.contrEquiv1 dot_S128x768_S768x1024_S128x1024_1_0_0_1_n_n 768 rfl rfl).symm]
  refine Finset.sum_congr rfl fun k _ => ?_
  have hk := ValueIdx.contrEquiv1_symm_val dot_S128x768_S768x1024_S128x1024_1_0_0_1_n_n 768 rfl rfl k
  have el : dot_S128x768_S768x1024_S128x1024_1_0_0_1_n_n.lhsIdx (ix2 r c) ((ValueIdx.contrEquiv1 dot_S128x768_S768x1024_S128x1024_1_0_0_1_n_n 768 rfl rfl).symm k) = ix2 r k := funext fun a => Fin.ext (by
    match a with
    | ⟨0, _⟩ => exact lhs_in_0 _ _
    | ⟨1, _⟩ => exact (lhs_in_1 _ _).trans hk)
  have er : dot_S128x768_S768x1024_S128x1024_1_0_0_1_n_n.rhsIdx (ix2 r c) ((ValueIdx.contrEquiv1 dot_S128x768_S768x1024_S128x1024_1_0_0_1_n_n 768 rfl rfl).symm k) = ix2 k c := funext fun a => Fin.ext (by
    match a with
    | ⟨0, _⟩ => exact (rhs_in_0 _ _).trans hk
    | ⟨1, _⟩ => exact rhs_in_1 _ _)
  rw [el, er]

/-- The four coordinates of the operand indices of the product `128x1024 · 1024x4256`: the left operand is read at
    (row of the output, contraction index), the right at (contraction index, column of the output). -/
theorem lhs_proj_0 (i : S128x4256.Idx) (q : dot_S128x1024_S1024x4256_S128x4256_1_0_0_1_n_n.contr.Idx) :
    (dot_S128x1024_S1024x4256_S128x4256_1_0_0_1_n_n.lhsIdx i q 0).val = (i 0).val := by
  unfold DotDims.lhsIdx
  rw [dif_neg (show ¬(0 : Fin S128x1024.rank) ∈ dot_S128x1024_S1024x4256_S128x4256_1_0_0_1_n_n.lhsBatch by decide), dif_pos (show (0 : Fin S128x1024.rank) ∈ dot_S128x1024_S1024x4256_S128x4256_1_0_0_1_n_n.lhsNonContracting by decide)]
  rfl
theorem lhs_proj_1 (i : S128x4256.Idx) (q : dot_S128x1024_S1024x4256_S128x4256_1_0_0_1_n_n.contr.Idx) :
    (dot_S128x1024_S1024x4256_S128x4256_1_0_0_1_n_n.lhsIdx i q 1).val = (q ⟨0, by decide⟩).val :=
  dot_S128x1024_S1024x4256_S128x4256_1_0_0_1_n_n.lhsIdx_val_of_single rfl i q
theorem rhs_proj_0 (i : S128x4256.Idx) (q : dot_S128x1024_S1024x4256_S128x4256_1_0_0_1_n_n.contr.Idx) :
    (dot_S128x1024_S1024x4256_S128x4256_1_0_0_1_n_n.rhsIdx i q 0).val = (q ⟨0, by decide⟩).val :=
  dot_S128x1024_S1024x4256_S128x4256_1_0_0_1_n_n.rhsIdx_val_of_single rfl i q
theorem rhs_proj_1 (i : S128x4256.Idx) (q : dot_S128x1024_S1024x4256_S128x4256_1_0_0_1_n_n.contr.Idx) :
    (dot_S128x1024_S1024x4256_S128x4256_1_0_0_1_n_n.rhsIdx i q 1).val = (i 1).val := by
  unfold DotDims.rhsIdx
  rw [dif_neg (show ¬(1 : Fin S1024x4256.rank) ∈ dot_S128x1024_S1024x4256_S128x4256_1_0_0_1_n_n.rhsBatch by decide), dif_pos (show (1 : Fin S1024x4256.rank) ∈ dot_S128x1024_S1024x4256_S128x4256_1_0_0_1_n_n.rhsNonContracting by decide)]
  rfl

/-- The product into a zero accumulator at (r, c): the sum over the contraction index `k` of left (r, k) times right (k, c). -/
theorem mm_proj_apply (A : FVec Ideal S128x1024 .bf16) (B : FVec Ideal S1024x4256 .bf16) (r : Fin 128) (c : Fin 4256) :
    matmul dot_S128x1024_S1024x4256_S128x4256_1_0_0_1_n_n none A B (constant (F := Ideal) S128x4256 .f32 0x00000000#32) (ix2 r c)
      = ∑ k : Fin 1024, A (ix2 r k) * B (ix2 k c) := by
  simp only [matmul]
  rw [Ideal.matmul_constant_zero_apply, ← Equiv.sum_comp (ValueIdx.contrEquiv1 dot_S128x1024_S1024x4256_S128x4256_1_0_0_1_n_n 1024 rfl rfl).symm]
  refine Finset.sum_congr rfl fun k _ => ?_
  have hk := ValueIdx.contrEquiv1_symm_val dot_S128x1024_S1024x4256_S128x4256_1_0_0_1_n_n 1024 rfl rfl k
  have el : dot_S128x1024_S1024x4256_S128x4256_1_0_0_1_n_n.lhsIdx (ix2 r c) ((ValueIdx.contrEquiv1 dot_S128x1024_S1024x4256_S128x4256_1_0_0_1_n_n 1024 rfl rfl).symm k) = ix2 r k := funext fun a => Fin.ext (by
    match a with
    | ⟨0, _⟩ => exact lhs_proj_0 _ _
    | ⟨1, _⟩ => exact (lhs_proj_1 _ _).trans hk)
  have er : dot_S128x1024_S1024x4256_S128x4256_1_0_0_1_n_n.rhsIdx (ix2 r c) ((ValueIdx.contrEquiv1 dot_S128x1024_S1024x4256_S128x4256_1_0_0_1_n_n 1024 rfl rfl).symm k) = ix2 k c := funext fun a => Fin.ext (by
    match a with
    | ⟨0, _⟩ => exact (rhs_proj_0 _ _).trans hk
    | ⟨1, _⟩ => exact rhs_proj_1 _ _)
  rw [el, er]

/-- The joined row [o, a] at column `j`: below 512 the first piece at `j`, from 512 on the second at `j - 512`. -/
theorem cat_apply (x0 : Vec Ideal S128x512 .f32) (x1 : Vec Ideal S128x256 .f32) (r : Fin 128) (j : Fin 768) :
    (concatenate S128x768 1 [⟨S128x512, x0⟩, ⟨S128x256, x1⟩] concatenates_S128x512_S128x256_S128x768_d1 : FVec Ideal S128x768 .f32) (ix2 r j)
      = cat (row x0 r) (row x1 r) j := by
  unfold cat
  by_cases h : j.val < 512
  · rw [dif_pos h]
    exact concatenate_pair_apply_left 1 x0 x1 _ (ix2 r j) rfl (ix2 r ⟨j.val, h⟩) (fun b => by
      match b with
      | ⟨0, _⟩ => rfl
      | ⟨1, _⟩ => rfl)
  · rw [dif_neg h]
    exact concatenate_pair_apply_right 1 x0 x1 _ (ix2 r j) rfl rfl (ix2 r ⟨j.val - 512, by have := j.isLt; omega⟩) (fun b hb => by
      match b, hb with
      | ⟨0, _⟩, _ => rfl
      | ⟨1, _⟩, hb => exact absurd rfl hb)
      (by show (j.val - 512) + 512 = j.val; omega)

/-- Row `r` of the block, projected: z = ([o, a]·W_in + b_in)·W_inproj. -/
abbrev Zk (x0 : Vec Ideal S128x512 .f32) (x1 : Vec Ideal S128x256 .f32) (x2 : Vec Ideal S768x1024 .bf16) (x3 : Vec Ideal S1x1024 .f32)
    (x4 : Vec Ideal S1024x4256 .bf16) (r : Fin 128) : Fin 4256 → EReal :=
  zOf (row x0 r) (row x1 r) (mat x2) (row x3 (0 : Fin 1)) (mat x4)

theorem pay3_apply (x0 : Vec Ideal S128x512 .f32) (x1 : Vec Ideal S128x256 .f32) (x2 : Vec Ideal S768x1024 .bf16) (x3 : Vec Ideal S1x1024 .f32)
    (x4 : Vec Ideal S1024x4256 .bf16) (r : Fin 128) (n : Fin 4256) :
    k0_pay3 x0 x1 x2 x3 x4 (ix2 r n) = Zk x0 x1 x2 x3 x4 r n := by
  unfold k0_pay3
  rw [mm_proj_apply]
  show _ = ∑ k, xrow (cat (row x0 r) (row x1 r)) (mat x2) (row x3 (0 : Fin 1)) k * mat x4 k n
  refine Finset.sum_congr rfl fun k _ => ?_
  rw [shapeCast_self, truncf_apply, addf_apply, mm_in_apply, shapeCast_self, shapeCast_self, broadcastTo_1b_ab_apply]
  show ((∑ j : Fin 768, _ * _) + _) * _ = ((∑ j, cat (row x0 r) (row x1 r) j * mat x2 j k) + row x3 (0 : Fin 1) k) * mat x4 k n
  simp only [truncf_apply, cat_apply]
  rfl

/-- An extended real never differs from itself: the comparison "ordered and not equal" of `x` with `x` is false. -/
theorem cmp_one_self (x : EReal) : Ideal.cmp .one x x = 0#1 := by
  unfold Ideal.cmp
  simp only [ne_eq, not_true_eq_false, decide_false, BitVec.ofBool_false]
  rfl

/-- softplus as the kernel writes it, max(v, 0) + log1p(exp(0 - |v - 0|)) guarded by a test of v - 0 against itself, is
    max(v, 0) + log1p(exp(-|v|)): v - 0 = v, 0 - a = -a, |a| = max a (-a), and the test is false. -/
theorem softplus_kernel (v : EReal) :
    Scalar.select (Ideal.cmp .one (v - 0) (v - 0)) (v + 0)
        (max v 0 + Ideal.log1p (Ideal.exp (0 - max (v - 0) (-(v - 0))))) = softplus v := by
  rw [cmp_one_self, select_zero, sub_zero, zero_sub]
  rfl

/-- The same on a block of 128 × 32 values, read at an index. -/
theorem softplus_vec (V : FVec Ideal S128x32 .f32) (i : S128x32.Idx) :
    select (cmpf .one (subf V (broadcast S128x32 (Scalar.ofBits (F := Ideal) .f32 0x00000000#32))) (subf V (broadcast S128x32 (Scalar.ofBits (F := Ideal) .f32 0x00000000#32))))
      (addf V (broadcast S128x32 (Scalar.ofBits (F := Ideal) .f32 0x00000000#32)))
      (addf (maximumf V (broadcast S128x32 (Scalar.ofBits (F := Ideal) .f32 0x00000000#32)))
        (log1p (exp (subf (broadcast S128x32 (Scalar.ofBits (F := Ideal) .f32 0x00000000#32)) (absf (subf V (broadcast S128x32 (Scalar.ofBits (F := Ideal) .f32 0x00000000#32)))))))) i
      = softplus (V i) := by
  show Scalar.select (Ideal.cmp .one (V i - Ideal.ofBits .f32 0x00000000#32) (V i - Ideal.ofBits .f32 0x00000000#32)) (V i + Ideal.ofBits .f32 0x00000000#32)
      (max (V i) (Ideal.ofBits .f32 0x00000000#32) + Ideal.log1p (Ideal.exp (Ideal.ofBits .f32 0x00000000#32
        - max (V i - Ideal.ofBits .f32 0x00000000#32) (-(V i - Ideal.ofBits .f32 0x00000000#32))))) = _
  rw [Ideal.ofBits_zero_f32, softplus_kernel]

theorem pay4_apply (x0 : Vec Ideal S128x512 .f32) (x1 : Vec Ideal S128x256 .f32) (x2 : Vec Ideal S768x1024 .bf16) (x3 : Vec Ideal S1x1024 .f32)
    (x4 : Vec Ideal S1024x4256 .bf16) (r : Fin 128) (c : Fin 2048) :
    k0_pay4 x0 x1 x2 x3 x4 (ix2 r c) = zgate (Zk x0 x1 x2 x3 x4 r) c := by
  unfold k0_pay4
  rw [slice2_axis1_eq, pay3_apply]
  unfold zgate
  exact congrArg (Zk x0 x1 x2 x3 x4 r) (Fin.ext (Nat.zero_add _))

theorem pay5_apply (x0 : Vec Ideal S128x512 .f32) (x1 : Vec Ideal S128x256 .f32) (x2 : Vec Ideal S768x1024 .bf16) (x3 : Vec Ideal S1x1024 .f32)
    (x4 : Vec Ideal S1024x4256 .bf16) (x7 : Vec Ideal S1x32 .f32) (r : Fin 128) (h : Fin 32) :
    k0_pay5 x0 x1 x2 x3 x4 x7 (ix2 r h) = dtrow (zdt (Zk x0 x1 x2 x3 x4 r)) (row x7 (0 : Fin 1)) h := by
  unfold k0_pay5
  rw [softplus_vec, addf_apply, slice2_axis1_eq, pay3_apply, shapeCast_self, broadcastTo_1b_ab_apply]
  rfl

theorem pay6_apply (x0 : Vec Ideal S128x512 .f32) (x1 : Vec Ideal S128x256 .f32) (x2 : Vec Ideal S768x1024 .bf16) (x3 : Vec Ideal S1x1024 .f32)
    (x4 : Vec Ideal S1024x4256 .bf16) (x5 : Vec Ideal S1x2176 .f32) (r : Fin 128) (c : Fin 2176) :
    k0_pay6 x0 x1 x2 x3 x4 x5 (ix2 r c) = zconv (Zk x0 x1 x2 x3 x4 r) c * row x5 (0 : Fin 1) c := by
  unfold k0_pay6
  rw [mulf_apply, slice2_axis1_eq, pay3_apply, shapeCast_self, broadcastTo_1b_ab_apply]
  rfl

end Cert.KernelIdeal.PayA

end
-- ==== Proof.PayB.lean ====
/-
  The second half of the kernel's body at an index: from the projected row's cuts to the hidden row, and the two heads.
-/
import proofs.«137712_j17403207483679_1_alg».proof.Proof.Gen.KernelIdeal.Skeleton
import proofs.«137712_j17403207483679_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.PayB

open Idealize.ShloMosaic Idealize.ShloMosaic.ValueIdx Cert.KernelIdeal Cert.KernelIdeal.Gen Cert.Spec

/-! ### The observation head's product -/

private theorem lhs_obs_0 (i : S128x512.Idx) (q : dot_S128x1024_S1024x512_S128x512_1_0_0_1_n_n.contr.Idx) :
    (dot_S128x1024_S1024x512_S128x512_1_0_0_1_n_n.lhsIdx i q 0).val = (i 0).val := by
  unfold DotDims.lhsIdx
  rw [dif_neg (show ¬(0 : Fin S128x1024.rank) ∈ dot_S128x1024_S1024x512_S128x512_1_0_0_1_n_n.lhsBatch by decide), dif_pos (show (0 : Fin S128x1024.rank) ∈ dot_S128x1024_S1024x512_S128x512_1_0_0_1_n_n.lhsNonContracting by decide)]
  rfl
private theorem lhs_obs_1 (i : S128x512.Idx) (q : dot_S128x1024_S1024x512_S128x512_1_0_0_1_n_n.contr.Idx) :
    (dot_S128x1024_S1024x512_S128x512_1_0_0_1_n_n.lhsIdx i q 1).val = (q ⟨0, by decide⟩).val :=
  dot_S128x1024_S1024x512_S128x512_1_0_0_1_n_n.lhsIdx_val_of_single rfl i q
private theorem rhs_obs_0 (i : S128x512.Idx) (q : dot_S128x1024_S1024x512_S128x512_1_0_0_1_n_n.contr.Idx) :
    (dot_S128x1024_S1024x512_S128x512_1_0_0_1_n_n.rhsIdx i q 0).val = (q ⟨0, by decide⟩).val :=
  dot_S128x1024_S1024x512_S128x512_1_0_0_1_n_n.rhsIdx_val_of_single rfl i q
private theorem rhs_obs_1 (i : S128x512.Idx) (q : dot_S128x1024_S1024x512_S128x512_1_0_0_1_n_n.contr.Idx) :
    (dot_S128x1024_S1024x512_S128x512_1_0_0_1_n_n.rhsIdx i q 1).val = (i 1).val := by
  unfold DotDims.rhsIdx
  rw [dif_neg (show ¬(1 : Fin S1024x512.rank) ∈ dot_S128x1024_S1024x512_S128x512_1_0_0_1_n_n.rhsBatch by decide), dif_pos (show (1 : Fin S1024x512.rank) ∈ dot_S128x1024_S1024x512_S128x512_1_0_0_1_n_n.rhsNonContracting by decide)]
  rfl

/-- The product into a zero accumulator at (r, c): the sum over the 1024 contracted coordinates of row r of the left
    factor times column c of the right one. -/
private theorem matmul_obs_apply {φ₁ φ₂ : FTy} (a : FVec Ideal S128x1024 φ₁) (b : FVec Ideal S1024x512 φ₂) (r : Fin 128) (c : Fin 512) :
    matmul dot_S128x1024_S1024x512_S128x512_1_0_0_1_n_n none a b (constant S128x512 .f32 0x00000000#32) (ix2 r c)
      = ∑ k : Fin 1024, a (ix2 r k) * b (ix2 k c) := by
  refine (Ideal.matmul_constant_zero_apply dot_S128x1024_S1024x512_S128x512_1_0_0_1_n_n none a b (ix2 r c)).trans ?_
  rw [← Equiv.sum_comp (contrEquiv1 dot_S128x1024_S1024x512_S128x512_1_0_0_1_n_n 1024 rfl rfl).symm]
  refine Finset.sum_congr rfl fun k _ => ?_
  have hk := contrEquiv1_symm_val dot_S128x1024_S1024x512_S128x512_1_0_0_1_n_n 1024 rfl rfl k
  have el : dot_S128x1024_S1024x512_S128x512_1_0_0_1_n_n.lhsIdx (ix2 r c) ((contrEquiv1 dot_S128x1024_S1024x512_S128x512_1_0_0_1_n_n 1024 rfl rfl).symm k) = ix2 r k := funext fun ax => Fin.ext (by
    match ax with
    | ⟨0, _⟩ => exact lhs_obs_0 _ _
    | ⟨1, _⟩ => exact (lhs_obs_1 _ _).trans hk)
  have er : dot_S128x1024_S1024x512_S128x512_1_0_0_1_n_n.rhsIdx (ix2 r c) ((contrEquiv1 dot_S128x1024_S1024x512_S128x512_1_0_0_1_n_n 1024 rfl rfl).symm k) = ix2 k c := funext fun ax => Fin.ext (by
    match ax with
    | ⟨0, _⟩ => exact (rhs_obs_0 _ _).trans hk
    | ⟨1, _⟩ => exact rhs_obs_1 _ _)
  rw [el, er]

/-! ### The reward head's product -/

private theorem lhs_rew_0 (i : S128x1.Idx) (q : dot_S128x1024_S1024x1_S128x1_1_0_0_1_n_n.contr.Idx) :
    (dot_S128x1024_S1024x1_S128x1_1_0_0_1_n_n.lhsIdx i q 0).val = (i 0).val := by
  unfold DotDims.lhsIdx
  rw [dif_neg (show ¬(0 : Fin S128x1024.rank) ∈ dot_S128x1024_S1024x1_S128x1_1_0_0_1_n_n.lhsBatch by decide), dif_pos (show (0 : Fin S128x1024.rank) ∈ dot_S128x1024_S1024x1_S128x1_1_0_0_1_n_n.lhsNonContracting by decide)]
  rfl
private theorem lhs_rew_1 (i : S128x1.Idx) (q : dot_S128x1024_S1024x1_S128x1_1_0_0_1_n_n.contr.Idx) :
    (dot_S128x1024_S1024x1_S128x1_1_0_0_1_n_n.lhsIdx i q 1).val = (q ⟨0, by decide⟩).val :=
  dot_S128x1024_S1024x1_S128x1_1_0_0_1_n_n.lhsIdx_val_of_single rfl i q
private theorem rhs_rew_0 (i : S128x1.Idx) (q : dot_S128x1024_S1024x1_S128x1_1_0_0_1_n_n.contr.Idx) :
    (dot_S128x1024_S1024x1_S128x1_1_0_0_1_n_n.rhsIdx i q 0).val = (q ⟨0, by decide⟩).val :=
  dot_S128x1024_S1024x1_S128x1_1_0_0_1_n_n.rhsIdx_val_of_single rfl i q
private theorem rhs_rew_1 (i : S128x1.Idx) (q : dot_S128x1024_S1024x1_S128x1_1_0_0_1_n_n.contr.Idx) :
    (dot_S128x1024_S1024x1_S128x1_1_0_0_1_n_n.rhsIdx i q 1).val = (i 1).val := by
  unfold DotDims.rhsIdx
  rw [dif_neg (show ¬(1 : Fin S1024x1.rank) ∈ dot_S128x1024_S1024x1_S128x1_1_0_0_1_n_n.rhsBatch by decide), dif_pos (show (1 : Fin S1024x1.rank) ∈ dot_S128x1024_S1024x1_S128x1_1_0_0_1_n_n.rhsNonContracting by decide)]
  rfl

/-- The product into a zero accumulator at (r, c): the sum over the 1024 contracted coordinates of row r of the left
    factor times the one column of the right one. -/
private theorem matmul_rew_apply {φ₁ φ₂ : FTy} (a : FVec Ideal S128x1024 φ₁) (b : FVec Ideal S1024x1 φ₂) (r : Fin 128) (c : Fin 1) :
    matmul dot_S128x1024_S1024x1_S128x1_1_0_0_1_n_n none a b (constant S128x1 .f32 0x00000000#32) (ix2 r c)
      = ∑ k : Fin 1024, a (ix2 r k) * b (ix2 k c) := by
  refine (Ideal.matmul_constant_zero_apply dot_S128x1024_S1024x1_S128x1_1_0_0_1_n_n none a b (ix2 r c)).trans ?_
  rw [← Equiv.sum_comp (contrEquiv1 dot_S128x1024_S1024x1_S128x1_1_0_0_1_n_n 1024 rfl rfl).symm]
  refine Finset.sum_congr rfl fun k _ => ?_
  have hk := contrEquiv1_symm_val dot_S128x1024_S1024x1_S128x1_1_0_0_1_n_n 1024 rfl rfl k
  have el : dot_S128x1024_S1024x1_S128x1_1_0_0_1_n_n.lhsIdx (ix2 r c) ((contrEquiv1 dot_S128x1024_S1024x1_S128x1_1_0_0_1_n_n 1024 rfl rfl).symm k) = ix2 r k := funext fun ax => Fin.ext (by
    match ax with
    | ⟨0, _⟩ => exact lhs_rew_0 _ _
    | ⟨1, _⟩ => exact (lhs_rew_1 _ _).trans hk)
  have er : dot_S128x1024_S1024x1_S128x1_1_0_0_1_n_n.rhsIdx (ix2 r c) ((contrEquiv1 dot_S128x1024_S1024x1_S128x1_1_0_0_1_n_n 1024 rfl rfl).symm k) = ix2 k c := funext fun ax => Fin.ext (by
    match ax with
    | ⟨0, _⟩ => exact (rhs_rew_0 _ _).trans hk
    | ⟨1, _⟩ => exact rhs_rew_1 _ _)
  rw [el, er]

/-! ### The product that spreads dt over the channels -/

private theorem lhs_dt_0 (i : S128x2048.Idx) (q : dot_S128x32_S32x2048_S128x2048_1_0_0_1_n_n.contr.Idx) :
    (dot_S128x32_S32x2048_S128x2048_1_0_0_1_n_n.lhsIdx i q 0).val = (i 0).val := by
  unfold DotDims.lhsIdx
  rw [dif_neg (show ¬(0 : Fin S128x32.rank) ∈ dot_S128x32_S32x2048_S128x2048_1_0_0_1_n_n.lhsBatch by decide), dif_pos (show (0 : Fin S128x32.rank) ∈ dot_S128x32_S32x2048_S128x2048_1_0_0_1_n_n.lhsNonContracting by decide)]
  rfl
private theorem lhs_dt_1 (i : S128x2048.Idx) (q : dot_S128x32_S32x2048_S128x2048_1_0_0_1_n_n.contr.Idx) :
    (dot_S128x32_S32x2048_S128x2048_1_0_0_1_n_n.lhsIdx i q 1).val = (q ⟨0, by decide⟩).val :=
  dot_S128x32_S32x2048_S128x2048_1_0_0_1_n_n.lhsIdx_val_of_single rfl i q
private theorem rhs_dt_0 (i : S128x2048.Idx) (q : dot_S128x32_S32x2048_S128x2048_1_0_0_1_n_n.contr.Idx) :
    (dot_S128x32_S32x2048_S128x2048_1_0_0_1_n_n.rhsIdx i q 0).val = (q ⟨0, by decide⟩).val :=
  dot_S128x32_S32x2048_S128x2048_1_0_0_1_n_n.rhsIdx_val_of_single rfl i q
private theorem rhs_dt_1 (i : S128x2048.Idx) (q : dot_S128x32_S32x2048_S128x2048_1_0_0_1_n_n.contr.Idx) :
    (dot_S128x32_S32x2048_S128x2048_1_0_0_1_n_n.rhsIdx i q 1).val = (i 1).val := by
  unfold DotDims.rhsIdx
  rw [dif_neg (show ¬(1 : Fin S32x2048.rank) ∈ dot_S128x32_S32x2048_S128x2048_1_0_0_1_n_n.rhsBatch by decide), dif_pos (show (1 : Fin S32x2048.rank) ∈ dot_S128x32_S32x2048_S128x2048_1_0_0_1_n_n.rhsNonContracting by decide)]
  rfl

/-- The product into a zero accumulator at (r, c): the sum over the 32 heads of row r of the left factor times
    column c of the right one. -/
private theorem matmul_dt_apply {φ₁ φ₂ : FTy} (a : FVec Ideal S128x32 φ₁) (b : FVec Ideal S32x2048 φ₂) (r : Fin 128) (c : Fin 2048) :
    matmul dot_S128x32_S32x2048_S128x2048_1_0_0_1_n_n none a b (constant S128x2048 .f32 0x00000000#32) (ix2 r c)
      = ∑ k : Fin 32, a (ix2 r k) * b (ix2 k c) := by
  refine (Ideal.matmul_constant_zero_apply dot_S128x32_S32x2048_S128x2048_1_0_0_1_n_n none a b (ix2 r c)).trans ?_
  rw [← Equiv.sum_comp (contrEquiv1 dot_S128x32_S32x2048_S128x2048_1_0_0_1_n_n 32 rfl rfl).symm]
  refine Finset.sum_congr rfl fun k _ => ?_
  have hk := contrEquiv1_symm_val dot_S128x32_S32x2048_S128x2048_1_0_0_1_n_n 32 rfl rfl k
  have el : dot_S128x32_S32x2048_S128x2048_1_0_0_1_n_n.lhsIdx (ix2 r c) ((contrEquiv1 dot_S128x32_S32x2048_S128x2048_1_0_0_1_n_n 32 rfl rfl).symm k) = ix2 r k := funext fun ax => Fin.ext (by
    match ax with
    | ⟨0, _⟩ => exact lhs_dt_0 _ _
    | ⟨1, _⟩ => exact (lhs_dt_1 _ _).trans hk)
  have er : dot_S128x32_S32x2048_S128x2048_1_0_0_1_n_n.rhsIdx (ix2 r c) ((contrEquiv1 dot_S128x32_S32x2048_S128x2048_1_0_0_1_n_n 32 rfl rfl).symm k) = ix2 k c := funext fun ax => Fin.ext (by
    match ax with
    | ⟨0, _⟩ => exact (rhs_dt_0 _ _).trans hk
    | ⟨1, _⟩ => exact rhs_dt_1 _ _)
  rw [el, er]

/-! ### The output projection's product -/

private theorem lhs_out_0 (i : S128x1024.Idx) (q : dot_S128x2048_S2048x1024_S128x1024_1_0_0_1_n_n.contr.Idx) :
    (dot_S128x2048_S2048x1024_S128x1024_1_0_0_1_n_n.lhsIdx i q 0).val = (i 0).val := by
  unfold DotDims.lhsIdx
  rw [dif_neg (show ¬(0 : Fin S128x2048.rank) ∈ dot_S128x2048_S2048x1024_S128x1024_1_0_0_1_n_n.lhsBatch by decide), dif_pos (show (0 : Fin S128x2048.rank) ∈ dot_S128x2048_S2048x1024_S128x1024_1_0_0_1_n_n.lhsNonContracting by decide)]
  rfl
private theorem lhs_out_1 (i : S128x1024.Idx) (q : dot_S128x2048_S2048x1024_S128x1024_1_0_0_1_n_n.contr.Idx) :
    (dot_S128x2048_S2048x1024_S128x1024_1_0_0_1_n_n.lhsIdx i q 1).val = (q ⟨0, by decide⟩).val :=
  dot_S128x2048_S2048x1024_S128x1024_1_0_0_1_n_n.lhsIdx_val_of_single rfl i q
private theorem rhs_out_0 (i : S128x1024.Idx) (q : dot_S128x2048_S2048x1024_S128x1024_1_0_0_1_n_n.contr.Idx) :
    (dot_S128x2048_S2048x1024_S128x1024_1_0_0_1_n_n.rhsIdx i q 0).val = (q ⟨0, by decide⟩).val :=
  dot_S128x2048_S2048x1024_S128x1024_1_0_0_1_n_n.rhsIdx_val_of_single rfl i q
private theorem rhs_out_1 (i : S128x1024.Idx) (q : dot_S128x2048_S2048x1024_S128x1024_1_0_0_1_n_n.contr.Idx) :
    (dot_S128x2048_S2048x1024_S128x1024_1_0_0_1_n_n.rhsIdx i q 1).val = (i 1).val := by
  unfold DotDims.rhsIdx
  rw [dif_neg (show ¬(1 : Fin S2048x1024.rank) ∈ dot_S128x2048_S2048x1024_S128x1024_1_0_0_1_n_n.rhsBatch by decide), dif_pos (show (1 : Fin S2048x1024.rank) ∈ dot_S128x2048_S2048x1024_S128x1024_1_0_0_1_n_n.rhsNonContracting by decide)]
  rfl

/-- The product into a zero accumulator at (r, c): the sum over the 2048 channels of row r of the left factor times
    column c of the right one. -/
private theorem matmul_out_apply {φ₁ φ₂ : FTy} (a : FVec Ideal S128x2048 φ₁) (b : FVec Ideal S2048x1024 φ₂) (r : Fin 128) (c : Fin 1024) :
    matmul dot_S128x2048_S2048x1024_S128x1024_1_0_0_1_n_n none a b (constant S128x1024 .f32 0x00000000#32) (ix2 r c)
      = ∑ k : Fin 2048, a (ix2 r k) * b (ix2 k c) := by
  refine (Ideal.matmul_constant_zero_apply dot_S128x2048_S2048x1024_S128x1024_1_0_0_1_n_n none a b (ix2 r c)).trans ?_
  rw [← Equiv.sum_comp (contrEquiv1 dot_S128x2048_S2048x1024_S128x1024_1_0_0_1_n_n 2048 rfl rfl).symm]
  refine Finset.sum_congr rfl fun k _ => ?_
  have hk := contrEquiv1_symm_val dot_S128x2048_S2048x1024_S128x1024_1_0_0_1_n_n 2048 rfl rfl k
  have el : dot_S128x2048_S2048x1024_S128x1024_1_0_0_1_n_n.lhsIdx (ix2 r c) ((contrEquiv1 dot_S128x2048_S2048x1024_S128x1024_1_0_0_1_n_n 2048 rfl rfl).symm k) = ix2 r k := funext fun ax => Fin.ext (by
    match ax with
    | ⟨0, _⟩ => exact lhs_out_0 _ _
    | ⟨1, _⟩ => exact (lhs_out_1 _ _).trans hk)
  have er : dot_S128x2048_S2048x1024_S128x1024_1_0_0_1_n_n.rhsIdx (ix2 r c) ((contrEquiv1 dot_S128x2048_S2048x1024_S128x1024_1_0_0_1_n_n 2048 rfl rfl).symm k) = ix2 k c := funext fun ax => Fin.ext (by
    match ax with
    | ⟨0, _⟩ => exact (rhs_out_0 _ _).trans hk
    | ⟨1, _⟩ => exact rhs_out_1 _ _)
  rw [el, er]

/-! ### Keepdims columns: a vector as a column, a column spread over the lanes -/

section Layout
variable {α : Type}

/-- An `[a]` array cast to `[a, 1]` reads, at `(p, u)`, the operand at `p`, whatever the unit coordinate `u`. -/
private theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one column at `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ### The pointwise transcendental operations at an index -/

private theorem logistic_apply {s : Shape} {φ : FTy} (v : FVec Ideal s φ) (i : s.Idx) : logistic v i = Ideal.logistic (v i) := rfl
private theorem rsqrt_apply {s : Shape} {φ : FTy} (v : FVec Ideal s φ) (i : s.Idx) : rsqrt v i = Ideal.rsqrt (v i) := rfl

/-! ### Lane sums kept as a column -/

/-- The sum along the 64 lanes of a `[128, 64]` array, kept as a `[128, 1]` column: at `(r, u)` the sum of row `r`. -/
private theorem laneSum64_apply (x : FVec Ideal S128x64 .f32) (r : Fin 128) (u : Fin 1) :
    shapeCast S128x1 (multiReduction (F := Ideal) .add [1] S128 x 0x00000000#32 reduces_S128x64_S128 (.inl rfl) rfl) shapeCasts_S128_S128x1 (ix2 r u)
      = ∑ n : Fin 64, x (ix2 r n) := by
  refine (shapeCast_a_a1_apply _ _ r u).trans ?_
  refine (Ideal.multiReduction_add_single x 0x00000000#32 reduces_S128x64_S128 (.inl rfl) rfl (ix1 r)).trans ?_
  refine Finset.sum_congr rfl fun n _ => congrArg x ?_
  exact funext fun ax => Fin.ext (match ax with | ⟨0, _⟩ => rfl | ⟨1, _⟩ => rfl)

/-- The same over 2048 lanes. -/
private theorem laneSum2048_apply (x : FVec Ideal S128x2048 .f32) (r : Fin 128) (u : Fin 1) :
    shapeCast S128x1 (multiReduction (F := Ideal) .add [1] S128 x 0x00000000#32 reduces_S128x2048_S128 (.inl rfl) rfl) shapeCasts_S128_S128x1 (ix2 r u)
      = ∑ n : Fin 2048, x (ix2 r n) := by
  refine (shapeCast_a_a1_apply _ _ r u).trans ?_
  refine (Ideal.multiReduction_add_single x 0x00000000#32 reduces_S128x2048_S128 (.inl rfl) rfl (ix1 r)).trans ?_
  refine Finset.sum_congr rfl fun n _ => congrArg x ?_
  exact funext fun ax => Fin.ext (match ax with | ⟨0, _⟩ => rfl | ⟨1, _⟩ => rfl)

/-! ### The hidden row's stages, as the kernel writes them

Each definition is one stretch of the kernel's body over whole `[128, ·]` arrays; the lemma after it reads the stretch at
`(r, c)` as the row-wise function of the specification. -/

/-- silu of the convolution part plus its bias row. -/
private def kXbc (v39 : FVec Ideal S128x2176 .f32) (x6 : Vec Ideal S1x2176 .f32) : FVec Ideal S128x2176 .f32 :=
  mulf (addf v39 (broadcastTo S128x2176 (shapeCast S1x2176 x6 shapeCasts_S1x2176_S1x2176) broadcasts_S1x2176_S128x2176))
    (logistic (addf v39 (broadcastTo S128x2176 (shapeCast S1x2176 x6 shapeCasts_S1x2176_S1x2176) broadcasts_S1x2176_S128x2176)))

private theorem kXbc_apply (v39 : FVec Ideal S128x2176 .f32) (x6 : Vec Ideal S1x2176 .f32) (r : Fin 128) (c : Fin 2176) :
    kXbc v39 x6 (ix2 r c) = silu (row v39 r c + row x6 (0 : Fin 1) c) := by
  unfold kXbc
  simp only [mulf_apply, logistic_apply, addf_apply, shapeCast_self, broadcastTo_1b_ab_apply]
  rfl

/-- Σ B·C of each row, spread over the 2048 channels. -/
private def kBc (X : FVec Ideal S128x2176 .f32) : FVec Ideal S128x2048 .f32 :=
  broadcastTo S128x2048
    (shapeCast S128x1
      (multiReduction (F := Ideal) .add [1] S128
        (mulf (extractStridedSlice S128x64 ![0, 2048] X slices_S128x2176_o0_2048_S128x64)
          (extractStridedSlice S128x64 ![0, 2112] X slices_S128x2176_o0_2112_S128x64))
        0x00000000#32 reduces_S128x64_S128 (.inl rfl) rfl)
      shapeCasts_S128_S128x1)
    broadcasts_S128x1_S128x2048

private theorem kBc_apply (X : FVec Ideal S128x2176 .f32) (r : Fin 128) (c : Fin 2048) :
    kBc X (ix2 r c) = bcval (row X r) := by
  unfold kBc
  refine (broadcastTo_a1_ab_apply _ _ r c).trans ?_
  refine (laneSum64_apply _ r (0 : Fin 1)).trans ?_
  refine Finset.sum_congr rfl fun n _ => ?_
  rw [mulf_apply, slice2_axis1_apply 2048 X slices_S128x2176_o0_2048_S128x64 r n ⟨2048 + n.val, by have := n.isLt; omega⟩ rfl,
    slice2_axis1_apply 2112 X slices_S128x2176_o0_2112_S128x64 r n ⟨2112 + n.val, by have := n.isLt; omega⟩ rfl]
  rfl

/-- dt spread over the 2048 channels by the product with the 32×2048 matrix. -/
private def kDt (v35 : FVec Ideal S128x32 .f32) (x9 : Vec Ideal S32x2048 .bf16) : FVec Ideal S128x2048 .f32 :=
  matmul dot_S128x32_S32x2048_S128x2048_1_0_0_1_n_n none (truncf .bf16 v35 bitsLt_bf16_f32)
    (shapeCast S32x2048 x9 shapeCasts_S32x2048_S32x2048 : FVec Ideal S32x2048 .bf16) (constant (F := Ideal) S128x2048 .f32 0x00000000#32)

private theorem kDt_apply (v35 : FVec Ideal S128x32 .f32) (x9 : Vec Ideal S32x2048 .bf16) (r : Fin 128) (c : Fin 2048) :
    kDt v35 x9 (ix2 r c) = spread (row v35 r) (mat x9) c := by
  unfold kDt
  refine (matmul_dt_apply _ _ r c).trans ?_
  simp only [truncf_apply, shapeCast_self]
  rfl

/-- The step: xs · (dt_full · bc + D_full). -/
private def kY0 (X : FVec Ideal S128x2176 .f32) (v35 : FVec Ideal S128x32 .f32) (x9 : Vec Ideal S32x2048 .bf16) (x8 : Vec Ideal S1x2048 .f32) :
    FVec Ideal S128x2048 .f32 :=
  mulf (extractStridedSlice S128x2048 ![0, 0] X slices_S128x2176_o0_0_S128x2048)
    (addf (mulf (kDt v35 x9) (kBc X)) (broadcastTo S128x2048 (shapeCast S1x2048 x8 shapeCasts_S1x2048_S1x2048) broadcasts_S1x2048_S128x2048))

private theorem kY0_apply (X : FVec Ideal S128x2176 .f32) (v35 : FVec Ideal S128x32 .f32) (x9 : Vec Ideal S32x2048 .bf16) (x8 : Vec Ideal S1x2048 .f32)
    (r : Fin 128) (c : Fin 2048) :
    kY0 X v35 x9 x8 (ix2 r c) = y0K (xsOf (row X r)) (spread (row v35 r) (mat x9)) (bcval (row X r)) (row x8 (0 : Fin 1)) c := by
  unfold kY0
  rw [mulf_apply, addf_apply, mulf_apply, kDt_apply, kBc_apply, shapeCast_self, broadcastTo_1b_ab_apply,
    slice2_axis1_apply 0 X slices_S128x2176_o0_0_S128x2048 r c ⟨c.val, by have := c.isLt; omega⟩ (Nat.zero_add _).symm]
  rfl

/-- The gate: y0 · silu(z_gate). -/
private def kGated (y0 v15 : FVec Ideal S128x2048 .f32) : FVec Ideal S128x2048 .f32 := mulf y0 (mulf v15 (logistic v15))

private theorem kGated_apply (y0 v15 : FVec Ideal S128x2048 .f32) (r : Fin 128) (c : Fin 2048) :
    kGated y0 v15 (ix2 r c) = gated (row y0 r) (row v15 r) c := rfl

/-- rsqrt(mean of squares + ε) of each row, spread over the 2048 channels. -/
private def kRinv (g : FVec Ideal S128x2048 .f32) : FVec Ideal S128x2048 .f32 :=
  broadcastTo S128x2048
    (rsqrt (addf
      (divf (shapeCast S128x1 (multiReduction (F := Ideal) .add [1] S128 (mulf g g) 0x00000000#32 reduces_S128x2048_S128 (.inl rfl) rfl) shapeCasts_S128_S128x1)
        (broadcast S128x1 (Scalar.ofBits .f32 0x45000000#32)))
      (broadcast S128x1 (Scalar.ofBits .f32 0x3727C5AC#32))))
    broadcasts_S128x1_S128x2048

private theorem kRinv_apply (g : FVec Ideal S128x2048 .f32) (r : Fin 128) (c : Fin 2048) :
    kRinv g (ix2 r c) = rinv (row g r) := by
  unfold kRinv
  refine (broadcastTo_a1_ab_apply _ _ r c).trans ?_
  rw [rsqrt_apply, addf_apply, divf_apply, broadcast_apply, broadcast_apply, laneSum2048_apply]
  rfl

/-- The RMS normalisation: g · rinv · rms_w. -/
private def kYnorm (g : FVec Ideal S128x2048 .f32) (x10 : Vec Ideal S1x2048 .f32) : FVec Ideal S128x2048 .f32 :=
  mulf (mulf g (kRinv g)) (broadcastTo S128x2048 (shapeCast S1x2048 x10 shapeCasts_S1x2048_S1x2048) broadcasts_S1x2048_S128x2048)

private theorem kYnorm_apply (g : FVec Ideal S128x2048 .f32) (x10 : Vec Ideal S1x2048 .f32) (r : Fin 128) (c : Fin 2048) :
    kYnorm g x10 (ix2 r c) = ynorm (row g r) (row x10 (0 : Fin 1)) c := by
  unfold kYnorm
  rw [mulf_apply, mulf_apply, kRinv_apply, shapeCast_self, broadcastTo_1b_ab_apply]
  rfl

/-- The output projection. -/
private def kH (yn : FVec Ideal S128x2048 .f32) (x11 : Vec Ideal S2048x1024 .bf16) : FVec Ideal S128x1024 .bf16 :=
  truncf .bf16
    (matmul dot_S128x2048_S2048x1024_S128x1024_1_0_0_1_n_n none (truncf .bf16 yn bitsLt_bf16_f32)
      (shapeCast S2048x1024 x11 shapeCasts_S2048x1024_S2048x1024 : FVec Ideal S2048x1024 .bf16) (constant (F := Ideal) S128x1024 .f32 0x00000000#32))
    bitsLt_bf16_f32

private theorem kH_apply (yn : FVec Ideal S128x2048 .f32) (x11 : Vec Ideal S2048x1024 .bf16) (r : Fin 128) (k : Fin 1024) :
    kH yn x11 (ix2 r k) = hrow (row yn r) (mat x11) k := by
  unfold kH
  rw [truncf_apply]
  refine (matmul_out_apply _ _ r k).trans ?_
  simp only [truncf_apply, shapeCast_self]
  rfl

/-- The kernel's body from the projected row's cuts to the hidden row is the composition of those stages. -/
private theorem pay7_eq (v15 : FVec Ideal S128x2048 .f32) (v35 : FVec Ideal S128x32 .f32) (v39 : FVec Ideal S128x2176 .f32)
    (x6 : Vec Ideal S1x2176 .f32) (x9 : Vec Ideal S32x2048 .bf16) (x8 x10 : Vec Ideal S1x2048 .f32) (x11 : Vec Ideal S2048x1024 .bf16) :
    k0_pay7 v15 v35 v39 x6 x9 x8 x10 x11 = kH (kYnorm (kGated (kY0 (kXbc v39 x6) v35 x9 x8) v15) x10) x11 := rfl

theorem pay7_apply (v15 : FVec Ideal S128x2048 .f32) (v35 : FVec Ideal S128x32 .f32) (v39 : FVec Ideal S128x2176 .f32)
    (x6 : Vec Ideal S1x2176 .f32) (x9 : Vec Ideal S32x2048 .bf16) (x8 x10 : Vec Ideal S1x2048 .f32) (x11 : Vec Ideal S2048x1024 .bf16)
    (r : Fin 128) (k : Fin 1024) :
    k0_pay7 v15 v35 v39 x6 x9 x8 x10 x11 (ix2 r k) =
      hrow (ynorm (gated (y0K (xsOf (fun c => silu (row v39 r c + row x6 (0 : Fin 1) c))) (spread (row v35 r) (mat x9))
        (bcval (fun c => silu (row v39 r c + row x6 (0 : Fin 1) c))) (row x8 (0 : Fin 1))) (row v15 r)) (row x10 (0 : Fin 1))) (mat x11) k := by
  have hX : row (kXbc v39 x6) r = fun c => silu (row v39 r c + row x6 (0 : Fin 1) c) :=
    funext fun c => kXbc_apply v39 x6 r c
  have hY : row (kY0 (kXbc v39 x6) v35 x9 x8) r
      = y0K (xsOf (row (kXbc v39 x6) r)) (spread (row v35 r) (mat x9)) (bcval (row (kXbc v39 x6) r)) (row x8 (0 : Fin 1)) :=
    funext fun c => kY0_apply (kXbc v39 x6) v35 x9 x8 r c
  have hG : row (kGated (kY0 (kXbc v39 x6) v35 x9 x8) v15) r = gated (row (kY0 (kXbc v39 x6) v35 x9 x8) r) (row v15 r) :=
    funext fun c => kGated_apply _ v15 r c
  have hN : row (kYnorm (kGated (kY0 (kXbc v39 x6) v35 x9 x8) v15) x10) r
      = ynorm (row (kGated (kY0 (kXbc v39 x6) v35 x9 x8) v15) r) (row x10 (0 : Fin 1)) :=
    funext fun c => kYnorm_apply _ x10 r c
  rw [pay7_eq, kH_apply, hN, hG, hY, hX]

theorem pay1_apply (v84 : FVec Ideal S128x1024 .bf16) (x12 : Vec Ideal S1024x512 .bf16) (x13 : Vec Ideal S1x512 .f32) (r : Fin 128) (o : Fin 512) :
    k0_pay1 v84 x12 x13 (ix2 r o) = obsrow (row v84 r) (mat x12) (row x13 (0 : Fin 1)) o := by
  unfold k0_pay1
  simp only [shapeCast_self, addf_apply, matmul_obs_apply, broadcastTo_1b_ab_apply]
  rfl

theorem pay2_apply (v84 : FVec Ideal S128x1024 .bf16) (x14 : Vec Ideal S1024x1 .bf16) (x15 : Vec Ideal S1x1 .f32) (r : Fin 128) :
    k0_pay2 v84 x14 x15 (ix2 r (0 : Fin 1)) = rewval (row v84 r) (col x14 (0 : Fin 1)) (x15 (ix2 (0 : Fin 1) (0 : Fin 1))) := by
  unfold k0_pay2
  simp only [shapeCast_self, addf_apply, matmul_rew_apply, broadcastTo_1b_ab_apply]
  rfl

end Cert.KernelIdeal.PayB

end
-- ==== Proof.KernelArr.lean ====
/-
  The kernel's two outputs as whole arrays. One grid point computes 128 batch rows; row r of point t is batch row
  128·t + r, every weight window is the whole weight array, and the blocks of the two outputs tile them. So the
  next-observation array ends at (b, o) ↦ obsrow (h_b) o and the reward column at b ↦ rewval (h_b), h_b the hidden
  row of batch row b in the kernel's arrangement; the closing reshape turns the column into a vector.
-/
import proofs.«137712_j17403207483679_1_alg».proof.Proof.Gen.KernelIdeal.Frame
import proofs.«137712_j17403207483679_1_alg».proof.Proof.Spec
import proofs.«137712_j17403207483679_1_alg».proof.Proof.PayA
import proofs.«137712_j17403207483679_1_alg».proof.Proof.PayB
import Idealize.ShloMosaic.Lib.Pipeline.Value
import Idealize.ShloMosaic.Lib.StableHlo.Run

set_option maxRecDepth 16384

noncomputable section

namespace Cert.KernelIdeal.Arr

open Idealize.ShloMosaic Idealize.ShloMosaic.TcCoe Idealize.ShloMosaic.ValueIdx Idealize.SL.Sem
open Cert.KernelIdeal Cert.KernelIdeal.Gen Cert.Spec Cert.KernelIdeal.PayA Cert.KernelIdeal.PayB
open Idealize.ShloMosaic.Pipeline (Dat)

/-! ## One row of one grid point, through the whole body -/

/-- The hidden row of row `r` of a grid point, from the point's sixteen input blocks. -/
abbrev Hk (x0 : Vec Ideal S128x512 .f32) (x1 : Vec Ideal S128x256 .f32) (x2 : Vec Ideal S768x1024 .bf16) (x3 : Vec Ideal S1x1024 .f32)
    (x4 : Vec Ideal S1024x4256 .bf16) (x5 x6 : Vec Ideal S1x2176 .f32) (x7 : Vec Ideal S1x32 .f32) (x8 : Vec Ideal S1x2048 .f32)
    (x9 : Vec Ideal S32x2048 .bf16) (x10 : Vec Ideal S1x2048 .f32) (x11 : Vec Ideal S2048x1024 .bf16) (r : Fin 128) : Fin 1024 → EReal :=
  hK (Zk x0 x1 x2 x3 x4 r) (row x5 (0 : Fin 1)) (row x6 (0 : Fin 1)) (row x7 (0 : Fin 1)) (mat x9) (row x8 (0 : Fin 1)) (row x10 (0 : Fin 1)) (mat x11)

/-- The body's hidden block, row by row. -/
theorem hidden_apply (x0 : Vec Ideal S128x512 .f32) (x1 : Vec Ideal S128x256 .f32) (x2 : Vec Ideal S768x1024 .bf16) (x3 : Vec Ideal S1x1024 .f32)
    (x4 : Vec Ideal S1024x4256 .bf16) (x5 x6 : Vec Ideal S1x2176 .f32) (x7 : Vec Ideal S1x32 .f32) (x8 : Vec Ideal S1x2048 .f32)
    (x9 : Vec Ideal S32x2048 .bf16) (x10 : Vec Ideal S1x2048 .f32) (x11 : Vec Ideal S2048x1024 .bf16) (r : Fin 128) :
    row (k0_pay7 (k0_pay4 x0 x1 x2 x3 x4) (k0_pay5 x0 x1 x2 x3 x4 x7) (k0_pay6 x0 x1 x2 x3 x4 x5) x6 x9 x8 x10 x11) r
      = Hk x0 x1 x2 x3 x4 x5 x6 x7 x8 x9 x10 x11 r := by
  funext k
  show k0_pay7 (k0_pay4 x0 x1 x2 x3 x4) (k0_pay5 x0 x1 x2 x3 x4 x7) (k0_pay6 x0 x1 x2 x3 x4 x5) x6 x9 x8 x10 x11 (ix2 r k) = _
  rw [pay7_apply]
  have h4 : row (k0_pay4 x0 x1 x2 x3 x4) r = zgate (Zk x0 x1 x2 x3 x4 r) := funext fun c => pay4_apply x0 x1 x2 x3 x4 r c
  have h5 : row (k0_pay5 x0 x1 x2 x3 x4 x7) r = dtrow (zdt (Zk x0 x1 x2 x3 x4 r)) (row x7 (0 : Fin 1)) :=
    funext fun h => pay5_apply x0 x1 x2 x3 x4 x7 r h
  have h6 : (fun c => silu (row (k0_pay6 x0 x1 x2 x3 x4 x5) r c + row x6 (0 : Fin 1) c))
      = xbcrow (zconv (Zk x0 x1 x2 x3 x4 r)) (row x5 (0 : Fin 1)) (row x6 (0 : Fin 1)) :=
    funext fun c => congrArg (fun v => silu (v + row x6 (0 : Fin 1) c)) (pay6_apply x0 x1 x2 x3 x4 x5 r c)
  rw [h4, h5, h6]
  rfl

/-- The next-observation block at (r, o). -/
theorem obs_apply (x0 : Vec Ideal S128x512 .f32) (x1 : Vec Ideal S128x256 .f32) (x2 : Vec Ideal S768x1024 .bf16) (x3 : Vec Ideal S1x1024 .f32)
    (x4 : Vec Ideal S1024x4256 .bf16) (x5 x6 : Vec Ideal S1x2176 .f32) (x7 : Vec Ideal S1x32 .f32) (x8 : Vec Ideal S1x2048 .f32)
    (x9 : Vec Ideal S32x2048 .bf16) (x10 : Vec Ideal S1x2048 .f32) (x11 : Vec Ideal S2048x1024 .bf16) (x12 : Vec Ideal S1024x512 .bf16)
    (x13 : Vec Ideal S1x512 .f32) (r : Fin 128) (o : Fin 512) :
    k0_pay1 (k0_pay7 (k0_pay4 x0 x1 x2 x3 x4) (k0_pay5 x0 x1 x2 x3 x4 x7) (k0_pay6 x0 x1 x2 x3 x4 x5) x6 x9 x8 x10 x11) x12 x13 (ix2 r o)
      = obsrow (Hk x0 x1 x2 x3 x4 x5 x6 x7 x8 x9 x10 x11 r) (mat x12) (row x13 (0 : Fin 1)) o := by
  rw [pay1_apply, hidden_apply]

/-- The reward block at (r, 0). -/
theorem rew_apply (x0 : Vec Ideal S128x512 .f32) (x1 : Vec Ideal S128x256 .f32) (x2 : Vec Ideal S768x1024 .bf16) (x3 : Vec Ideal S1x1024 .f32)
    (x4 : Vec Ideal S1024x4256 .bf16) (x5 x6 : Vec Ideal S1x2176 .f32) (x7 : Vec Ideal S1x32 .f32) (x8 : Vec Ideal S1x2048 .f32)
    (x9 : Vec Ideal S32x2048 .bf16) (x10 : Vec Ideal S1x2048 .f32) (x11 : Vec Ideal S2048x1024 .bf16) (x14 : Vec Ideal S1024x1 .bf16)
    (x15 : Vec Ideal S1x1 .f32) (r : Fin 128) :
    k0_pay2 (k0_pay7 (k0_pay4 x0 x1 x2 x3 x4) (k0_pay5 x0 x1 x2 x3 x4 x7) (k0_pay6 x0 x1 x2 x3 x4 x5) x6 x9 x8 x10 x11) x14 x15 (ix2 r (0 : Fin 1))
      = rewval (Hk x0 x1 x2 x3 x4 x5 x6 x7 x8 x9 x10 x11 r) (col x14 (0 : Fin 1)) (x15 (ix2 (0 : Fin 1) (0 : Fin 1))) := by
  rw [pay2_apply, hidden_apply]

/-! ## The windows' blocks as rows of the arrays -/

variable (m : (ℓ : Loc nD τ sig) → Buf (Elt Ideal) ℓ) (ρ : Dev nD → PrngReg) (c : Dev nD)

theorem hz : (![0, 0] : Fin 2 → Nat) = fun _ => 0 := funext fun a => by fin_cases a <;> rfl

/-- The batch row that row `r` of grid point `t` is: 128 rows a point. -/
def brow (t : Fin cfg0.N) (r : Fin 128) : Fin 8192 :=
  ⟨128 * t.val + r.val, by have := t.isLt; have h : cfg0.N = 64 := N_0; omega⟩

/-- The four windows that move with the grid take block `t` on the batch axis and block 0 on the other. -/
theorem idxBatch : ∀ t : Fin cfg0.N, (win0_0.index t 0 = t.val ∧ win0_0.index t 1 = 0) ∧ (win0_1.index t 0 = t.val ∧ win0_1.index t 1 = 0)
    ∧ (win0_16.index t 0 = t.val ∧ win0_16.index t 1 = 0) ∧ (win0_17.index t 0 = t.val ∧ win0_17.index t 1 = 0) :=
  (by decide +kernel : ∀ t : Fin grid0.N, (win0_0.index t 0 = t.val ∧ win0_0.index t 1 = 0) ∧ (win0_1.index t 0 = t.val ∧ win0_1.index t 1 = 0)
    ∧ (win0_16.index t 0 = t.val ∧ win0_16.index t 1 = 0) ∧ (win0_17.index t 0 = t.val ∧ win0_17.index t 1 = 0))

/-- The fourteen weight windows stay at block (0, 0) at every point. -/
theorem idxRes : ∀ t : Fin cfg0.N, ∀ a : Fin 2, win0_2.index t a = 0 ∧ win0_3.index t a = 0 ∧ win0_4.index t a = 0 ∧ win0_5.index t a = 0
    ∧ win0_6.index t a = 0 ∧ win0_7.index t a = 0 ∧ win0_8.index t a = 0 ∧ win0_9.index t a = 0 ∧ win0_10.index t a = 0
    ∧ win0_11.index t a = 0 ∧ win0_12.index t a = 0 ∧ win0_13.index t a = 0 ∧ win0_14.index t a = 0 ∧ win0_15.index t a = 0 :=
  (by decide +kernel : ∀ t : Fin grid0.N, ∀ a : Fin 2, win0_2.index t a = 0 ∧ win0_3.index t a = 0 ∧ win0_4.index t a = 0 ∧ win0_5.index t a = 0
    ∧ win0_6.index t a = 0 ∧ win0_7.index t a = 0 ∧ win0_8.index t a = 0 ∧ win0_9.index t a = 0 ∧ win0_10.index t a = 0
    ∧ win0_11.index t a = 0 ∧ win0_12.index t a = 0 ∧ win0_13.index t a = 0 ∧ win0_14.index t a = 0 ∧ win0_15.index t a = 0)

/-- Row `r` of the observation block at point `t` is batch row 128·t + r of the observations. -/
theorem iblk0_apply (t : Fin cfg0.N) (r : Fin 128) (k : Fin 512) :
    (iblk m c 0 t : S128x512.Idx → EReal) (ix2 r k) = (V m c main_arg0 : S8192x512.Idx → EReal) (ix2 (brow t r) k) := by
  unfold iblk
  rw [View.read_apply]
  show V m c main_arg0 _ = V m c main_arg0 _
  congr 1
  funext a
  apply Fin.ext
  match a with
  | ⟨0, _⟩ => show win0_0.index t 0 * 128 + 1 * r.val = 128 * t.val + r.val; rw [(idxBatch t).1.1]; omega
  | ⟨1, _⟩ => show win0_0.index t 1 * 512 + 1 * k.val = k.val; rw [(idxBatch t).1.2]; omega

/-- The same for the action block. -/
theorem iblk1_apply (t : Fin cfg0.N) (r : Fin 128) (k : Fin 256) :
    (iblk m c 1 t : S128x256.Idx → EReal) (ix2 r k) = (V m c main_arg1 : S8192x256.Idx → EReal) (ix2 (brow t r) k) := by
  unfold iblk
  rw [View.read_apply]
  show V m c main_arg1 _ = V m c main_arg1 _
  congr 1
  funext a
  apply Fin.ext
  match a with
  | ⟨0, _⟩ => show win0_1.index t 0 * 128 + 1 * r.val = 128 * t.val + r.val; rw [(idxBatch t).2.1.1]; omega
  | ⟨1, _⟩ => show win0_1.index t 1 * 256 + 1 * k.val = k.val; rw [(idxBatch t).2.1.2]; omega

/-! Each weight window's block is its whole array: block (0, 0) of an array the size of the block. -/

theorem iblk2_eq (t : Fin cfg0.N) : (iblk m c 2 t : S768x1024.Idx → EReal) = (V m c main_v0 : S768x1024.Idx → EReal) := by
  have hz' : (fun a => win0_2.index t a * main_v0.ty.shape.size a) = fun _ => 0 := funext fun a => by rw [(idxRes t a).1, Nat.zero_mul]
  exact Memref.read_access_unit_zero (Elt Ideal) main_v0 hz' (fun a => by rw [congrFun hz' a]; simp) (V m c main_v0)

theorem iblk3_eq (t : Fin cfg0.N) : (iblk m c 3 t : S1x1024.Idx → EReal) = (V m c main_v14 : S1x1024.Idx → EReal) := by
  have hz' : (fun a => win0_3.index t a * main_v14.ty.shape.size a) = fun _ => 0 := funext fun a => by rw [(idxRes t a).2.1, Nat.zero_mul]
  exact Memref.read_access_unit_zero (Elt Ideal) main_v14 hz' (fun a => by rw [congrFun hz' a]; simp) (V m c main_v14)

theorem iblk4_eq (t : Fin cfg0.N) : (iblk m c 4 t : S1024x4256.Idx → EReal) = (V m c main_v1 : S1024x4256.Idx → EReal) := by
  have hz' : (fun a => win0_4.index t a * main_v1.ty.shape.size a) = fun _ => 0 := funext fun a => by rw [(idxRes t a).2.2.1, Nat.zero_mul]
  exact Memref.read_access_unit_zero (Elt Ideal) main_v1 hz' (fun a => by rw [congrFun hz' a]; simp) (V m c main_v1)

theorem iblk5_eq (t : Fin cfg0.N) : (iblk m c 5 t : S1x2176.Idx → EReal) = (V m c main_v7 : S1x2176.Idx → EReal) := by
  have hz' : (fun a => win0_5.index t a * main_v7.ty.shape.size a) = fun _ => 0 := funext fun a => by rw [(idxRes t a).2.2.2.1, Nat.zero_mul]
  exact Memref.read_access_unit_zero (Elt Ideal) main_v7 hz' (fun a => by rw [congrFun hz' a]; simp) (V m c main_v7)

theorem iblk6_eq (t : Fin cfg0.N) : (iblk m c 6 t : S1x2176.Idx → EReal) = (V m c main_v8 : S1x2176.Idx → EReal) := by
  have hz' : (fun a => win0_6.index t a * main_v8.ty.shape.size a) = fun _ => 0 := funext fun a => by rw [(idxRes t a).2.2.2.2.1, Nat.zero_mul]
  exact Memref.read_access_unit_zero (Elt Ideal) main_v8 hz' (fun a => by rw [congrFun hz' a]; simp) (V m c main_v8)

theorem iblk7_eq (t : Fin cfg0.N) : (iblk m c 7 t : S1x32.Idx → EReal) = (V m c main_v9 : S1x32.Idx → EReal) := by
  have hz' : (fun a => win0_7.index t a * main_v9.ty.shape.size a) = fun _ => 0 := funext fun a => by rw [(idxRes t a).2.2.2.2.2.1, Nat.zero_mul]
  exact Memref.read_access_unit_zero (Elt Ideal) main_v9 hz' (fun a => by rw [congrFun hz' a]; simp) (V m c main_v9)

theorem iblk8_eq (t : Fin cfg0.N) : (iblk m c 8 t : S1x2048.Idx → EReal) = (V m c main_v12 : S1x2048.Idx → EReal) := by
  have hz' : (fun a => win0_8.index t a * main_v12.ty.shape.size a) = fun _ => 0 := funext fun a => by rw [(idxRes t a).2.2.2.2.2.2.1, Nat.zero_mul]
  exact Memref.read_access_unit_zero (Elt Ideal) main_v12 hz' (fun a => by rw [congrFun hz' a]; simp) (V m c main_v12)

theorem iblk9_eq (t : Fin cfg0.N) : (iblk m c 9 t : S32x2048.Idx → EReal) = (V m c main_v24 : S32x2048.Idx → EReal) := by
  have hz' : (fun a => win0_9.index t a * main_v24.ty.shape.size a) = fun _ => 0 := funext fun a => by rw [(idxRes t a).2.2.2.2.2.2.2.1, Nat.zero_mul]
  exact Memref.read_access_unit_zero (Elt Ideal) main_v24 hz' (fun a => by rw [congrFun hz' a]; simp) (V m c main_v24)

theorem iblk10_eq (t : Fin cfg0.N) : (iblk m c 10 t : S1x2048.Idx → EReal) = (V m c main_v13 : S1x2048.Idx → EReal) := by
  have hz' : (fun a => win0_10.index t a * main_v13.ty.shape.size a) = fun _ => 0 := funext fun a => by rw [(idxRes t a).2.2.2.2.2.2.2.2.1, Nat.zero_mul]
  exact Memref.read_access_unit_zero (Elt Ideal) main_v13 hz' (fun a => by rw [congrFun hz' a]; simp) (V m c main_v13)

theorem iblk11_eq (t : Fin cfg0.N) : (iblk m c 11 t : S2048x1024.Idx → EReal) = (V m c main_v2 : S2048x1024.Idx → EReal) := by
  have hz' : (fun a => win0_11.index t a * main_v2.ty.shape.size a) = fun _ => 0 := funext fun a => by rw [(idxRes t a).2.2.2.2.2.2.2.2.2.1, Nat.zero_mul]
  exact Memref.read_access_unit_zero (Elt Ideal) main_v2 hz' (fun a => by rw [congrFun hz' a]; simp) (V m c main_v2)

theorem iblk12_eq (t : Fin cfg0.N) : (iblk m c 12 t : S1024x512.Idx → EReal) = (V m c main_v3 : S1024x512.Idx → EReal) := by
  have hz' : (fun a => win0_12.index t a * main_v3.ty.shape.size a) = fun _ => 0 := funext fun a => by rw [(idxRes t a).2.2.2.2.2.2.2.2.2.2.1, Nat.zero_mul]
  exact Memref.read_access_unit_zero (Elt Ideal) main_v3 hz' (fun a => by rw [congrFun hz' a]; simp) (V m c main_v3)

theorem iblk13_eq (t : Fin cfg0.N) : (iblk m c 13 t : S1x512.Idx → EReal) = (V m c main_v15 : S1x512.Idx → EReal) := by
  have hz' : (fun a => win0_13.index t a * main_v15.ty.shape.size a) = fun _ => 0 := funext fun a => by rw [(idxRes t a).2.2.2.2.2.2.2.2.2.2.2.1, Nat.zero_mul]
  exact Memref.read_access_unit_zero (Elt Ideal) main_v15 hz' (fun a => by rw [congrFun hz' a]; simp) (V m c main_v15)

theorem iblk14_eq (t : Fin cfg0.N) : (iblk m c 14 t : S1024x1.Idx → EReal) = (V m c main_v4 : S1024x1.Idx → EReal) := by
  have hz' : (fun a => win0_14.index t a * main_v4.ty.shape.size a) = fun _ => 0 := funext fun a => by rw [(idxRes t a).2.2.2.2.2.2.2.2.2.2.2.2.1, Nat.zero_mul]
  exact Memref.read_access_unit_zero (Elt Ideal) main_v4 hz' (fun a => by rw [congrFun hz' a]; simp) (V m c main_v4)

theorem iblk15_eq (t : Fin cfg0.N) : (iblk m c 15 t : S1x1.Idx → EReal) = (V m c main_v16 : S1x1.Idx → EReal) := by
  have hz' : (fun a => win0_15.index t a * main_v16.ty.shape.size a) = fun _ => 0 := funext fun a => by rw [(idxRes t a).2.2.2.2.2.2.2.2.2.2.2.2.2, Nat.zero_mul]
  exact Memref.read_access_unit_zero (Elt Ideal) main_v16 hz' (fun a => by rw [congrFun hz' a]; simp) (V m c main_v16)

/-! ## The two outputs as whole-array functions of the arrays the region finds -/

/-- The hidden row of batch row `b`, the kernel's arrangement, from the sixteen arrays as the region finds them. -/
def HkArr (b : Fin 8192) : Fin 1024 → EReal :=
  hK (zOf (row (V m c main_arg0 : S8192x512.Idx → EReal) b) (row (V m c main_arg1 : S8192x256.Idx → EReal) b)
      (mat (V m c main_v0 : S768x1024.Idx → EReal)) (row (V m c main_v14 : S1x1024.Idx → EReal) (0 : Fin 1)) (mat (V m c main_v1 : S1024x4256.Idx → EReal)))
    (row (V m c main_v7 : S1x2176.Idx → EReal) (0 : Fin 1)) (row (V m c main_v8 : S1x2176.Idx → EReal) (0 : Fin 1))
    (row (V m c main_v9 : S1x32.Idx → EReal) (0 : Fin 1)) (mat (V m c main_v24 : S32x2048.Idx → EReal))
    (row (V m c main_v12 : S1x2048.Idx → EReal) (0 : Fin 1)) (row (V m c main_v13 : S1x2048.Idx → EReal) (0 : Fin 1))
    (mat (V m c main_v2 : S2048x1024.Idx → EReal))

/-- The next-observation array. -/
def G16 : S8192x512.Idx → EReal := fun i =>
  obsrow (HkArr m c (i 0)) (mat (V m c main_v3 : S1024x512.Idx → EReal)) (row (V m c main_v15 : S1x512.Idx → EReal) (0 : Fin 1)) (i 1)

/-- The reward column. -/
def G17 : S8192x1.Idx → EReal := fun i =>
  rewval (HkArr m c (i 0)) (col (V m c main_v4 : S1024x1.Idx → EReal) (0 : Fin 1)) ((V m c main_v16 : S1x1.Idx → EReal) (ix2 (0 : Fin 1) (0 : Fin 1)))

/-- The hidden row of row `r` of point `t` is the hidden row of batch row 128·t + r. -/
theorem Hk_iblk (t : Fin cfg0.N) (r : Fin 128) :
    Hk (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) r = HkArr m c (brow t r) := by
  have h0 : row (iblk m c 0 t : S128x512.Idx → EReal) r = row (V m c main_arg0 : S8192x512.Idx → EReal) (brow t r) :=
    funext fun k => iblk0_apply m c t r k
  have h1 : row (iblk m c 1 t : S128x256.Idx → EReal) r = row (V m c main_arg1 : S8192x256.Idx → EReal) (brow t r) :=
    funext fun k => iblk1_apply m c t r k
  unfold Hk Zk HkArr
  rw [h0, h1, iblk2_eq, iblk3_eq, iblk4_eq, iblk5_eq, iblk6_eq, iblk7_eq, iblk8_eq, iblk9_eq, iblk10_eq, iblk11_eq]

/-! ## What each point writes back, the cover, the arrays after the run -/

/-- Index (r, o) of point `t`'s next-observation block is index (128·t + r, o) of the array. -/
theorem emb16 (t : Fin cfg0.N) (r : Fin 128) (o : Fin 512) :
    ((cfg0.win 16).blk t).view.emb (ix2 r o : S128x512.Idx) = (ix2 (brow t r) o : S8192x512.Idx) := by
  funext a
  apply Fin.ext
  match a with
  | ⟨0, _⟩ => show win0_16.index t 0 * 128 + 1 * r.val = 128 * t.val + r.val; rw [(idxBatch t).2.2.1.1]; omega
  | ⟨1, _⟩ => show win0_16.index t 1 * 512 + 1 * o.val = o.val; rw [(idxBatch t).2.2.1.2]; omega

/-- Index (r, 0) of point `t`'s reward block is index (128·t + r, 0) of the column. -/
theorem emb17 (t : Fin cfg0.N) (r : Fin 128) (o : Fin 1) :
    ((cfg0.win 17).blk t).view.emb (ix2 r o : S128x1.Idx) = (ix2 (brow t r) o : S8192x1.Idx) := by
  funext a
  apply Fin.ext
  match a with
  | ⟨0, _⟩ => show win0_17.index t 0 * 128 + 1 * r.val = 128 * t.val + r.val; rw [(idxBatch t).2.2.2.1]; omega
  | ⟨1, _⟩ => show win0_17.index t 1 * 1 + 1 * o.val = o.val; rw [(idxBatch t).2.2.2.2]; omega

/-- Point `t` writes back block `t` of the next-observation array. -/
theorem flushed16_eq (t : Fin cfg0.N) :
    (dats m 0 c).flushed 16 t = ((cfg0.win 16).blk t).view.read (Elt Ideal) (G16 m c) := by
  show (cfg0.win 16).cut (grid0.coords t) ((dats m 0 c).after 16 t) = _
  rw [after0_16]
  unfold out0_16
  rw [View.canon_unit_zero hz]
  simp only [View.ld_unit_zero (S := S128x512) hz, View.ld_unit_zero (S := S128x256) hz, View.ld_unit_zero (S := S768x1024) hz,
    View.ld_unit_zero (S := S1x1024) hz, View.ld_unit_zero (S := S1024x4256) hz, View.ld_unit_zero (S := S1x32) hz,
    View.ld_unit_zero (S := S1x2176) hz, View.ld_unit_zero (S := S32x2048) hz, View.ld_unit_zero (S := S1x2048) hz,
    View.ld_unit_zero (S := S2048x1024) hz, View.ld_unit_zero (S := S1024x512) hz, View.ld_unit_zero (S := S1x512) hz]
  funext j
  obtain ⟨r, o, rfl⟩ : ∃ (r : Fin 128) (o : Fin 512), j = ix2 r o := ⟨j 0, j 1, eq_ix2 j⟩
  refine (obs_apply (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) r o).trans ?_
  show _ = G16 m c (((cfg0.win 16).blk t).view.emb (ix2 r o : S128x512.Idx))
  rw [emb16, Hk_iblk, iblk12_eq, iblk13_eq]
  rfl

/-- Point `t` writes back block `t` of the reward column. -/
theorem flushed17_eq (t : Fin cfg0.N) :
    (dats m 0 c).flushed 17 t = ((cfg0.win 17).blk t).view.read (Elt Ideal) (G17 m c) := by
  show (cfg0.win 17).cut (grid0.coords t) ((dats m 0 c).after 17 t) = _
  rw [after0_17]
  unfold out0_17
  rw [View.canon_unit_zero hz]
  simp only [View.ld_unit_zero (S := S128x512) hz, View.ld_unit_zero (S := S128x256) hz, View.ld_unit_zero (S := S768x1024) hz,
    View.ld_unit_zero (S := S1x1024) hz, View.ld_unit_zero (S := S1024x4256) hz, View.ld_unit_zero (S := S1x32) hz,
    View.ld_unit_zero (S := S1x2176) hz, View.ld_unit_zero (S := S32x2048) hz, View.ld_unit_zero (S := S1x2048) hz,
    View.ld_unit_zero (S := S2048x1024) hz, View.ld_unit_zero (S := S1024x1) hz, View.ld_unit_zero (S := S1x1) hz]
  funext j
  obtain ⟨r, o, rfl⟩ : ∃ (r : Fin 128) (o : Fin 1), j = ix2 r o := ⟨j 0, j 1, eq_ix2 j⟩
  obtain rfl : o = 0 := Subsingleton.elim _ _
  refine (rew_apply (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 14 t) (iblk m c 15 t) r).trans ?_
  show _ = G17 m c (((cfg0.win 17).blk t).view.emb (ix2 r (0 : Fin 1) : S128x1.Idx))
  rw [emb17, Hk_iblk, iblk14_eq, iblk15_eq]
  rfl

/-- An index of the next-observation array is in point `t`'s block iff each coordinate is in the block's range. -/
theorem mem_blk16 (t : Fin cfg0.N) (i : S8192x512.Idx) :
    i ∈ ((cfg0.win 16).blk t).view.set ↔ ∀ a : Fin 2, win0_16.index t a * S128x512.size a ≤ (i a).val ∧ (i a).val < win0_16.index t a * S128x512.size a + S128x512.size a := by
  show i ∈ ((View.whole main_v25_0).slice (win0_16.rect t)).set ↔ _
  rw [View.set_slice_whole, Rect.mem_set_unit]
  exact Iff.rfl

theorem mem_blk17 (t : Fin cfg0.N) (i : S8192x1.Idx) :
    i ∈ ((cfg0.win 17).blk t).view.set ↔ ∀ a : Fin 2, win0_17.index t a * S128x1.size a ≤ (i a).val ∧ (i a).val < win0_17.index t a * S128x1.size a + S128x1.size a := by
  show i ∈ ((View.whole main_v25_1).slice (win0_17.rect t)).set ↔ _
  rw [View.set_slice_whole, Rect.mem_set_unit]
  exact Iff.rfl

/-- Batch row b lies in the block of point b / 128: the 64 blocks tile the 8192 rows. -/
theorem cover16 (i : S8192x512.Idx) : ∃ t : Fin cfg0.N, (cfg0.win 16).flush t = true ∧ i ∈ ((cfg0.win 16).blk t).view.set := by
  have h0 : (i 0).val < 8192 := idx2_lt0 i
  have h1 : (i 1).val < 512 := idx2_lt1 i
  have hN : cfg0.N = 64 := N_0
  refine ⟨⟨(i 0).val / 128, by omega⟩, flush0_16 _, ?_⟩
  rw [mem_blk16]
  intro a
  match a with
  | ⟨0, _⟩ =>
    show win0_16.index ⟨(i 0).val / 128, _⟩ 0 * 128 ≤ (i 0).val ∧ (i 0).val < win0_16.index ⟨(i 0).val / 128, _⟩ 0 * 128 + 128
    rw [(idxBatch _).2.2.1.1]
    show (i 0).val / 128 * 128 ≤ (i 0).val ∧ (i 0).val < (i 0).val / 128 * 128 + 128
    omega
  | ⟨1, _⟩ =>
    show win0_16.index ⟨(i 0).val / 128, _⟩ 1 * 512 ≤ (i 1).val ∧ (i 1).val < win0_16.index ⟨(i 0).val / 128, _⟩ 1 * 512 + 512
    rw [(idxBatch _).2.2.1.2]
    omega

theorem cover17 (i : S8192x1.Idx) : ∃ t : Fin cfg0.N, (cfg0.win 17).flush t = true ∧ i ∈ ((cfg0.win 17).blk t).view.set := by
  have h0 : (i 0).val < 8192 := idx2_lt0 i
  have h1 : (i 1).val < 1 := idx2_lt1 i
  have hN : cfg0.N = 64 := N_0
  refine ⟨⟨(i 0).val / 128, by omega⟩, flush0_17 _, ?_⟩
  rw [mem_blk17]
  intro a
  match a with
  | ⟨0, _⟩ =>
    show win0_17.index ⟨(i 0).val / 128, _⟩ 0 * 128 ≤ (i 0).val ∧ (i 0).val < win0_17.index ⟨(i 0).val / 128, _⟩ 0 * 128 + 128
    rw [(idxBatch _).2.2.2.1]
    show (i 0).val / 128 * 128 ≤ (i 0).val ∧ (i 0).val < (i 0).val / 128 * 128 + 128
    omega
  | ⟨1, _⟩ =>
    show win0_17.index ⟨(i 0).val / 128, _⟩ 1 * 1 ≤ (i 1).val ∧ (i 1).val < win0_17.index ⟨(i 0).val / 128, _⟩ 1 * 1 + 1
    rw [(idxBatch _).2.2.2.2]
    omega

/-- The next-observation array after the run. -/
theorem final16 : (dats m 0 c).arrAt 16 cfg0.N = G16 m c :=
  (dats m 0 c).arrAt_eq_of_cover 16 (G16 m c) (fun t _ => flushed16_eq m c t) (cover16)

/-- The reward column after the run. -/
theorem final17 : (dats m 0 c).arrAt 17 cfg0.N = G17 m c :=
  (dats m 0 c).arrAt_eq_of_cover 17 (G17 m c) (fun t _ => flushed17_eq m c t) (cover17)

/-! ## The closing reshape, the arguments, the run -/

/-- The reward vector: entry b is entry (b, 0) of the reward column. -/
def R26 : S8192.Idx → EReal := fun i => G17 m c (ix2 (i 0) (0 : Fin 1))

/-- The line after the region reshapes the reward column, as the region leaves it, into the reward vector. -/
theorem tail26 : (Pipeline.afterTail₀ cfgs (dats m) 0 (V0 m) [hostOps1] c main_v26 : S8192.Idx → EReal) = R26 m c := by
  unfold Pipeline.afterTail₀
  show StableHlo.after hostOps1 _ (Proc.devRef .tc main_v26) = _
  after_results
  funext i
  have hw : Pipeline.withArrays (cfgs 0).spec c (V0 m c) (fun w => (dats m 0 c).arrAt w (cfgs 0).N) (Proc.tc.devRef main_v25_1) = G17 m c :=
    (Pipeline.withArrays_arr spec0 launch0.win.arr_inj c (V0 m c) (fun w => (dats m 0 c).arrAt w (cfgs 0).N) 17).trans (final17 m c)
  show shapeCast S8192 (Pipeline.withArrays (cfgs 0).spec c (V0 m c) (fun w => (dats m 0 c).arrAt w (cfgs 0).N) (Proc.tc.devRef main_v25_1)) shapeCasts_S8192x1_S8192 i = _
  rw [hw]
  refine shapeCast_apply (G17 m c) shapeCasts_S8192x1_S8192 i (ix2 (i 0) (0 : Fin 1)) ?_
  rw [Shape.rowMajor_val_two, Shape.rowMajor_val_one]
  show (i 0).val * 1 + 0 = (i 0).val
  omega

/-- The argument arrays after the run are the launch contents: the two staged inputs by the pipeline's own account of
    an input window's array, the others because no line after the region writes them. -/
theorem kept (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15) :=
  ⟨((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c))),
   ((h c).2 main_arg2 (Pipeline.mem_restRefs_of main_arg2 (by decide) (by decide))).trans (W_main_arg2 m (dats m) c),
   ((h c).2 main_arg3 (Pipeline.mem_restRefs_of main_arg3 (by decide) (by decide))).trans (W_main_arg3 m (dats m) c),
   ((h c).2 main_arg4 (Pipeline.mem_restRefs_of main_arg4 (by decide) (by decide))).trans (W_main_arg4 m (dats m) c),
   ((h c).2 main_arg5 (Pipeline.mem_restRefs_of main_arg5 (by decide) (by decide))).trans (W_main_arg5 m (dats m) c),
   ((h c).2 main_arg6 (Pipeline.mem_restRefs_of main_arg6 (by decide) (by decide))).trans (W_main_arg6 m (dats m) c),
   ((h c).2 main_arg7 (Pipeline.mem_restRefs_of main_arg7 (by decide) (by decide))).trans (W_main_arg7 m (dats m) c),
   ((h c).2 main_arg8 (Pipeline.mem_restRefs_of main_arg8 (by decide) (by decide))).trans (W_main_arg8 m (dats m) c),
   ((h c).2 main_arg9 (Pipeline.mem_restRefs_of main_arg9 (by decide) (by decide))).trans (W_main_arg9 m (dats m) c),
   ((h c).2 main_arg10 (Pipeline.mem_restRefs_of main_arg10 (by decide) (by decide))).trans (W_main_arg10 m (dats m) c),
   ((h c).2 main_arg11 (Pipeline.mem_restRefs_of main_arg11 (by decide) (by decide))).trans (W_main_arg11 m (dats m) c),
   ((h c).2 main_arg12 (Pipeline.mem_restRefs_of main_arg12 (by decide) (by decide))).trans (W_main_arg12 m (dats m) c),
   ((h c).2 main_arg13 (Pipeline.mem_restRefs_of main_arg13 (by decide) (by decide))).trans (W_main_arg13 m (dats m) c),
   ((h c).2 main_arg14 (Pipeline.mem_restRefs_of main_arg14 (by decide) (by decide))).trans (W_main_arg14 m (dats m) c),
   ((h c).2 main_arg15 (Pipeline.mem_restRefs_of main_arg15 (by decide) (by decide))).trans (W_main_arg15 m (dats m) c)⟩

/-- The run, read: every weakly fair execution ends with the next-observation array at `G16`, the reward vector at
    `R26`, and the sixteen arguments as launched. -/
theorem run_vals : θ_run defs (onTc (τ := τ) (main (F := Ideal))) ⟨m, fun _ => 0, ρ⟩ (fun r => ∀ c : Dev nD,
      r.2.mem ((c.tc : Thread nD τ).loc main_v25_0) = G16 m c
      ∧ r.2.mem ((c.tc : Thread nD τ).loc main_v26) = R26 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨((h c).1 16).trans (final16 m c),
      ((h c).2 main_v26 (Pipeline.mem_restRefs_of main_v26 (by decide) (by decide))).trans (tail26 m c),
      kept m r h c⟩)
    (run_main m ρ)

end Cert.KernelIdeal.Arr

end
-- ==== Proof.HostPre.lean ====
/-
  What the host lines before the region leave in the arrays the kernel's windows stage, at the ideal instance:
  the weight matrices unchanged (a change of float format is the identity), the vectors as one-row arrays,
  D repeated 64 times a head, and the 0/1 head matrix.
-/
import proofs.«137712_j17403207483679_1_alg».proof.Proof.Gen.KernelIdeal.Frame
import proofs.«137712_j17403207483679_1_alg».proof.Proof.Spec
import Idealize.ShloMosaic.Lib.StableHlo.Run
import Idealize.ShloMosaic.Lib.Pipeline.Value
import Idealize.ShloMosaic.Lib.ValueLayout

noncomputable section

namespace Cert.KernelIdeal.HostPre

open Idealize.ShloMosaic Idealize.ShloMosaic.TcCoe Idealize.ShloMosaic.ValueIdx Idealize.SL.Sem Cert.KernelIdeal Cert.KernelIdeal.Gen Cert.Spec

variable (m : (ℓ : Loc nD τ sig) → Buf (Elt Ideal) ℓ) (c : Dev nD)

/-- Two numbers below 2³² with the same 32-bit word are equal. -/
private theorem ofNat32_inj {a b : Nat} (ha : a < 2 ^ 32) (hb : b < 2 ^ 32) (h : BitVec.ofNat 32 a = BitVec.ofNat 32 b) : a = b := by
  have h' := congrArg BitVec.toNat h
  simp only [BitVec.toNat_ofNat] at h'
  rwa [Nat.mod_eq_of_lt ha, Nat.mod_eq_of_lt hb] at h'

/-- One entry of the head matrix: the word of "row number + 0 = column number", read unsigned as a real, is 1 when the two
    numbers agree and 0 otherwise. -/
private theorem headBit (a b : Fin 32) :
    (FloatOps.uitofp (F := Ideal) .bf16 (IntOp.cmpi .eq (IntOp.addi (BitVec.ofNat 32 a.val) 0#32) (BitVec.ofNat 32 b.val)) : EReal) = if b = a then 1 else 0 := by
  have h0 : IntOp.addi (BitVec.ofNat 32 a.val) 0#32 = BitVec.ofNat 32 a.val := by
    show BitVec.ofNat 32 a.val + 0#32 = _
    exact BitVec.add_zero _
  rw [h0]
  show (((IntOp.cmpi .eq (BitVec.ofNat 32 a.val) (BitVec.ofNat 32 b.val)).toNat : ℝ) : EReal) = _
  by_cases hab : b = a
  · subst hab
    have h1 : IntOp.cmpi .eq (BitVec.ofNat 32 b.val) (BitVec.ofNat 32 b.val) = 1#1 := by
      show BitVec.ofBool (BitVec.ofNat 32 b.val == BitVec.ofNat 32 b.val) = 1#1
      rw [beq_self_eq_true]
      rfl
    rw [if_pos rfl, h1]
    show (((1 : ℕ) : ℝ) : EReal) = 1
    simp only [Nat.cast_one, EReal.coe_one]
  · have hne : ¬ IntOp.cmpi .eq (BitVec.ofNat 32 a.val) (BitVec.ofNat 32 b.val) = 1#1 := by
      intro h1
      have h2 : BitVec.ofNat 32 a.val = BitVec.ofNat 32 b.val := by
        by_contra hc
        have h3 : IntOp.cmpi .eq (BitVec.ofNat 32 a.val) (BitVec.ofNat 32 b.val) = 0#1 := by
          show BitVec.ofBool (BitVec.ofNat 32 a.val == BitVec.ofNat 32 b.val) = 0#1
          rw [beq_eq_false_iff_ne.mpr hc]
          rfl
        rw [h3] at h1
        exact absurd h1 (by decide)
      have := ofNat32_inj (by have := a.isLt; omega) (by have := b.isLt; omega) h2
      exact hab (Fin.ext this.symm)
    rw [if_neg hab, eq_zero_of_ne_one hne]
    show (((0 : ℕ) : ℝ) : EReal) = 0
    simp only [Nat.cast_zero, EReal.coe_zero]

theorem V_v0 : (V m c main_v0 : S768x1024.Idx → EReal) = (m ((c : Thread nD τ).loc main_arg2) : S768x1024.Idx → EReal) := by
  show StableHlo.after hostOps0 (fun b => m (c, b)) (Proc.devRef .tc main_v0) = _
  after_results
  rfl
theorem V_v1 : (V m c main_v1 : S1024x4256.Idx → EReal) = (m ((c : Thread nD τ).loc main_arg4) : S1024x4256.Idx → EReal) := by
  show StableHlo.after hostOps0 (fun b => m (c, b)) (Proc.devRef .tc main_v1) = _
  after_results
  rfl
theorem V_v2 : (V m c main_v2 : S2048x1024.Idx → EReal) = (m ((c : Thread nD τ).loc main_arg11) : S2048x1024.Idx → EReal) := by
  show StableHlo.after hostOps0 (fun b => m (c, b)) (Proc.devRef .tc main_v2) = _
  after_results
  rfl
theorem V_v3 : (V m c main_v3 : S1024x512.Idx → EReal) = (m ((c : Thread nD τ).loc main_arg12) : S1024x512.Idx → EReal) := by
  show StableHlo.after hostOps0 (fun b => m (c, b)) (Proc.devRef .tc main_v3) = _
  after_results
  rfl
theorem V_v4 : (V m c main_v4 : S1024x1.Idx → EReal) = (m ((c : Thread nD τ).loc main_arg14) : S1024x1.Idx → EReal) := by
  show StableHlo.after hostOps0 (fun b => m (c, b)) (Proc.devRef .tc main_v4) = _
  after_results
  rfl
/-- conv_w's last tap as a one-row array. -/
theorem V_v7 (j : Fin 2176) : (V m c main_v7 : S1x2176.Idx → EReal) (ix2 (0 : Fin 1) j) = (m ((c : Thread nD τ).loc main_arg5) : S2176x4.Idx → EReal) (ix2 j (3 : Fin 4)) := by
  have e : (V m c main_v7 : S1x2176.Idx → EReal) = shapeCast S1x2176 (shapeCast S2176 (extractStridedSlice S2176x1 ![0, 3] (m ((c : Thread nD τ).loc main_arg5) : S2176x4.Idx → EReal) slices_S2176x4_S2176x1_0_3) shapeCasts_S2176x1_S2176) shapeCasts_S2176_S1x2176 := by
    show StableHlo.after hostOps0 (fun b => m (c, b)) (Proc.devRef .tc main_v7) = _
    after_results
    rfl
  rw [e]
  -- entry (0, j) of the row is entry j of the flat vector
  refine (shapeCast_apply _ _ _ (ix1 j) ?_).trans ?_
  · show (S2176.rowMajor (ix1 j)).val = (S1x2176.rowMajor (ix2 (0 : Fin 1) j)).val
    rw [Shape.rowMajor_val_one, Shape.rowMajor_val_two]
    show j.val = (0 : Fin 1).val * 2176 + j.val
    simp only [Fin.val_zero, Nat.zero_mul, Nat.zero_add]
  -- which is entry (j, 0) of the one-column slice
  refine (shapeCast_apply _ _ _ (ix2 j (0 : Fin 1)) ?_).trans ?_
  · show (S2176x1.rowMajor (ix2 j (0 : Fin 1))).val = (S2176.rowMajor (ix1 j)).val
    rw [Shape.rowMajor_val_one, Shape.rowMajor_val_two]
    show j.val * 1 + (0 : Fin 1).val = j.val
    simp only [Fin.val_zero, Nat.mul_one, Nat.add_zero]
  -- and the slice starts at (0, 3)
  refine extractStridedSlice_apply _ _ _ _ (ix2 j (3 : Fin 4)) ?_
  intro a
  match a with
  | ⟨0, _⟩ => show j.val = 0 + j.val; omega
  | ⟨1, _⟩ => rfl
theorem V_v8 (j : Fin 2176) : (V m c main_v8 : S1x2176.Idx → EReal) (ix2 (0 : Fin 1) j) = (m ((c : Thread nD τ).loc main_arg6) : S2176.Idx → EReal) (ix1 j) := by
  have e : (V m c main_v8 : S1x2176.Idx → EReal) = shapeCast S1x2176 (m ((c : Thread nD τ).loc main_arg6) : S2176.Idx → EReal) shapeCasts_S2176_S1x2176 := by
    show StableHlo.after hostOps0 (fun b => m (c, b)) (Proc.devRef .tc main_v8) = _
    after_results
    rfl
  rw [e]
  -- entry (0, j) of the one-row array is entry j of the vector: both sit at row-major position j
  refine shapeCast_apply _ _ _ _ ?_
  show (S2176.rowMajor (ix1 j)).val = (S1x2176.rowMajor (ix2 (0 : Fin 1) j)).val
  rw [Shape.rowMajor_val_one, Shape.rowMajor_val_two]
  show j.val = (0 : Fin 1).val * 2176 + j.val
  simp only [Fin.val_zero, Nat.zero_mul, Nat.zero_add]
theorem V_v9 (j : Fin 32) : (V m c main_v9 : S1x32.Idx → EReal) (ix2 (0 : Fin 1) j) = (m ((c : Thread nD τ).loc main_arg7) : S32.Idx → EReal) (ix1 j) := by
  have e : (V m c main_v9 : S1x32.Idx → EReal) = shapeCast S1x32 (m ((c : Thread nD τ).loc main_arg7) : S32.Idx → EReal) shapeCasts_S32_S1x32 := by
    show StableHlo.after hostOps0 (fun b => m (c, b)) (Proc.devRef .tc main_v9) = _
    after_results
    rfl
  rw [e]
  -- entry (0, j) of the one-row array is entry j of the vector: both sit at row-major position j
  refine shapeCast_apply _ _ _ _ ?_
  show (S32.rowMajor (ix1 j)).val = (S1x32.rowMajor (ix2 (0 : Fin 1) j)).val
  rw [Shape.rowMajor_val_one, Shape.rowMajor_val_two]
  show j.val = (0 : Fin 1).val * 32 + j.val
  simp only [Fin.val_zero, Nat.zero_mul, Nat.zero_add]
/-- D repeated over the 64 channels of each head. -/
theorem V_v12 (j : Fin 2048) : (V m c main_v12 : S1x2048.Idx → EReal) (ix2 (0 : Fin 1) j) = (m ((c : Thread nD τ).loc main_arg9) : S32.Idx → EReal) (ix1 (headOf j)) := by
  have e : (V m c main_v12 : S1x2048.Idx → EReal) = shapeCast S1x2048 (shapeCast S2048 (broadcastInDim S32x64 ![0] bcast_S32_S32x64_0 (m ((c : Thread nD τ).loc main_arg9) : S32.Idx → EReal)) shapeCasts_S32x64_S2048) shapeCasts_S2048_S1x2048 := by
    show StableHlo.after hostOps0 (fun b => m (c, b)) (Proc.devRef .tc main_v12) = _
    after_results
    rfl
  rw [e]
  have hj := j.isLt
  refine (shapeCast_apply _ _ _ (ix1 j) ?_).trans ?_
  · show (S2048.rowMajor (ix1 j)).val = (S1x2048.rowMajor (ix2 (0 : Fin 1) j)).val
    rw [Shape.rowMajor_val_one, Shape.rowMajor_val_two]
    show j.val = (0 : Fin 1).val * 2048 + j.val
    simp only [Fin.val_zero, Nat.zero_mul, Nat.zero_add]
  refine (shapeCast_apply _ _ _ (ix2 (headOf j) (⟨j.val % 64, Nat.mod_lt _ (by decide)⟩ : Fin 64)) ?_).trans ?_
  · show (S32x64.rowMajor (ix2 (headOf j) (⟨j.val % 64, Nat.mod_lt _ (by decide)⟩ : Fin 64))).val = (S2048.rowMajor (ix1 j)).val
    rw [Shape.rowMajor_val_one, Shape.rowMajor_val_two]
    show j.val / 64 * 64 + j.val % 64 = j.val
    omega
  refine broadcastInDim_apply _ _ _ _ (ix1 (headOf j)) ?_
  intro a
  match a with
  | ⟨0, _⟩ => rfl

theorem V_v13 (j : Fin 2048) : (V m c main_v13 : S1x2048.Idx → EReal) (ix2 (0 : Fin 1) j) = (m ((c : Thread nD τ).loc main_arg10) : S2048.Idx → EReal) (ix1 j) := by
  have e : (V m c main_v13 : S1x2048.Idx → EReal) = shapeCast S1x2048 (m ((c : Thread nD τ).loc main_arg10) : S2048.Idx → EReal) shapeCasts_S2048_S1x2048 := by
    show StableHlo.after hostOps0 (fun b => m (c, b)) (Proc.devRef .tc main_v13) = _
    after_results
    rfl
  rw [e]
  -- entry (0, j) of the one-row array is entry j of the vector: both sit at row-major position j
  refine shapeCast_apply _ _ _ _ ?_
  show (S2048.rowMajor (ix1 j)).val = (S1x2048.rowMajor (ix2 (0 : Fin 1) j)).val
  rw [Shape.rowMajor_val_one, Shape.rowMajor_val_two]
  show j.val = (0 : Fin 1).val * 2048 + j.val
  simp only [Fin.val_zero, Nat.zero_mul, Nat.zero_add]
theorem V_v14 (j : Fin 1024) : (V m c main_v14 : S1x1024.Idx → EReal) (ix2 (0 : Fin 1) j) = (m ((c : Thread nD τ).loc main_arg3) : S1024.Idx → EReal) (ix1 j) := by
  have e : (V m c main_v14 : S1x1024.Idx → EReal) = shapeCast S1x1024 (m ((c : Thread nD τ).loc main_arg3) : S1024.Idx → EReal) shapeCasts_S1024_S1x1024 := by
    show StableHlo.after hostOps0 (fun b => m (c, b)) (Proc.devRef .tc main_v14) = _
    after_results
    rfl
  rw [e]
  -- entry (0, j) of the one-row array is entry j of the vector: both sit at row-major position j
  refine shapeCast_apply _ _ _ _ ?_
  show (S1024.rowMajor (ix1 j)).val = (S1x1024.rowMajor (ix2 (0 : Fin 1) j)).val
  rw [Shape.rowMajor_val_one, Shape.rowMajor_val_two]
  show j.val = (0 : Fin 1).val * 1024 + j.val
  simp only [Fin.val_zero, Nat.zero_mul, Nat.zero_add]
theorem V_v15 (j : Fin 512) : (V m c main_v15 : S1x512.Idx → EReal) (ix2 (0 : Fin 1) j) = (m ((c : Thread nD τ).loc main_arg13) : S512.Idx → EReal) (ix1 j) := by
  have e : (V m c main_v15 : S1x512.Idx → EReal) = shapeCast S1x512 (m ((c : Thread nD τ).loc main_arg13) : S512.Idx → EReal) shapeCasts_S512_S1x512 := by
    show StableHlo.after hostOps0 (fun b => m (c, b)) (Proc.devRef .tc main_v15) = _
    after_results
    rfl
  rw [e]
  -- entry (0, j) of the one-row array is entry j of the vector: both sit at row-major position j
  refine shapeCast_apply _ _ _ _ ?_
  show (S512.rowMajor (ix1 j)).val = (S1x512.rowMajor (ix2 (0 : Fin 1) j)).val
  rw [Shape.rowMajor_val_one, Shape.rowMajor_val_two]
  show j.val = (0 : Fin 1).val * 512 + j.val
  simp only [Fin.val_zero, Nat.zero_mul, Nat.zero_add]
theorem V_v16 : (V m c main_v16 : S1x1.Idx → EReal) (ix2 (0 : Fin 1) (0 : Fin 1)) = (m ((c : Thread nD τ).loc main_arg15) : S1.Idx → EReal) (ix1 (0 : Fin 1)) := by
  have e : (V m c main_v16 : S1x1.Idx → EReal) = shapeCast S1x1 (m ((c : Thread nD τ).loc main_arg15) : S1.Idx → EReal) shapeCasts_S1_S1x1 := by
    show StableHlo.after hostOps0 (fun b => m (c, b)) (Proc.devRef .tc main_v16) = _
    after_results
    rfl
  rw [e]
  refine shapeCast_apply _ _ _ _ ?_
  show (S1.rowMajor (ix1 (0 : Fin 1))).val = (S1x1.rowMajor (ix2 (0 : Fin 1) (0 : Fin 1))).val
  rw [Shape.rowMajor_val_one, Shape.rowMajor_val_two]
  rfl
/-- The head matrix: entry (h, j) is 1 when channel j belongs to head h, else 0. -/
theorem V_v24 (h : Fin 32) (j : Fin 2048) : (V m c main_v24 : S32x2048.Idx → EReal) (ix2 h j) = (if headOf j = h then 1 else 0 : EReal) := by
  have e : (V m c main_v24 : S32x2048.Idx → EReal) = shapeCast S32x2048 (broadcastInDim S32x32x64 ![0, 1] bcast_S32x32_S32x32x64_0_1 (uitofp (F := Ideal) .bf16 (cmpi .eq (addi (iotaInDim S32x32 32 0) (broadcastInDim S32x32 ![] bcast_S_S32x32 (constantI S_ 32 0#32))) (iotaInDim S32x32 32 1)) : S32x32.Idx → EReal)) shapeCasts_S32x32x64_S32x2048 := by
    show StableHlo.after hostOps0 (fun b => m (c, b)) (Proc.devRef .tc main_v24) = _
    after_results
    rfl
  rw [e]
  have hj := j.isLt
  have hh := h.isLt
  refine (shapeCast_apply _ _ _ (ix3 h (headOf j) (⟨j.val % 64, Nat.mod_lt _ (by decide)⟩ : Fin 64)) ?_).trans ?_
  · show (S32x32x64.rowMajor (ix3 h (headOf j) (⟨j.val % 64, Nat.mod_lt _ (by decide)⟩ : Fin 64))).val = (S32x2048.rowMajor (ix2 h j)).val
    rw [Shape.rowMajor_val_two, Shape.rowMajor_val_three]
    show (h.val * 32 + j.val / 64) * 64 + j.val % 64 = h.val * 2048 + j.val
    omega
  refine (broadcastInDim_apply _ _ _ _ (ix2 h (headOf j)) ?_).trans ?_
  · intro a
    match a with
    | ⟨0, _⟩ => rfl
    | ⟨1, _⟩ => rfl
  exact headBit h (headOf j)

end Cert.KernelIdeal.HostPre

end
-- ==== Proof.Algebra.lean ====
/-
  The two arrangements of the state-space step agree on real numbers, and the projected row of finite
  inputs is finite.
-/
import proofs.«137712_j17403207483679_1_alg».proof.Proof.Spec

noncomputable section

namespace Cert.Spec

open Idealize.ShloMosaic

/-! ### Real numbers inside the extended reals are closed under the operations of the row -/

/-- A real number, seen as an extended real, is neither infinity. -/
private theorem fin_coe (r : ℝ) : Fin_ (r : EReal) := ⟨EReal.coe_ne_top r, EReal.coe_ne_bot r⟩

/-- An extended real that is neither infinity is (the image of) a real number. -/
private theorem fin_exists {x : EReal} (hx : Fin_ x) : ∃ r : ℝ, x = (r : EReal) :=
  ⟨x.toReal, (EReal.coe_toReal hx.1 hx.2).symm⟩

private theorem fin_zero : Fin_ (0 : EReal) := ⟨EReal.zero_ne_top, EReal.zero_ne_bot⟩

/-- The product of two reals is a real: the extended product restricts to the real one. -/
private theorem fin_mul {x y : EReal} (hx : Fin_ x) (hy : Fin_ y) : Fin_ (x * y) := by
  obtain ⟨a, rfl⟩ := fin_exists hx
  obtain ⟨b, rfl⟩ := fin_exists hy
  rw [← EReal.coe_mul]
  exact fin_coe _

/-- The sum of two reals is a real. -/
private theorem fin_add {x y : EReal} (hx : Fin_ x) (hy : Fin_ y) : Fin_ (x + y) := by
  obtain ⟨a, rfl⟩ := fin_exists hx
  obtain ⟨b, rfl⟩ := fin_exists hy
  rw [← EReal.coe_add]
  exact fin_coe _

/-- The negative of a real is a real. -/
private theorem fin_neg {x : EReal} (hx : Fin_ x) : Fin_ (-x) := by
  obtain ⟨a, rfl⟩ := fin_exists hx
  rw [← EReal.coe_neg]
  exact fin_coe _

/-- The larger of two reals is one of them. -/
private theorem fin_max {x y : EReal} (hx : Fin_ x) (hy : Fin_ y) : Fin_ (max x y) := by
  rcases max_choice x y with h | h
  · rw [h]; exact hx
  · rw [h]; exact hy

/-- A finite sum of reals is a real: by induction on the index set, from the empty sum 0 and the binary sum. -/
private theorem fin_sum {ι : Type} (s : Finset ι) (f : ι → EReal) (h : ∀ i ∈ s, Fin_ (f i)) :
    Fin_ (∑ i ∈ s, f i) := by
  classical
  revert h
  refine Finset.induction_on s ?_ ?_
  · intro _
    rw [Finset.sum_empty]
    exact fin_zero
  · intro a t hat ih h
    rw [Finset.sum_insert hat]
    exact fin_add (h a (Finset.mem_insert_self a t)) (ih (fun i hi => h i (Finset.mem_insert_of_mem hi)))

/-- silu of a real v is v · (1 + e⁻ᵛ)⁻¹, a product of two reals. -/
private theorem silu_fin {v : EReal} (hv : Fin_ v) : Fin_ (silu v) := by
  obtain ⟨r, rfl⟩ := fin_exists hv
  unfold silu
  rw [Ideal.logistic_coe]
  exact fin_mul (fin_coe _) (fin_coe _)

/-- For a real w, log(1 + e⁻ʷ) is a real: 1 + e⁻ʷ is a positive real, so its logarithm takes the real branch. -/
private theorem log1p_exp_neg_fin {w : EReal} (hw : Fin_ w) : Fin_ (Ideal.log1p (Ideal.exp (-w))) := by
  obtain ⟨s, rfl⟩ := fin_exists hw
  have hpos : ¬ (1 + Real.exp (-s) ≤ 0) := by
    have := Real.exp_pos (-s)
    linarith
  rw [← EReal.coe_neg, Ideal.exp_coe, Ideal.log1p, ← EReal.coe_one, ← EReal.coe_add, Ideal.log_coe, if_neg hpos]
  exact fin_coe _

/-- softplus of a real v is max(v, 0) + log(1 + e^(−max(v, −v))): a sum of two reals. -/
private theorem softplus_fin {v : EReal} (hv : Fin_ v) : Fin_ (softplus v) := by
  unfold softplus
  exact fin_add (fin_max hv fin_zero) (log1p_exp_neg_fin (fin_max hv (fin_neg hv)))

/-! ### The three statements -/

/-- Spreading dt over the channels with the 0/1 head matrix picks the channel's head. -/
theorem spread_onehot (dt : Fin 32 → EReal) (Em : Fin 32 → Fin 2048 → EReal)
    (hE : ∀ h c, Em h c = if headOf c = h then 1 else 0) : spread dt Em = fun c => dt (headOf c) := by
  funext c
  show (∑ h, dt h * Em h c) = dt (headOf c)
  -- every term but the one of the channel's own head is dt h · 0 = 0 (also at an infinite dt h); that one is dt h · 1
  rw [Finset.sum_eq_single (headOf c)]
  · rw [hE, if_pos rfl, mul_one]
  · intro h _ hne
    rw [hE, if_neg (Ne.symm hne), mul_zero]
  · intro hn
    exact absurd (Finset.mem_univ _) hn

/-- Finite inputs give a finite projected row: finite sums of finite products. -/
theorem zOf_fin (o : Fin 512 → EReal) (a : Fin 256 → EReal) (Win : Fin 768 → Fin 1024 → EReal) (bin : Fin 1024 → EReal)
    (Wp : Fin 1024 → Fin 4256 → EReal) (ho : ∀ k, Fin_ (o k)) (ha : ∀ k, Fin_ (a k)) (hWin : ∀ j k, Fin_ (Win j k))
    (hbin : ∀ k, Fin_ (bin k)) (hWp : ∀ k n, Fin_ (Wp k n)) : ∀ n, Fin_ (zOf o a Win bin Wp n) := by
  -- an entry of [o, a] is an entry of o or of a
  have hcat : ∀ j, Fin_ (cat o a j) := by
    intro j
    unfold cat
    split
    · exact ho _
    · exact ha _
  -- x = u·W_in + b_in: a finite sum of products of reals, plus a real
  have hx : ∀ k, Fin_ (xrow (cat o a) Win bin k) := fun k =>
    fin_add (fin_sum _ _ (fun j _ => fin_mul (hcat j) (hWin j k))) (hbin k)
  -- z = x·W_inproj: again a finite sum of products of reals
  intro n
  show Fin_ (∑ k, xrow (cat o a) Win bin k * Wp k n)
  exact fin_sum _ _ (fun k _ => fin_mul (hx k) (hWp k n))

/-- On real data the factored step xs·(dt·bc + D) and the multiplied-out step (dt·bc)·xs + D·xs agree, channel by
    channel: both are the same polynomial in four real numbers (distributivity, which the infinities would break). -/
private theorem y0K_eq_y0R (xs : Fin 2048 → EReal) (dt D : Fin 32 → EReal) (bc : EReal)
    (Em : Fin 32 → Fin 2048 → EReal) (Df : Fin 2048 → EReal)
    (hE : ∀ h c, Em h c = if headOf c = h then 1 else 0) (hDf : ∀ c, Df c = D (headOf c))
    (hxs : ∀ c, Fin_ (xs c)) (hdt : ∀ h, Fin_ (dt h)) (hbc : Fin_ bc) (hD : ∀ h, Fin_ (D h)) :
    y0K xs (spread dt Em) bc Df = y0R xs dt bc D := by
  rw [spread_onehot dt Em hE]
  funext c
  show xs c * (dt (headOf c) * bc + Df c) = (dt (headOf c) * bc) * xs c + D (headOf c) * xs c
  rw [hDf c]
  obtain ⟨x, hx⟩ := fin_exists (hxs c)
  obtain ⟨t, ht⟩ := fin_exists (hdt (headOf c))
  obtain ⟨b, rfl⟩ := fin_exists hbc
  obtain ⟨d, hd⟩ := fin_exists (hD (headOf c))
  rw [hx, ht, hd]
  simp only [← EReal.coe_mul, ← EReal.coe_add]
  congr 1
  ring

/-- On finite data the kernel's factored step and the reference's multiplied-out step give the same hidden row. -/
theorem hK_eq_hR (z : Fin 4256 → EReal) (cw cb : Fin 2176 → EReal) (dtb D : Fin 32 → EReal) (Em : Fin 32 → Fin 2048 → EReal)
    (Df rw : Fin 2048 → EReal) (Wout : Fin 2048 → Fin 1024 → EReal)
    (hE : ∀ h c, Em h c = if headOf c = h then 1 else 0) (hDf : ∀ c, Df c = D (headOf c))
    (hz : ∀ n, Fin_ (z n)) (hcw : ∀ c, Fin_ (cw c)) (hcb : ∀ c, Fin_ (cb c)) (hdtb : ∀ h, Fin_ (dtb h)) (hD : ∀ h, Fin_ (D h)) :
    hK z cw cb dtb Em Df rw Wout = hR z cw cb dtb D rw Wout := by
  -- xBC = silu(z_conv · conv_w + conv_b) is real entry by entry, hence so are its cuts xs, B, C and bc = Σ B·C
  have hxbc : ∀ c, Fin_ (xbcrow (zconv z) cw cb c) := fun c =>
    silu_fin (fin_add (fin_mul (hz _) (hcw c)) (hcb c))
  have hxs : ∀ c, Fin_ (xsOf (xbcrow (zconv z) cw cb) c) := fun c => hxbc _
  have hbc : Fin_ (bcval (xbcrow (zconv z) cw cb)) :=
    fin_sum _ _ (fun n _ => fin_mul (hxbc _) (hxbc _))
  -- dt = softplus(z_dt + dt_bias) is real entry by entry
  have hdt : ∀ h, Fin_ (dtrow (zdt z) dtb h) := fun h => softplus_fin (fin_add (hz _) (hdtb h))
  -- the two hidden rows are the same function of the step, and the steps agree
  unfold hK hR
  rw [y0K_eq_y0R _ _ D _ Em Df hE hDf hxs hdt hbc hD]

end Cert.Spec

end
-- ==== Proof.Bridge.lean ====
/-
  The kernel's two results as functions of the argument arrays, in the reference's arrangement. The arrays the
  windows stage are the arguments re-laid by the host lines before the region (weights unchanged, vectors as one-row
  arrays, D repeated over each head's 64 channels, the 0/1 head matrix), and on finite inputs the kernel's factored
  state-space step is the reference's multiplied-out one.
-/
import proofs.«137712_j17403207483679_1_alg».proof.Proof.KernelArr
import proofs.«137712_j17403207483679_1_alg».proof.Proof.HostPre
import proofs.«137712_j17403207483679_1_alg».proof.Proof.Algebra

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen Cert.Spec Cert.KernelIdeal.Arr Cert.KernelIdeal.HostPre

variable (m : (ℓ : Loc nD τ sig) → Buf (Elt Ideal) ℓ) (c : Dev nD)

/-- The argument arrays, as plain functions of their indices. -/
abbrev A0 : S8192x512.Idx → EReal := m ((c : Thread nD τ).loc main_arg0)
abbrev A1 : S8192x256.Idx → EReal := m ((c : Thread nD τ).loc main_arg1)
abbrev A2 : S768x1024.Idx → EReal := m ((c : Thread nD τ).loc main_arg2)
abbrev A3 : S1024.Idx → EReal := m ((c : Thread nD τ).loc main_arg3)
abbrev A4 : S1024x4256.Idx → EReal := m ((c : Thread nD τ).loc main_arg4)
abbrev A5 : S2176x4.Idx → EReal := m ((c : Thread nD τ).loc main_arg5)
abbrev A6 : S2176.Idx → EReal := m ((c : Thread nD τ).loc main_arg6)
abbrev A7 : S32.Idx → EReal := m ((c : Thread nD τ).loc main_arg7)
abbrev A9 : S32.Idx → EReal := m ((c : Thread nD τ).loc main_arg9)
abbrev A10 : S2048.Idx → EReal := m ((c : Thread nD τ).loc main_arg10)
abbrev A11 : S2048x1024.Idx → EReal := m ((c : Thread nD τ).loc main_arg11)
abbrev A12 : S1024x512.Idx → EReal := m ((c : Thread nD τ).loc main_arg12)
abbrev A13 : S512.Idx → EReal := m ((c : Thread nD τ).loc main_arg13)
abbrev A14 : S1024x1.Idx → EReal := m ((c : Thread nD τ).loc main_arg14)
abbrev A15 : S1.Idx → EReal := m ((c : Thread nD τ).loc main_arg15)

/-- Batch row `b`'s hidden row in the reference's arrangement, from the argument arrays. -/
abbrev HrK (b : Fin 8192) : Fin 1024 → EReal :=
  hR (zOf (row (A0 m c) b) (row (A1 m c) b) (mat (A2 m c)) (vec (A3 m c)) (mat (A4 m c))) (col (A5 m c) (3 : Fin 4)) (vec (A6 m c))
    (vec (A7 m c)) (vec (A9 m c)) (vec (A10 m c)) (mat (A11 m c))

/-- On finite inputs the kernel's hidden row of batch row `b` is the reference's. -/
theorem HkArr_eq (h0 : ∀ i, Fin_ (A0 m c i)) (h1 : ∀ i, Fin_ (A1 m c i)) (h2 : ∀ i, Fin_ (A2 m c i)) (h3 : ∀ i, Fin_ (A3 m c i))
    (h4 : ∀ i, Fin_ (A4 m c i)) (h5 : ∀ i, Fin_ (A5 m c i)) (h6 : ∀ i, Fin_ (A6 m c i)) (h7 : ∀ i, Fin_ (A7 m c i))
    (h9 : ∀ i, Fin_ (A9 m c i)) (b : Fin 8192) : HkArr m c b = HrK m c b := by
  unfold HkArr
  have e0 : (V m c main_arg0 : S8192x512.Idx → EReal) = A0 m c := V_main_arg0 m c
  have e1 : (V m c main_arg1 : S8192x256.Idx → EReal) = A1 m c := V_main_arg1 m c
  have e3 : row (V m c main_v14 : S1x1024.Idx → EReal) (0 : Fin 1) = vec (A3 m c) := funext fun j => V_v14 m c j
  have e5 : row (V m c main_v7 : S1x2176.Idx → EReal) (0 : Fin 1) = col (A5 m c) (3 : Fin 4) := funext fun j => V_v7 m c j
  have e6 : row (V m c main_v8 : S1x2176.Idx → EReal) (0 : Fin 1) = vec (A6 m c) := funext fun j => V_v8 m c j
  have e7 : row (V m c main_v9 : S1x32.Idx → EReal) (0 : Fin 1) = vec (A7 m c) := funext fun j => V_v9 m c j
  have e10 : row (V m c main_v13 : S1x2048.Idx → EReal) (0 : Fin 1) = vec (A10 m c) := funext fun j => V_v13 m c j
  rw [e0, e1, V_v0, V_v1, V_v2, e3, e5, e6, e7, e10]
  exact hK_eq_hR _ (col (A5 m c) (3 : Fin 4)) (vec (A6 m c)) (vec (A7 m c)) (vec (A9 m c)) (mat (V m c main_v24 : S32x2048.Idx → EReal))
    (row (V m c main_v12 : S1x2048.Idx → EReal) (0 : Fin 1)) (vec (A10 m c)) (mat (A11 m c))
    (fun h j => V_v24 m c h j) (fun j => V_v12 m c j)
    (zOf_fin _ _ _ _ _ (fun k => h0 _) (fun k => h1 _) (fun j k => h2 _) (fun k => h3 _) (fun k n => h4 _))
    (fun j => h5 _) (fun j => h6 _) (fun j => h7 _) (fun j => h9 _)

/-- The next-observation array at (b, o), from the arguments. -/
theorem G16_eq (h0 : ∀ i, Fin_ (A0 m c i)) (h1 : ∀ i, Fin_ (A1 m c i)) (h2 : ∀ i, Fin_ (A2 m c i)) (h3 : ∀ i, Fin_ (A3 m c i))
    (h4 : ∀ i, Fin_ (A4 m c i)) (h5 : ∀ i, Fin_ (A5 m c i)) (h6 : ∀ i, Fin_ (A6 m c i)) (h7 : ∀ i, Fin_ (A7 m c i))
    (h9 : ∀ i, Fin_ (A9 m c i)) (b : Fin 8192) (o : Fin 512) :
    G16 m c (ix2 b o) = obsrow (HrK m c b) (mat (A12 m c)) (vec (A13 m c)) o := by
  have e13 : row (V m c main_v15 : S1x512.Idx → EReal) (0 : Fin 1) = vec (A13 m c) := funext fun j => V_v15 m c j
  show obsrow (HkArr m c b) (mat (V m c main_v3 : S1024x512.Idx → EReal)) (row (V m c main_v15 : S1x512.Idx → EReal) (0 : Fin 1)) o = _
  rw [HkArr_eq m c h0 h1 h2 h3 h4 h5 h6 h7 h9 b, V_v3, e13]

/-- The reward vector at b, from the arguments. -/
theorem R26_eq (h0 : ∀ i, Fin_ (A0 m c i)) (h1 : ∀ i, Fin_ (A1 m c i)) (h2 : ∀ i, Fin_ (A2 m c i)) (h3 : ∀ i, Fin_ (A3 m c i))
    (h4 : ∀ i, Fin_ (A4 m c i)) (h5 : ∀ i, Fin_ (A5 m c i)) (h6 : ∀ i, Fin_ (A6 m c i)) (h7 : ∀ i, Fin_ (A7 m c i))
    (h9 : ∀ i, Fin_ (A9 m c i)) (b : Fin 8192) :
    R26 m c (ix1 b) = rewval (HrK m c b) (col (A14 m c) (0 : Fin 1)) (vec (A15 m c) (0 : Fin 1)) := by
  show rewval (HkArr m c b) (col (V m c main_v4 : S1024x1.Idx → EReal) (0 : Fin 1)) ((V m c main_v16 : S1x1.Idx → EReal) (ix2 (0 : Fin 1) (0 : Fin 1))) = _
  rw [HkArr_eq m c h0 h1 h2 h3 h4 h5 h6 h7 h9 b, V_v4, V_v16]
  rfl

end Cert.KernelIdeal.Bridge

end
-- ==== Proof.RefA.lean ====
/-
  The first half of the reference at an index: the projected row, its gate cut, dt and the activated convolution part.
-/
import proofs.«137712_j17403207483679_1_alg».proof.Proof.Gen.ReferenceIdeal.Read
import proofs.«137712_j17403207483679_1_alg».proof.Proof.Spec

noncomputable section

namespace Cert.ReferenceIdeal.RefA

open Idealize.ShloMosaic Idealize.ShloMosaic.ValueIdx Cert.ReferenceIdeal Cert.ReferenceIdeal.Read Cert.Spec

/-- The f32 word 0x3F800000 has sign bit 0, exponent field 127 (the bias) and fraction 0, so it denotes
    (2²³ + 0) · 2^(127 − 127 − 23) = 1. -/
private theorem one_f32 : Ideal.ofBits .f32 0x3F800000#32 = 1 := by
  show Ideal.ieee 8 23 (0x3F800000#32 : BitVec 32) = 1
  have hs : ((0x3F800000#32 : BitVec 32).extractLsb' (8 + 23) 1 == 1#1) = false := by decide
  have he : ((0x3F800000#32 : BitVec 32).extractLsb' 23 8).toNat = 127 := by decide
  have hf : ((0x3F800000#32 : BitVec 32).extractLsb' 0 23).toNat = 0 := by decide
  unfold Ideal.ieee
  simp only [hs, he, hf]
  norm_num

/-- No extended real differs from itself, so the "unordered or unequal" bit of `x` against `x` is 0. -/
private theorem cmp_une_self (x : EReal) : Ideal.cmp .une x x = 0#1 := by
  show BitVec.ofBool (decide (x ≠ x)) = 0#1
  rw [decide_eq_false (fun h => h rfl)]
  rfl

variable (a0 : (⟨S8192x512, .f32⟩ : BufTy).Contents (Elt Ideal)) (a1 : (⟨S8192x256, .f32⟩ : BufTy).Contents (Elt Ideal))
  (a2 : (⟨S768x1024, .f32⟩ : BufTy).Contents (Elt Ideal)) (a3 : (⟨S1024, .f32⟩ : BufTy).Contents (Elt Ideal))
  (a4 : (⟨S1024x4256, .f32⟩ : BufTy).Contents (Elt Ideal)) (a5 : (⟨S2176x4, .f32⟩ : BufTy).Contents (Elt Ideal))
  (a6 : (⟨S2176, .f32⟩ : BufTy).Contents (Elt Ideal)) (a7 : (⟨S32, .f32⟩ : BufTy).Contents (Elt Ideal))

/-- Batch row `b`, projected: z = ([obs, action]·W_in + b_in)·W_inproj. -/
abbrev Zr (b : Fin 8192) : Fin 4256 → EReal := zOf (row a0 b) (row a1 b) (mat a2) (vec a3) (mat a4)

/-- The joined row [obs, action] at column `j`: the observation row below column 512, the action row, 512 columns
    to the left, from there on. -/
private theorem v0_at (b : Fin 8192) (j : Fin 768) :
    val_main_v0 (F := Ideal) a0 a1 (ix2 b j) = cat (row a0 b) (row a1 b) j := by
  unfold val_main_v0 cat
  by_cases h : j.val < 512
  · rw [dif_pos h]
    exact concatenate_pair_apply_left (1 : Fin S8192x768.rank) a0 a1 _ (ix2 b j) rfl (ix2 b ⟨j.val, h⟩)
      (fun d => by match d with | ⟨0, _⟩ => rfl | ⟨1, _⟩ => rfl)
  · rw [dif_neg h]
    exact concatenate_pair_apply_right (1 : Fin S8192x768.rank) a0 a1 _ (ix2 b j) rfl rfl
      (ix2 b ⟨j.val - 512, by have := j.isLt; omega⟩)
      (fun d hd => by match d with | ⟨0, _⟩ => rfl | ⟨1, _⟩ => exact absurd rfl hd)
      (by show j.val - 512 + 512 = j.val; omega)

/-- The hidden input row x = [obs, action]·W_in + b_in at column `k`; the bias reaches the row through two
    broadcasts that only copy it. -/
private theorem v4_at (b : Fin 8192) (k : Fin 1024) :
    val_main_v4 (F := Ideal) a0 a1 a2 a3 (ix2 b k) = xrow (cat (row a0 b) (row a1 b)) (mat a2) (vec a3) k := by
  rw [val_main_v4_apply, val_main_v1_apply, val_main_v3_apply, val_main_v2_apply]
  have el : ∀ j : Fin 768, lidx_main_v1 (ix2 b k) j = ix2 b j := fun j =>
    funext fun a => Fin.ext (by match a with | ⟨0, _⟩ => rfl | ⟨1, _⟩ => rfl)
  have er : ∀ j : Fin 768, ridx_main_v1 (ix2 b k) j = ix2 j k := fun j =>
    funext fun a => Fin.ext (by match a with | ⟨0, _⟩ => rfl | ⟨1, _⟩ => rfl)
  have eb : idx_main_v2 (idx_main_v3 (ix2 b k)) = ix1 k :=
    funext fun a => Fin.ext (by match a with | ⟨0, _⟩ => rfl)
  simp only [el, er, eb, Ideal.addf_def, v0_at a0 a1]
  rfl

/-- The projected row: entry `n` is the contraction of the hidden input row with column `n` of W_inproj. -/
theorem v5_apply (b : Fin 8192) (n : Fin 4256) :
    val_main_v5 (F := Ideal) a0 a1 a2 a3 a4 (ix2 b n) = Zr a0 a1 a2 a3 a4 b n := by
  rw [val_main_v5_apply]
  have el : ∀ k : Fin 1024, lidx_main_v5 (ix2 b n) k = ix2 b k := fun k =>
    funext fun a => Fin.ext (by match a with | ⟨0, _⟩ => rfl | ⟨1, _⟩ => rfl)
  have er : ∀ k : Fin 1024, ridx_main_v5 (ix2 b n) k = ix2 k n := fun k =>
    funext fun a => Fin.ext (by match a with | ⟨0, _⟩ => rfl | ⟨1, _⟩ => rfl)
  simp only [el, er, v4_at a0 a1 a2 a3]
  rfl

/-- The gate cut: the first 2048 entries of the projected row. -/
theorem v6_apply (b : Fin 8192) (c : Fin 2048) :
    val_main_v6 (F := Ideal) a0 a1 a2 a3 a4 (ix2 b c) = zgate (Zr a0 a1 a2 a3 a4 b) c := by
  rw [val_main_v6_apply]
  have e : idx_main_v6 (ix2 b c) = ix2 b (⟨c.val, by have := c.isLt; omega⟩ : Fin 4256) :=
    funext fun a => Fin.ext (by match a with | ⟨0, _⟩ => rfl | ⟨1, _⟩ => rfl)
  rw [e, v5_apply]
  rfl

/-- The step cut, entries 4224 … 4255 of the projected row, plus the step bias. -/
private theorem v11_at (b : Fin 8192) (h : Fin 32) :
    val_main_v11 (F := Ideal) a0 a1 a2 a3 a4 a7 (ix2 b h) = zdt (Zr a0 a1 a2 a3 a4 b) h + vec a7 h := by
  rw [val_main_v11_apply, val_main_v8_apply, val_main_v10_apply, val_main_v9_apply]
  have e8 : idx_main_v8 (ix2 b h) = ix2 b (⟨4224 + h.val, by have := h.isLt; omega⟩ : Fin 4256) :=
    funext fun a => Fin.ext (by match a with | ⟨0, _⟩ => rfl | ⟨1, _⟩ => rfl)
  have e9 : idx_main_v9 (idx_main_v10 (ix2 b h)) = ix1 h :=
    funext fun a => Fin.ext (by match a with | ⟨0, _⟩ => rfl)
  rw [e8, e9, v5_apply]
  rfl

/-- dt = softplus(z_dt + dt_bias). The reference guards its formula by a select on "v − 0 differs from itself",
    which never holds on the extended reals, so the select keeps max(v, 0) + log1p(exp(−|v − 0|)); and v − 0 = v. -/
theorem v12_apply (b : Fin 8192) (h : Fin 32) :
    val_main_v12 (F := Ideal) a0 a1 a2 a3 a4 a7 (ix2 b h) = dtrow (zdt (Zr a0 a1 a2 a3 a4 b)) (vec a7) h := by
  simp only [val_main_v12_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, v11_at a0 a1 a2 a3 a4 a7,
    Ideal.cmpf_def, Ideal.addf_def, Ideal.subf_def, Ideal.maximumf_def, Ideal.hostUnary_exp_def,
    Ideal.hostUnary_log1p_def, Ideal.hostNegf_def, Ideal.negf_def, Ideal.hostAbsf_def, Ideal.absf_def,
    Ideal.ofBits_def, Ideal.ofBits_zero_f32, sub_zero, cmp_une_self, select_zero]
  rfl

/-- The convolution cut, entries 2048 … 4223 of the projected row, times the last tap conv_w[:, 3] plus conv_b.
    The tap column reaches the row through a slice, a reshape and two broadcasts that only copy it. -/
private theorem v20_at (b : Fin 8192) (c : Fin 2176) :
    val_main_v20 (F := Ideal) a0 a1 a2 a3 a4 a5 a6 (ix2 b c)
      = zconv (Zr a0 a1 a2 a3 a4 b) c * col a5 (3 : Fin 4) c + vec a6 c := by
  rw [val_main_v20_apply, val_main_v17_apply, val_main_v7_apply, val_main_v16_apply, val_main_v15_apply,
    val_main_v14_apply, val_main_v13_apply, val_main_v19_apply, val_main_v18_apply]
  have e7 : idx_main_v7 (ix2 b c) = ix2 b (⟨2048 + c.val, by have := c.isLt; omega⟩ : Fin 4256) :=
    funext fun a => Fin.ext (by match a with | ⟨0, _⟩ => rfl | ⟨1, _⟩ => rfl)
  have ew : idx_main_v13 (idx_main_v14 (idx_main_v15 (idx_main_v16 (ix2 b c)))) = ix2 c (3 : Fin 4) :=
    funext fun a => Fin.ext (by
      match a with
      | ⟨0, _⟩ => show c.val / 1 = c.val; exact Nat.div_one _
      | ⟨1, _⟩ => rfl)
  have eb : idx_main_v18 (idx_main_v19 (ix2 b c)) = ix1 c :=
    funext fun a => Fin.ext (by match a with | ⟨0, _⟩ => rfl)
  rw [e7, ew, eb, v5_apply]
  rfl

/-- xBC = silu(z_conv · conv_w[:, 3] + conv_b): the reference writes silu as v · (1 / (1 + exp(−v))), which is
    v times the logistic function of v, the literal 1.0 being the extended real 1. -/
theorem v21_apply (b : Fin 8192) (c : Fin 2176) :
    val_main_v21 (F := Ideal) a0 a1 a2 a3 a4 a5 a6 (ix2 b c) = xbcrow (zconv (Zr a0 a1 a2 a3 a4 b)) (col a5 (3 : Fin 4)) (vec a6) c := by
  simp only [val_main_v21_apply, val_main_call1_v5_apply, val_main_call1_v4_apply, val_main_call1_cst_0_apply,
    val_main_call1_v3_apply, val_main_call1_v2_apply, val_main_call1_cst_apply, val_main_call1_v1_apply,
    val_main_call1_v0_apply, v20_at a0 a1 a2 a3 a4 a5 a6,
    Ideal.mulf_def, Ideal.hostDivf_def, Ideal.addf_def, Ideal.hostUnary_exp_def, Ideal.hostNegf_def,
    Ideal.negf_def, Ideal.ofBits_def, one_f32]
  rfl

end Cert.ReferenceIdeal.RefA

end
-- ==== Proof.RefB.lean ====
/-
  The second half of the reference at an index: the state-space step, the gate, the RMS normalisation, the hidden
  row and the two heads.
-/
import proofs.«137712_j17403207483679_1_alg».proof.Proof.RefA
import Idealize.ShloMosaic.Lib.IdealHost

noncomputable section

namespace Cert.ReferenceIdeal.RefB

open Idealize.ShloMosaic Idealize.ShloMosaic.ValueIdx Cert.ReferenceIdeal Cert.ReferenceIdeal.Read Cert.Spec Cert.ReferenceIdeal.RefA

variable (a0 : (⟨S8192x512, .f32⟩ : BufTy).Contents (Elt Ideal)) (a1 : (⟨S8192x256, .f32⟩ : BufTy).Contents (Elt Ideal))
  (a2 : (⟨S768x1024, .f32⟩ : BufTy).Contents (Elt Ideal)) (a3 : (⟨S1024, .f32⟩ : BufTy).Contents (Elt Ideal))
  (a4 : (⟨S1024x4256, .f32⟩ : BufTy).Contents (Elt Ideal)) (a5 : (⟨S2176x4, .f32⟩ : BufTy).Contents (Elt Ideal))
  (a6 : (⟨S2176, .f32⟩ : BufTy).Contents (Elt Ideal)) (a7 : (⟨S32, .f32⟩ : BufTy).Contents (Elt Ideal))
  (a9 : (⟨S32, .f32⟩ : BufTy).Contents (Elt Ideal)) (a10 : (⟨S2048, .f32⟩ : BufTy).Contents (Elt Ideal))
  (a11 : (⟨S2048x1024, .f32⟩ : BufTy).Contents (Elt Ideal)) (a12 : (⟨S1024x512, .f32⟩ : BufTy).Contents (Elt Ideal))
  (a13 : (⟨S512, .f32⟩ : BufTy).Contents (Elt Ideal)) (a14 : (⟨S1024x1, .f32⟩ : BufTy).Contents (Elt Ideal))
  (a15 : (⟨S1, .f32⟩ : BufTy).Contents (Elt Ideal))

/-- Batch row `b`'s hidden row, the reference's arrangement. -/
abbrev Hr (b : Fin 8192) : Fin 1024 → EReal :=
  hR (Zr a0 a1 a2 a3 a4 b) (col a5 (3 : Fin 4)) (vec a6) (vec a7) (vec a9) (vec a10) (mat a11)

/-- Batch row `b`'s activated convolution row xBC = silu(z_conv · conv_w + conv_b). -/
private abbrev Xr (b : Fin 8192) : Fin 2176 → EReal :=
  xbcrow (zconv (Zr a0 a1 a2 a3 a4 b)) (col a5 (3 : Fin 4)) (vec a6)

/-- Batch row `b`'s gated step g = y0 · silu(z_gate), the step multiplied out. -/
private abbrev Gr (b : Fin 8192) : Fin 2048 → EReal :=
  gated (y0R (xsOf (Xr a0 a1 a2 a3 a4 a5 a6 b)) (dtrow (zdt (Zr a0 a1 a2 a3 a4 b)) (vec a7)) (bcval (Xr a0 a1 a2 a3 a4 a5 a6 b)) (vec a9)) (zgate (Zr a0 a1 a2 a3 a4 b))

/-- Channel `c` of batch row `b` as (row, head, position): c = (c / 64) · 64 + c % 64. -/
private abbrev hp (b : Fin 8192) (c : Fin 2048) : S8192x32x64.Idx :=
  ix3 b (headOf c) (⟨c.val % 64, by omega⟩ : Fin 64)

/-! ## The cuts of xBC -/

/-- The cut [0:2048] reads column `c` itself. -/
private theorem idx22 (b : Fin 8192) (c : Fin 2048) :
    idx_main_v22 (ix2 b c) = ix2 b (⟨c.val, by have := c.isLt; omega⟩ : Fin 2176) :=
  funext fun a => by match a with | ⟨0, _⟩ => rfl | ⟨1, _⟩ => rfl

/-- The cut [2048:2112] reads column 2048 + n. -/
private theorem idx24 (b : Fin 8192) (n : Fin 64) :
    idx_main_v24 (ix2 b n) = ix2 b (⟨2048 + n.val, by have := n.isLt; omega⟩ : Fin 2176) :=
  funext fun a => by match a with | ⟨0, _⟩ => rfl | ⟨1, _⟩ => rfl

/-- The cut [2112:2176] reads column 2112 + n. -/
private theorem idx25 (b : Fin 8192) (n : Fin 64) :
    idx_main_v25 (ix2 b n) = ix2 b (⟨2112 + n.val, by have := n.isLt; omega⟩ : Fin 2176) :=
  funext fun a => by match a with | ⟨0, _⟩ => rfl | ⟨1, _⟩ => rfl

/-- xs = xBC[0:2048]. -/
private theorem v22_apply (b : Fin 8192) (c : Fin 2048) :
    val_main_v22 (F := Ideal) a0 a1 a2 a3 a4 a5 a6 (ix2 b c) = xsOf (Xr a0 a1 a2 a3 a4 a5 a6 b) c := by
  rw [val_main_v22_apply, idx22, v21_apply]
  rfl

/-- The reshape to [8192, 32, 64] is row-major: position (b, c / 64, c % 64) holds channel c of row b. -/
private theorem idx23 (b : Fin 8192) (c : Fin 2048) : idx_main_v23 (hp b c) = ix2 b c :=
  funext fun a => Fin.ext (by
    have hb := b.isLt; have hc := c.isLt
    match a with
    | ⟨0, _⟩ => show ((b.val * 32 + c.val / 64) * 64 + c.val % 64) / 2048 = b.val; omega
    | ⟨1, _⟩ => show ((b.val * 32 + c.val / 64) * 64 + c.val % 64) % 2048 = c.val; omega)

/-- The reshape back to [8192, 2048]: channel c of row b comes from position (b, c / 64, c % 64). -/
private theorem idx38 (b : Fin 8192) (c : Fin 2048) : idx_main_v38 (ix2 b c) = hp b c :=
  funext fun a => Fin.ext (by
    have hb := b.isLt; have hc := c.isLt
    match a with
    | ⟨0, _⟩ => show (b.val * 2048 + c.val) / 2048 = b.val; omega
    | ⟨1, _⟩ => show (b.val * 2048 + c.val) / 64 % 32 = c.val / 64; omega
    | ⟨2, _⟩ => show (b.val * 2048 + c.val) % 64 = c.val % 64; omega)

/-- xs in heads: at (b, c / 64, c % 64) it is xs c. -/
private theorem v23_apply (b : Fin 8192) (c : Fin 2048) :
    val_main_v23 (F := Ideal) a0 a1 a2 a3 a4 a5 a6 (hp b c) = xsOf (Xr a0 a1 a2 a3 a4 a5 a6 b) c := by
  rw [val_main_v23_apply, idx23, v22_apply]

/-! ## bc = Σ B·C and the step -/

/-- bc = Σ_n B n · C n: the sum's initial value is the zero word. -/
private theorem v27_apply (b : Fin 8192) :
    val_main_v27 (F := Ideal) a0 a1 a2 a3 a4 a5 a6 (ix1 b) = bcval (Xr a0 a1 a2 a3 a4 a5 a6 b) := by
  rw [val_main_v27_apply, val_main_cst_apply, Ideal.ofBits_def, Ideal.ofBits_zero_f32, zero_add]
  unfold bcval
  refine Finset.sum_congr rfl fun n _ => ?_
  rw [show idx_main_v27 (ix1 b) n = ix2 b n from funext fun a => by match a with | ⟨0, _⟩ => rfl | ⟨1, _⟩ => rfl,
    val_main_v26_apply, val_main_v24_apply, val_main_v25_apply, idx24, idx25, v21_apply, v21_apply, Ideal.mulf_def]
  rfl

/-- dt · bc, head by head. -/
private theorem v30_apply (b : Fin 8192) (h : Fin 32) :
    val_main_v30 (F := Ideal) a0 a1 a2 a3 a4 a5 a6 a7 (ix2 b h)
      = dtrow (zdt (Zr a0 a1 a2 a3 a4 b)) (vec a7) h * bcval (Xr a0 a1 a2 a3 a4 a5 a6 b) := by
  rw [val_main_v30_apply, val_main_v29_apply, val_main_v28_apply,
    show idx_main_v28 (idx_main_v29 (ix2 b h)) = ix1 b from funext fun a => by match a with | ⟨0, _⟩ => rfl,
    v27_apply, v12_apply, Ideal.mulf_def]

/-- The step multiplied out, (dt · bc) · xs + D · xs, at (b, c / 64, c % 64). -/
private theorem v37_apply (b : Fin 8192) (c : Fin 2048) :
    val_main_v37 (F := Ideal) a0 a1 a2 a3 a4 a5 a6 a7 a9 (hp b c)
      = y0R (xsOf (Xr a0 a1 a2 a3 a4 a5 a6 b)) (dtrow (zdt (Zr a0 a1 a2 a3 a4 b)) (vec a7)) (bcval (Xr a0 a1 a2 a3 a4 a5 a6 b)) (vec a9) c := by
  rw [val_main_v37_apply, val_main_v33_apply, val_main_v36_apply, val_main_v32_apply, val_main_v31_apply,
    val_main_v35_apply, val_main_v34_apply, v23_apply,
    show idx_main_v31 (idx_main_v32 (hp b c)) = ix2 b (headOf c) from funext fun a => by match a with | ⟨0, _⟩ => rfl | ⟨1, _⟩ => rfl,
    v30_apply,
    show idx_main_v34 (idx_main_v35 (hp b c)) = ix1 (headOf c) from funext fun a => by match a with | ⟨0, _⟩ => rfl]
  simp only [Ideal.addf_def, Ideal.mulf_def]
  rfl

/-- The step as a row of 2048 channels: the two reshapes cancel. -/
private theorem v38_apply (b : Fin 8192) (c : Fin 2048) :
    val_main_v38 (F := Ideal) a0 a1 a2 a3 a4 a5 a6 a7 a9 (ix2 b c)
      = y0R (xsOf (Xr a0 a1 a2 a3 a4 a5 a6 b)) (dtrow (zdt (Zr a0 a1 a2 a3 a4 b)) (vec a7)) (bcval (Xr a0 a1 a2 a3 a4 a5 a6 b)) (vec a9) c := by
  rw [val_main_v38_apply, idx38, v37_apply]

/-! ## The gate -/

/-- silu of the gate cut: v · 1 / (1 + e⁻ᵛ), the word 0x3F800000 being one. -/
private theorem v39_apply (b : Fin 8192) (c : Fin 2048) :
    val_main_v39 (F := Ideal) a0 a1 a2 a3 a4 (ix2 b c) = silu (zgate (Zr a0 a1 a2 a3 a4 b) c) := by
  rw [val_main_v39_apply, val_main_call2_v5_apply, val_main_call2_v4_apply, val_main_call2_cst_0_apply,
    val_main_call2_v3_apply, val_main_call2_v2_apply, val_main_call2_cst_apply, val_main_call2_v1_apply,
    val_main_call2_v0_apply, v6_apply]
  simp only [Ideal.mulf_def, Ideal.hostDivf_def, Ideal.addf_def, Ideal.hostUnary_exp_def, Ideal.hostNegf_def,
    Ideal.negf_def, Ideal.ofBits_def, Ideal.ofBits_one_f32]
  rfl

/-- g = y0 · silu(z_gate). -/
private theorem v40_apply (b : Fin 8192) (c : Fin 2048) :
    val_main_v40 (F := Ideal) a0 a1 a2 a3 a4 a5 a6 a7 a9 (ix2 b c) = Gr a0 a1 a2 a3 a4 a5 a6 a7 a9 b c := by
  rw [val_main_v40_apply, v38_apply, v39_apply, Ideal.mulf_def]
  rfl

/-! ## The RMS normalisation -/

/-- Σ_c g c². -/
private theorem v42_apply (b : Fin 8192) :
    val_main_v42 (F := Ideal) a0 a1 a2 a3 a4 a5 a6 a7 a9 (ix1 b) = ∑ c : Fin 2048, Gr a0 a1 a2 a3 a4 a5 a6 a7 a9 b c * Gr a0 a1 a2 a3 a4 a5 a6 a7 a9 b c := by
  rw [val_main_v42_apply, val_main_cst_0_apply, Ideal.ofBits_def, Ideal.ofBits_zero_f32, zero_add]
  refine Finset.sum_congr rfl fun k _ => ?_
  rw [show idx_main_v42 (ix1 b) k = ix2 b k from funext fun a => by match a with | ⟨0, _⟩ => rfl | ⟨1, _⟩ => rfl,
    val_main_v41_apply, v40_apply, Ideal.mulf_def]

/-- rsqrt(Σ g² / 2048 + ε), the divisor and ε kept as their words. -/
private theorem v48_apply (b : Fin 8192) (j : Fin 1) :
    val_main_v48 (F := Ideal) a0 a1 a2 a3 a4 a5 a6 a7 a9 (ix2 b j) = rinv (Gr a0 a1 a2 a3 a4 a5 a6 a7 a9 b) := by
  rw [val_main_v48_apply, val_main_v47_apply, val_main_v46_apply, val_main_cst_2_apply, val_main_v45_apply,
    val_main_v44_apply, val_main_cst_1_apply, val_main_v43_apply,
    show idx_main_v43 (ix2 b j) = ix1 b from funext fun a => by match a with | ⟨0, _⟩ => rfl,
    v42_apply]
  simp only [Ideal.hostUnary_rsqrt_def, Ideal.addf_def, Ideal.hostDivf_def, Ideal.ofBits_def]
  rfl

/-- y = g · rsqrt(mean g² + ε) · rms_w. -/
private theorem v53_apply (b : Fin 8192) (c : Fin 2048) :
    val_main_v53 (F := Ideal) a0 a1 a2 a3 a4 a5 a6 a7 a9 a10 (ix2 b c) = ynorm (Gr a0 a1 a2 a3 a4 a5 a6 a7 a9 b) (vec a10) c := by
  rw [val_main_v53_apply, val_main_v50_apply, val_main_v49_apply, val_main_v52_apply, val_main_v51_apply, v40_apply,
    show idx_main_v49 (ix2 b c) = ix2 b (⟨0, Nat.one_pos⟩ : Fin 1) from funext fun a => by match a with | ⟨0, _⟩ => rfl | ⟨1, _⟩ => rfl,
    v48_apply,
    show idx_main_v51 (idx_main_v52 (ix2 b c)) = ix1 c from funext fun a => by match a with | ⟨0, _⟩ => rfl]
  simp only [Ideal.mulf_def]
  rfl

/-! ## The hidden row and the two heads -/

theorem v54_apply (b : Fin 8192) (k : Fin 1024) :
    val_main_v54 (F := Ideal) a0 a1 a2 a3 a4 a5 a6 a7 a9 a10 a11 (ix2 b k) = Hr a0 a1 a2 a3 a4 a5 a6 a7 a9 a10 a11 b k := by
  rw [val_main_v54_apply]
  show _ = ∑ c : Fin 2048, ynorm (Gr a0 a1 a2 a3 a4 a5 a6 a7 a9 b) (vec a10) c * mat a11 c k
  refine Finset.sum_congr rfl fun c _ => ?_
  rw [show lidx_main_v54 (ix2 b k) c = ix2 b c from funext fun a => by match a with | ⟨0, _⟩ => rfl | ⟨1, _⟩ => rfl,
    show ridx_main_v54 (ix2 b k) c = ix2 c k from funext fun a => by match a with | ⟨0, _⟩ => rfl | ⟨1, _⟩ => rfl,
    v53_apply]
  rfl

theorem v58_apply (b : Fin 8192) (o : Fin 512) :
    val_main_v58 (F := Ideal) a0 a1 a2 a3 a4 a5 a6 a7 a9 a10 a11 a12 a13 (ix2 b o)
      = obsrow (Hr a0 a1 a2 a3 a4 a5 a6 a7 a9 a10 a11 b) (mat a12) (vec a13) o := by
  rw [val_main_v58_apply, val_main_v55_apply, val_main_v57_apply, val_main_v56_apply, Ideal.addf_def]
  show _ + _ = (∑ k : Fin 1024, Hr a0 a1 a2 a3 a4 a5 a6 a7 a9 a10 a11 b k * mat a12 k o) + a13 (ix1 o)
  refine congrArg₂ (· + ·) (Finset.sum_congr rfl fun k _ => ?_) ?_
  · rw [show lidx_main_v55 (ix2 b o) k = ix2 b k from funext fun a => by match a with | ⟨0, _⟩ => rfl | ⟨1, _⟩ => rfl,
      show ridx_main_v55 (ix2 b o) k = ix2 k o from funext fun a => by match a with | ⟨0, _⟩ => rfl | ⟨1, _⟩ => rfl,
      v54_apply]
    rfl
  · exact congrArg a13 (funext fun a => by match a with | ⟨0, _⟩ => rfl)

theorem v63_apply (b : Fin 8192) :
    val_main_v63 (F := Ideal) a0 a1 a2 a3 a4 a5 a6 a7 a9 a10 a11 a14 a15 (ix1 b)
      = rewval (Hr a0 a1 a2 a3 a4 a5 a6 a7 a9 a10 a11 b) (col a14 (0 : Fin 1)) (vec a15 (0 : Fin 1)) := by
  rw [val_main_v63_apply, val_main_v62_apply, val_main_v59_apply, val_main_v61_apply, val_main_v60_apply, Ideal.addf_def]
  show _ + _ = (∑ k : Fin 1024, Hr a0 a1 a2 a3 a4 a5 a6 a7 a9 a10 a11 b k * col a14 (0 : Fin 1) k) + a15 (ix1 (0 : Fin 1))
  refine congrArg₂ (· + ·) (Finset.sum_congr rfl fun k _ => ?_) ?_
  · rw [show lidx_main_v59 (idx_main_v63 (ix1 b)) k = ix2 b k from
        funext fun a => by match a with | ⟨0, _⟩ => exact Fin.ext (Nat.div_one _) | ⟨1, _⟩ => rfl,
      show ridx_main_v59 (idx_main_v63 (ix1 b)) k = ix2 k (0 : Fin 1) from funext fun a => by match a with | ⟨0, _⟩ => rfl | ⟨1, _⟩ => rfl,
      v54_apply]
    rfl
  · exact congrArg a15 (funext fun a => by match a with | ⟨0, _⟩ => rfl)

end Cert.ReferenceIdeal.RefB

end
-- ==== Proof.PreFin.lean ====
/-
  The precondition read: when "every |x| < +∞" evaluates to all ones at the ideal instance, every entry of every
  argument array is a real number.
-/
import proofs.«137712_j17403207483679_1_alg».proof.Pre_finite_inputs
import proofs.«137712_j17403207483679_1_alg».proof.Proof.Gen.Pre_finite_inputs
import proofs.«137712_j17403207483679_1_alg».proof.Proof.Spec
import Idealize.ShloMosaic.Lib.ReduceAll

noncomputable section

namespace Cert.Pre_finite_inputs.Fin

open Idealize.ShloMosaic Cert.Pre_finite_inputs Cert.Spec

/-- The rank-0 index type has exactly one element: two indices agree on each of their zero coordinates. -/
private instance : Subsingleton S_.Idx := ⟨fun a b => funext fun d => d.elim0⟩

/-- The f32 word 0x7F800000 denotes +∞. -/
private theorem inf_word : Ideal.ofBits .f32 0x7F800000#32 = (⊤ : EReal) := by
  simp [Ideal.ofBits, Ideal.ieee]

/-- An extended real whose absolute value max x (-x) lies below +∞ is neither +∞ nor -∞. -/
private theorem fin_of_abs_lt_top (x : EReal) (h : max x (-x) < ⊤) : Fin_ x := by
  refine ⟨?_, ?_⟩
  · rintro rfl; simp at h
  · rintro rfl; simp at h

/-- The ordered comparison `<` on the extended reals yields the word 1 only where `x < y` holds. -/
private theorem cmp_olt_one {x y : EReal} (h : Ideal.cmp .olt x y = 1#1) : x < y := by
  unfold Ideal.cmp at h
  by_contra hn
  simp [hn] at h

/-- One array's conjunct: if the conjunction over every index of `|a i| < +∞` is 1, then each element of that
    conjunction is 1, so each `|a i| = max (a i) (-(a i))` lies strictly below `⊤`, and `a i` is a real. -/
private theorem fin_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
      (constantI S_ 1 1#1) hr hu ValueIdx.ix0 = 1#1) :
    ∀ i, Fin_ (a i) := by
  intro i
  have h1 := Host.reduce_andi_all _ _ hr hu _ e i
  have h2 : Ideal.cmp .olt (max (a i) (-(a i))) (Ideal.ofBits .f32 0x7F800000#32) = 1#1 := h1
  rw [inf_word] at h2
  exact fin_of_abs_lt_top _ (cmp_olt_one h2)

theorem fin_of_pre [Cert.Pre_finite_inputs.Facts]
    (a0 : FVec Ideal S8192x512 .f32) (a1 : FVec Ideal S8192x256 .f32) (a2 : FVec Ideal S768x1024 .f32) (a3 : FVec Ideal S1024 .f32)
    (a4 : FVec Ideal S1024x4256 .f32) (a5 : FVec Ideal S2176x4 .f32) (a6 : FVec Ideal S2176 .f32) (a7 : FVec Ideal S32 .f32)
    (a8 : FVec Ideal S32 .f32) (a9 : FVec Ideal S32 .f32) (a10 : FVec Ideal S2048 .f32) (a11 : FVec Ideal S2048x1024 .f32)
    (a12 : FVec Ideal S1024x512 .f32) (a13 : FVec Ideal S512 .f32) (a14 : FVec Ideal S1024x1 .f32) (a15 : FVec Ideal S1 .f32)
    (h : fn (F := Ideal) a0 a1 a2 a3 a4 a5 a6 a7 a8 a9 a10 a11 a12 a13 a14 a15 = fun _ => 1#1) :
    (∀ i, Fin_ (a0 i)) ∧ (∀ i, Fin_ (a1 i)) ∧ (∀ i, Fin_ (a2 i)) ∧ (∀ i, Fin_ (a3 i)) ∧ (∀ i, Fin_ (a4 i)) ∧ (∀ i, Fin_ (a5 i))
    ∧ (∀ i, Fin_ (a6 i)) ∧ (∀ i, Fin_ (a7 i)) ∧ (∀ i, Fin_ (a9 i)) ∧ (∀ i, Fin_ (a10 i)) ∧ (∀ i, Fin_ (a11 i))
    ∧ (∀ i, Fin_ (a12 i)) ∧ (∀ i, Fin_ (a13 i)) ∧ (∀ i, Fin_ (a14 i)) ∧ (∀ i, Fin_ (a15 i)) := by
  -- The precondition at its single index is the conjunction, associated to the left, of sixteen all-index
  -- conjunctions, one per argument array; a conjunction of one-bit words is 1 exactly when each word is 1.
  have h0 := congrFun h ValueIdx.ix0
  dsimp only [fn, fn_part1, fn_part2, fn_part3, fn_part4, andi] at h0
  simp only [IntOp.andi_eq_one] at h0
  obtain ⟨⟨⟨⟨⟨⟨⟨⟨⟨⟨⟨⟨⟨⟨⟨e0, e1⟩, e2⟩, e3⟩, e4⟩, e5⟩, e6⟩, e7⟩, _⟩, e9⟩, e10⟩, e11⟩, e12⟩, e13⟩, e14⟩, e15⟩ := h0
  -- Each array's conjunct gives that array's entries real; the ninth array's conjunct is not used.
  exact ⟨fin_of_all a0 _ _ _ e0, fin_of_all a1 _ _ _ e1, fin_of_all a2 _ _ _ e2, fin_of_all a3 _ _ _ e3,
    fin_of_all a4 _ _ _ e4, fin_of_all a5 _ _ _ e5, fin_of_all a6 _ _ _ e6, fin_of_all a7 _ _ _ e7,
    fin_of_all a9 _ _ _ e9, fin_of_all a10 _ _ _ e10, fin_of_all a11 _ _ _ e11, fin_of_all a12 _ _ _ e12,
    fin_of_all a13 _ _ _ e13, fin_of_all a14 _ _ _ e14, fin_of_all a15 _ _ _ e15⟩

end Cert.Pre_finite_inputs.Fin

end
-- ==== Proof.lean ====
/-
  The kernel and the reference compute, batch row by batch row, the same function of the arguments on the extended reals.

  Kernel side: one grid point handles 128 batch rows; its body, read index by index, is the row-wise chain of
  Proof/Spec.lean in the kernel's arrangement (Proof/PayA.lean, Proof/PayB.lean); the blocks the 64 points write back
  tile the two result arrays, and the closing reshape turns the reward column into a vector (Proof/KernelArr.lean); the
  arrays the windows stage are the arguments re-laid by the host lines (Proof/HostPre.lean). Reference side: its run,
  read one operation at a time, is the same chain in the reference's arrangement (Proof/RefA.lean, Proof/RefB.lean).
  The two arrangements differ in the state-space step, `xs · (dt·bc + D)` against `(dt·bc)·xs + D·xs`: equal on real
  numbers, and every intermediate value is a real number because every input is (Proof/Algebra.lean reads the law,
  Proof/PreFin.lean the precondition, Proof/Bridge.lean joins the two sides).
  The three frames are the generated ones (the reference's is its run with the results dropped); the idealization
  rewrote nothing, so `preserves` is trivial.
-/
import proofs.«137712_j17403207483679_1_alg».proof.Defs
import proofs.«137712_j17403207483679_1_alg».proof.Proof.Gen.Kernel
import proofs.«137712_j17403207483679_1_alg».proof.Proof.Gen.Kernel.Skeleton
import proofs.«137712_j17403207483679_1_alg».proof.Proof.Gen.Kernel.Launch
import proofs.«137712_j17403207483679_1_alg».proof.Proof.Gen.Kernel.Points
import proofs.«137712_j17403207483679_1_alg».proof.Proof.Gen.Kernel.Frame
import proofs.«137712_j17403207483679_1_alg».proof.Proof.Gen.KernelIdeal
import proofs.«137712_j17403207483679_1_alg».proof.Proof.Gen.KernelIdeal.Skeleton
import proofs.«137712_j17403207483679_1_alg».proof.Proof.Gen.KernelIdeal.Launch
import proofs.«137712_j17403207483679_1_alg».proof.Proof.Gen.KernelIdeal.Points
import proofs.«137712_j17403207483679_1_alg».proof.Proof.Gen.KernelIdeal.Frame
import proofs.«137712_j17403207483679_1_alg».proof.Proof.Gen.ReferenceIdeal
import proofs.«137712_j17403207483679_1_alg».proof.Proof.Gen.Pre_finite_inputs
import proofs.«137712_j17403207483679_1_alg».proof.Proof.Gen.ReferenceIdeal.Run
import proofs.«137712_j17403207483679_1_alg».proof.Proof.Gen.ReferenceIdeal.Read
import proofs.«137712_j17403207483679_1_alg».proof.Proof.Bridge
import proofs.«137712_j17403207483679_1_alg».proof.Proof.RefB
import proofs.«137712_j17403207483679_1_alg».proof.Proof.PreFin
import Idealize.ShloMosaic.Adequacy
import Idealize.ShloMosaic.Init

set_option maxRecDepth 16384

noncomputable section

namespace Cert.Proof

open Idealize.ShloMosaic Idealize.ShloMosaic.ValueIdx Idealize.SL.Sem

/-- At the ideal instance, from memories agreeing on the sixteen arguments, the kernel ends with the next-observation
    array and the reward vector at the reference's values: at (b, o) and at b both are the two heads applied to batch
    row b's hidden row. -/
theorem algebraic : Cert.algebraic_KernelIdeal_ReferenceIdeal := by
  intro m ρ m' ρ' hpre hagree
  refine ⟨fun c => Cert.KernelIdeal.Arr.G16 m c, fun c => Cert.KernelIdeal.Arr.R26 m c, Cert.KernelIdeal.Arr.run_vals m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨f0, f1, f2, f3, f4, f5, f6, f7, f9, f10, f11, f12, f13, f14, f15⟩ :=
      Cert.Pre_finite_inputs.Fin.fin_of_pre _ _ _ _ _ _ _ _ _ _ _ _ _ _ _ _ (hpre c)
    obtain ⟨g0, g1, g2, g3, g4, g5, g6, g7, g8, g9, g10, g11, g12, g13, g14, g15⟩ := hagree c
    rw [Cert.ReferenceIdeal.Read.val_main_v58_eq, g0, g1, g2, g3, g4, g5, g6, g7, g9, g10, g11, g12, g13]
    funext i
    obtain ⟨b, o, rfl⟩ : ∃ (b : Fin 8192) (o : Fin 512), i = ix2 b o := ⟨i 0, i 1, eq_ix2 i⟩
    rw [Cert.ReferenceIdeal.RefB.v58_apply]
    exact (Cert.KernelIdeal.Bridge.G16_eq m c f0 f1 f2 f3 f4 f5 f6 f7 f9 b o).symm
  · obtain ⟨f0, f1, f2, f3, f4, f5, f6, f7, f9, f10, f11, f12, f13, f14, f15⟩ :=
      Cert.Pre_finite_inputs.Fin.fin_of_pre _ _ _ _ _ _ _ _ _ _ _ _ _ _ _ _ (hpre c)
    obtain ⟨g0, g1, g2, g3, g4, g5, g6, g7, g8, g9, g10, g11, g12, g13, g14, g15⟩ := hagree c
    rw [Cert.ReferenceIdeal.Read.val_main_v63_eq, g0, g1, g2, g3, g4, g5, g6, g7, g9, g10, g11, g14, g15]
    funext i
    obtain ⟨b, rfl⟩ : ∃ b : Fin 8192, i = ix1 b := ⟨i 0, eq_ix1 i⟩
    rw [Cert.ReferenceIdeal.RefB.v63_apply]
    exact (Cert.KernelIdeal.Bridge.R26_eq m c f0 f1 f2 f3 f4 f5 f6 f7 f9 b).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
